-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x600x91 : Shape := ⟨3, ![16, 600, 91]⟩
abbrev S16x600x4 : Shape := ⟨3, ![16, 600, 4]⟩
abbrev S1024 : Shape := ⟨1, ![1024]⟩
abbrev S1024x4 : Shape := ⟨2, ![1024, 4]⟩
abbrev S_ : Shape := ⟨0, ![]⟩

class Facts : Prop where
  bcast_S_S16x600x91 : S_.BroadcastsInDim S16x600x91 (![] : Fin 0 → Fin S16x600x91.rank)
  reducesTo_S16x600x91_S_d0_1_2 : S16x600x91.ReducesTo [0, 1, 2] S_
  h_S_ : 0 < S_.numel
  bcast_S_S16x600x4 : S_.BroadcastsInDim S16x600x4 (![] : Fin 0 → Fin S16x600x4.rank)
  reducesTo_S16x600x4_S_d0_1_2 : S16x600x4.ReducesTo [0, 1, 2] S_
  bcast_S_S1024x4 : S_.BroadcastsInDim S1024x4 (![] : Fin 0 → Fin S1024x4.rank)
  reducesTo_S1024x4_S_d0_1 : S1024x4.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg2 : IVec S1024 32) (main_v13 : IVec S_ 1) (main_v15 : IVec S1024 1) (main_c_5 : IVec S_ 32) : IVec S_ 1 :=
  let main_v16 : IVec S1024 32 := broadcastInDim S1024 ![] bcast_S_S1024 main_c_5
  let main_v17 : IVec S1024 1 := cmpi .slt main_arg2 main_v16
  let main_v18 : IVec S1024 1 := andi main_v15 main_v17
  let main_c_6 : IVec S_ 1 := constantI S_ 1 1#1
  let main_v19 : IVec S_ 1 := (fun x v => Host.reduce IntOp.andi x v reducesTo_S1024_S_d0 h_S_) main_v18 main_c_6
  let main_v20 : IVec S_ 1 := andi main_v13 main_v19
  main_v20

def fn {F : FTy → Type} [FloatOps F] (main_arg0 : FVec F S16x600x91 .f32) (main_arg1 : FVec F S16x600x4 .f32) (main_arg2 : IVec S1024 32) (main_arg3 : FVec F S1024x4 .f32) : IVec S_ 1 :=
  let main_v0 : FVec F S16x600x91 .f32 := Host.absf main_arg0
  let main_cst : FVec F S_ .f32 := constant S_ .f32 0x7F800000#32
  let main_v1 : FVec F S16x600x91 .f32 := broadcastInDim S16x600x91 ![] bcast_S_S16x600x91 main_cst
  let main_v2 : IVec S16x600x91 1 := cmpf .olt main_v0 main_v1
  let main_c : IVec S_ 1 := constantI S_ 1 1#1
  let main_v3 : IVec S_ 1 := (fun x v => Host.reduce IntOp.andi x v reducesTo_S16x600x91_S_d0_1_2 h_S_) main_v2 main_c
  let main_v4 : FVec F S16x600x4 .f32 := Host.absf main_arg1
  let main_cst_0 : FVec F S_ .f32 := constant S_ .f32 0x7F800000#32
  let main_v5 : FVec F S16x600x4 .f32 := broadcastInDim S16x600x4 ![] bcast_S_S16x600x4 main_cst_0
  let main_v6 : IVec S16x600x4 1 := cmpf .olt main_v4 main_v5
  let main_c_1 : IVec S_ 1 := constantI S_ 1 1#1
  let main_v7 : IVec S_ 1 := (fun x v => Host.reduce IntOp.andi x v reducesTo_S16x600x4_S_d0_1_2 h_S_) main_v6 main_c_1
  let main_v8 : IVec S_ 1 := andi main_v3 main_v7
  let main_v9 : FVec F S1024x4 .f32 := Host.absf main_arg3
  let main_cst_2 : FVec F S_ .f32 := constant S_ .f32 0x7F800000#32
  let main_v10 : FVec F S1024x4 .f32 := broadcastInDim S1024x4 ![] bcast_S_S1024x4 main_cst_2
  let main_v11 : IVec S1024x4 1 := cmpf .olt main_v9 main_v10
  let main_c_3 : IVec S_ 1 := constantI S_ 1 1#1
  let main_v12 : IVec S_ 1 := (fun x v => Host.reduce IntOp.andi x v reducesTo_S1024x4_S_d0_1 h_S_) main_v11 main_c_3
  let main_v13 : IVec S_ 1 := andi main_v8 main_v12
  let main_c_4 : IVec S_ 32 := constantI S_ 32 0#32
  let main_v14 : IVec S1024 32 := broadcastInDim S1024 ![] bcast_S_S1024 main_c_4
  let main_v15 : IVec S1024 1 := cmpi .sge main_arg2 main_v14
  let main_c_5 : IVec S_ 32 := constantI S_ 32 91#32
  fn_part1 (F := F) main_arg2 main_v13 main_v15 main_c_5
-- ==== Kernel.lean ====
abbrev S16x600x91 : Shape := ⟨3, ![16, 600, 91]⟩
abbrev S16x600x4 : Shape := ⟨3, ![16, 600, 4]⟩
abbrev S1024 : Shape := ⟨1, ![1024]⟩
abbrev S1024x4 : Shape := ⟨2, ![1024, 4]⟩
abbrev S9600x91 : Shape := ⟨2, ![9600, 91]⟩
abbrev S9600x4 : Shape := ⟨2, ![9600, 4]⟩
abbrev S_ : Shape := ⟨0, ![]⟩
abbrev S1024x1 : Shape := ⟨2, ![1024, 1]⟩
abbrev S1x91 : Shape := ⟨2, ![1, 91]⟩
abbrev S1024x91 : Shape := ⟨2, ![1024, 91]⟩
abbrev S91x1024 : Shape := ⟨2, ![91, 1024]⟩
abbrev S1x1024 : Shape := ⟨2, ![1, 1024]⟩
abbrev S16x1024 : Shape := ⟨2, ![16, 1024]⟩
abbrev S9600x1024 : Shape := ⟨2, ![9600, 1024]⟩
abbrev S384x91 : Shape := ⟨2, ![384, 91]⟩
abbrev S384x4 : Shape := ⟨2, ![384, 4]⟩
abbrev S384x1024 : Shape := ⟨2, ![384, 1024]⟩
abbrev S384 : Shape := ⟨1, ![384]⟩
abbrev S384x1 : Shape := ⟨2, ![384, 1]⟩
abbrev S16x600x1024 : Shape := ⟨3, ![16, 600, 1024]⟩

abbrev nBuf : Space → Nat
  | .hbm => 69
  | .vmem => 8
  | .smem => 0
  | _ => 0

abbrev bufTy : (tb : Table) → Fin (tcTables nBuf tb) → BufTy
  | .hbm, ⟨0, _⟩ => ⟨S16x600x91, .f32⟩
  | .hbm, ⟨1, _⟩ => ⟨S16x600x4, .f32⟩
  | .hbm, ⟨2, _⟩ => ⟨S1024, .i32⟩
  | .hbm, ⟨3, _⟩ => ⟨S1024x4, .f32⟩
  | .hbm, ⟨4, _⟩ => ⟨S9600x91, .f32⟩
  | .hbm, ⟨5, _⟩ => ⟨S9600x4, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024x1, .i32⟩
  | .hbm, ⟨15, _⟩ => ⟨S1x91, .i32⟩
  | .hbm, ⟨16, _⟩ => ⟨S1024x91, .i32⟩
  | .hbm, ⟨17, _⟩ => ⟨S1024x91, .i32⟩
  | .hbm, ⟨18, _⟩ => ⟨S1024x91, .i1⟩
  | .hbm, ⟨19, _⟩ => ⟨S1024x91, .bf16⟩
  | .hbm, ⟨20, _⟩ => ⟨S91x1024, .bf16⟩
  | .hbm, ⟨21, _⟩ => ⟨S1024x1, .f32⟩
  | .hbm, ⟨22, _⟩ => ⟨S1024, .f32⟩
  | .hbm, ⟨23, _⟩ => ⟨S1024x1, .f32⟩
  | .hbm, ⟨24, _⟩ => ⟨S1024, .f32⟩
  | .hbm, ⟨25, _⟩ => ⟨S1024x1, .f32⟩
  | .hbm, ⟨26, _⟩ => ⟨S1024, .f32⟩
  | .hbm, ⟨27, _⟩ => ⟨S1024x1, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S16x1024, .f32⟩
  | .hbm, ⟨67, _⟩ => ⟨S9600x1024, .f32⟩
  | .hbm, ⟨68, _⟩ => ⟨S16x600x1024, .f32⟩
  | .local _ .vmem, ⟨0, _⟩ => ⟨S384x91, .f32⟩
  | .local _ .vmem, ⟨1, _⟩ => ⟨S384x91, .f32⟩
  | .local _ .vmem, ⟨2, _⟩ => ⟨S384x4, .f32⟩
  | .local _ .vmem, ⟨3, _⟩ => ⟨S384x4, .f32⟩
  | .local _ .vmem, ⟨4, _⟩ => ⟨S91x1024, .bf16⟩
  | .local _ .vmem, ⟨5, _⟩ => ⟨S16x1024, .f32⟩
  | .local _ .vmem, ⟨6, _⟩ => ⟨S384x1024, .f32⟩
  | .local _ .vmem, ⟨7, _⟩ => ⟨S384x1024, .f32⟩
  | _, _ => ⟨S16x600x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S91x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x600x91_S9600x91 : S16x600x91.ShapeCasts S9600x91
  shapeCasts_S16x600x4_S9600x4 : S16x600x4.ShapeCasts S9600x4
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x91_0_1 : S1024x1.BroadcastsInDim S1024x91 (![0, 1] : Fin 2 → Fin S1024x91.rank)
  bcast_S1x91_S1024x91_0_1 : S1x91.BroadcastsInDim S1024x91 (![0, 1] : Fin 2 → Fin S1024x91.rank)
  transposes_S1024x91_S91x1024_1_0 : S1024x91.Transposes [1, 0] S91x1024
  slices_S1024x4_S1024x1_0_0 : S1024x4.Slices ![0, 0] S1024x1
  shapeCasts_S1024x1_S1024 : S1024x1.ShapeCasts S1024
  slices_S1024x4_S1024x1_0_1 : S1024x4.Slices ![0, 1] S1024x1
  slices_S1024x4_S1024x1_0_2 : S1024x4.Slices ![0, 2] S1024x1
  slices_S1024x4_S1024x1_0_3 : S1024x4.Slices ![0, 3] S1024x1
  bcast_S1024_S1x1024_1 : S1024.BroadcastsInDim S1x1024 (![1] : Fin 1 → Fin S1x1024.rank)
  concatenates_S1x1024_S1x1024_S1x1024_S1x1024_S1x1024_S1x1024_S1x1024_S1x1024_S1x1024_S1x1024_S1x1024_S1x1024_S1x1024_S1x1024_S1x1024_S1x1024_S16x1024_d0 : Shape.Concatenates [S1x1024, S1x1024, S1x1024, S1x1024, S1x1024, S1x1024, S1x1024, S1x1024, S1x1024, S1x1024, S1x1024, S1x1024, S1x1024, S1x1024, S1x1024, S1x1024] S16x1024 0
  inb_S384x91_S384x91_0_0 : ∀ a, (![0, 0] : Fin 2 → Nat) a + S384x91.size a ≤ S384x91.size a
  h_S384x91 : 0 < S384x91.numel
  shapeCasts_S384x91_S384x91 : S384x91.ShapeCasts S384x91
  reduces_S384x91_S384 : S384x91.Reduces [1] S384
  shapeCasts_S384_S384x1 : S384.ShapeCasts S384x1
  broadcasts_S384x1_S384x91 : S384x1.Broadcasts S384x91
  inb_S91x1024_S91x1024_0_0 : ∀ a, (![0, 0] : Fin 2 → Nat) a + S91x1024.size a ≤ S91x1024.size a
  h_S91x1024 : 0 < S91x1024.numel
  shapeCasts_S91x1024_S91x1024 : S91x1024.ShapeCasts S91x1024
  bitsLt_bf16_f32 : FTy.bits .bf16 < FTy.bits .f32
  inb_S384x4_S384x4_0_0 : ∀ a, (![0, 0] : Fin 2 → Nat) a + S384x4.size a ≤ S384x4.size a
  h_S384x4 : 0 < S384x4.numel
  shapeCasts_S384x4_S384x4 : S384x4.ShapeCasts S384x4
  slices_S384x4_o0_0_S384x1 : S384x4.Slices ![0, 0] S384x1
  slices_S384x4_o0_1_S384x1 : S384x4.Slices ![0, 1] S384x1
  slices_S384x4_o0_2_S384x1 : S384x4.Slices ![0, 2] S384x1
  slices_S384x4_o0_3_S384x1 : S384x4.Slices ![0, 3] S384x1
  inb_S16x1024_S1x1024_0_0 : ∀ a, (![0, 0] : Fin 2 → Nat) a + S1x1024.size a ≤ S16x1024.size a
  h_S1x1024 : 0 < S1x1024.numel
  shapeCasts_S1x1024_S1x1024 : S1x1024.ShapeCasts S1x1024
  inb_S16x1024_S1x1024_1_0 : ∀ a, (![1, 0] : Fin 2 → Nat) a + S1x1024.size a ≤ S16x1024.size a
  inb_S16x1024_S1x1024_2_0 : ∀ a, (![2, 0] : Fin 2 → Nat) a + S1x1024.size a ≤ S16x1024.size a
  inb_S16x1024_S1x1024_3_0 : ∀ a, (![3, 0] : Fin 2 → Nat) a + S1x1024.size a ≤ S16x1024.size a
  inb_S16x1024_S1x1024_4_0 : ∀ a, (![4, 0] : Fin 2 → Nat) a + S1x1024.size a ≤ S16x1024.size a
  inb_S16x1024_S1x1024_5_0 : ∀ a, (![5, 0] : Fin 2 → Nat) a + S1x1024.size a ≤ S16x1024.size a
  inb_S16x1024_S1x1024_6_0 : ∀ a, (![6, 0] : Fin 2 → Nat) a + S1x1024.size a ≤ S16x1024.size a
  inb_S16x1024_S1x1024_7_0 : ∀ a, (![7, 0] : Fin 2 → Nat) a + S1x1024.size a ≤ S16x1024.size a
  inb_S16x1024_S1x1024_8_0 : ∀ a, (![8, 0] : Fin 2 → Nat) a + S1x1024.size a ≤ S16x1024.size a
  broadcasts_S384x1_S384x1024 : S384x1.Broadcasts S384x1024
  broadcasts_S1x1024_S384x1024 : S1x1024.Broadcasts S384x1024
  inb_S384x1024_S384x1024_0_0 : ∀ a, (![0, 0] : Fin 2 → Nat) a + S384x1024.size a ≤ S384x1024.size a
  h_S384x1024 : 0 < S384x1024.numel
  shapeCasts_S9600x1024_S16x600x1024 : S9600x1024.ShapeCasts S16x600x1024
  dot_S384x91_S91x1024_S384x1024_1_0_0_1_n_n_wf : DotDims.WF S384x91 S91x1024 S384x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S384x91.size a ≤ S9600x91.size a
  hwx0_0 : ∀ i : grid0.Coords, EltTy.bits .f32 = 32 ∨ (Rect.block (s := S9600x91) S384x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S384x4.size a ≤ S9600x4.size a
  hwx0_1 : ∀ i : grid0.Coords, EltTy.bits .f32 = 32 ∨ (Rect.block (s := S9600x4) S384x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S91x1024.size a ≤ S91x1024.size a
  hwx0_2 : ∀ i : grid0.Coords, EltTy.bits .bf16 = 32 ∨ (Rect.block (s := S91x1024) S91x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x1024.size a
  hwx0_3 : ∀ i : grid0.Coords, EltTy.bits .f32 = 32 ∨ (Rect.block (s := S16x1024) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S384x1024.size a ≤ S9600x1024.size a
  hwx0_4 : ∀ i : grid0.Coords, EltTy.bits .f32 = 32 ∨ (Rect.block (s := S9600x1024) S384x1024.size (cc0_transform_4 i) (hinb0_4 i)).WholeWords (EltTy.packing .f32)

variable [Facts₀]

def dot_S384x91_S91x1024_S384x1024_1_0_0_1_n_n : DotDims S384x91 S91x1024 S384x1024 where
  lhsContracting := [1]
  rhsContracting := [0]
  lhsNonContracting := [0]
  rhsNonContracting := [1]
  lhsBatch := []
  rhsBatch := []
  wf := dot_S384x91_S91x1024_S384x1024_1_0_0_1_n_n_wf

abbrev win0_0 : Pipeline.Window sig grid0 :=
  Pipeline.Window.ofSpec (Memref.whole main_v0) S384x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S384x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S91x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S16x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S384x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x600x91 : Shape := ⟨3, ![16, 600, 91]⟩
abbrev S16x600x4 : Shape := ⟨3, ![16, 600, 4]⟩
abbrev S1024 : Shape := ⟨1, ![1024]⟩
abbrev S1024x4 : Shape := ⟨2, ![1024, 4]⟩
abbrev S9600x91 : Shape := ⟨2, ![9600, 91]⟩
abbrev S_ : Shape := ⟨0, ![]⟩
abbrev S9600 : Shape := ⟨1, ![9600]⟩
abbrev S9600x1 : Shape := ⟨2, ![9600, 1]⟩
abbrev S9600x4 : Shape := ⟨2, ![9600, 4]⟩
abbrev S1024x1 : Shape := ⟨2, ![1024, 1]⟩
abbrev S9600x1024 : Shape := ⟨2, ![9600, 1024]⟩
abbrev S9600x1x4 : Shape := ⟨3, ![9600, 1, 4]⟩
abbrev S1x1024x4 : Shape := ⟨3, ![1, 1024, 4]⟩
abbrev S9600x1024x4 : Shape := ⟨3, ![9600, 1024, 4]⟩
abbrev S9600x2 : Shape := ⟨2, ![9600, 2]⟩
abbrev S9600x1x2 : Shape := ⟨3, ![9600, 1, 2]⟩
abbrev S1024x2 : Shape := ⟨2, ![1024, 2]⟩
abbrev S1x1024x2 : Shape := ⟨3, ![1, 1024, 2]⟩
abbrev S9600x1024x2 : Shape := ⟨3, ![9600, 1024, 2]⟩
abbrev S9600x1024x1 : Shape := ⟨3, ![9600, 1024, 1]⟩
abbrev S1x1024 : Shape := ⟨2, ![1, 1024]⟩
abbrev S16x600x1024 : Shape := ⟨3, ![16, 600, 1024]⟩

abbrev nBuf : Space → Nat
  | .hbm => 189
  | .vmem => 0
  | .smem => 0
  | _ => 0

abbrev hbmTy0_0 (i : Nat) : BufTy := match i % 128 with
  | 0 => ⟨S16x600x91, .f32⟩
  | 1 => ⟨S16x600x4, .f32⟩
  | 2 => ⟨S1024, .i32⟩
  | 3 => ⟨S1024x4, .f32⟩
  | 4 => ⟨S9600x91, .f32⟩
  | 5 => ⟨S_, .f32⟩
  | 6 => ⟨S9600, .f32⟩
  | 7 => ⟨S_, .f32⟩
  | 8 => ⟨S9600, .f32⟩
  | 9 => ⟨S9600, .f32⟩
  | 10 => ⟨S9600x1, .f32⟩
  | 11 => ⟨S9600x91, .f32⟩
  | 12 => ⟨S9600x91, .f32⟩
  | 13 => ⟨S9600x91, .f32⟩
  | 14 => ⟨S_, .f32⟩
  | 15 => ⟨S9600, .f32⟩
  | 16 => ⟨S9600x1, .f32⟩
  | 17 => ⟨S9600x91, .f32⟩
  | 18 => ⟨S9600x91, .f32⟩
  | 19 => ⟨S9600x4, .f32⟩
  | 20 => ⟨S_, .i32⟩
  | 21 => ⟨S1024, .i32⟩
  | 22 => ⟨S1024, .i1⟩
  | 23 => ⟨S_, .i32⟩
  | 24 => ⟨S1024, .i32⟩
  | 25 => ⟨S1024, .i32⟩
  | 26 => ⟨S1024, .i32⟩
  | 27 => ⟨S1024x1, .i32⟩
  | 28 => ⟨S9600x1024, .f32⟩
  | 29 => ⟨S9600x1024, .f32⟩
  | 30 => ⟨S9600x1x4, .f32⟩
  | 31 => ⟨S1x1024x4, .f32⟩
  | 32 => ⟨S9600x1024x4, .f32⟩
  | 33 => ⟨S9600x1024x4, .f32⟩
  | 34 => ⟨S9600x1024x4, .f32⟩
  | 35 => ⟨S9600x1024x4, .f32⟩
  | 36 => ⟨S_, .f32⟩
  | 37 => ⟨S9600x1024, .f32⟩
  | 38 => ⟨S9600x1, .f32⟩
  | 39 => ⟨S9600, .f32⟩
  | 40 => ⟨S9600x1, .f32⟩
  | 41 => ⟨S9600, .f32⟩
  | 42 => ⟨S9600x1, .f32⟩
  | 43 => ⟨S9600, .f32⟩
  | 44 => ⟨S9600x1, .f32⟩
  | 45 => ⟨S9600, .f32⟩
  | 46 => ⟨S_, .f32⟩
  | 47 => ⟨S9600, .f32⟩
  | 48 => ⟨S9600, .f32⟩
  | 49 => ⟨S9600, .f32⟩
  | 50 => ⟨S_, .f32⟩
  | 51 => ⟨S9600, .f32⟩
  | 52 => ⟨S9600, .f32⟩
  | 53 => ⟨S9600, .f32⟩
  | 54 => ⟨S_, .f32⟩
  | 55 => ⟨S9600, .f32⟩
  | 56 => ⟨S9600, .f32⟩
  | 57 => ⟨S9600, .f32⟩
  | 58 => ⟨S_, .f32⟩
  | 59 => ⟨S9600, .f32⟩
  | 60 => ⟨S9600, .f32⟩
  | 61 => ⟨S9600, .f32⟩
  | 62 => ⟨S9600x1, .f32⟩
  | 63 => ⟨S9600x1, .f32⟩
  | 64 => ⟨S9600x1, .f32⟩
  | 65 => ⟨S9600x1, .f32⟩
  | 66 => ⟨S9600x4, .f32⟩
  | 67 => ⟨S1024x1, .f32⟩
  | 68 => ⟨S1024, .f32⟩
  | 69 => ⟨S1024x1, .f32⟩
  | 70 => ⟨S1024, .f32⟩
  | 71 => ⟨S1024x1, .f32⟩
  | 72 => ⟨S1024, .f32⟩
  | 73 => ⟨S1024x1, .f32⟩
  | 74 => ⟨S1024, .f32⟩
  | 75 => ⟨S_, .f32⟩
  | 76 => ⟨S1024, .f32⟩
  | 77 => ⟨S1024, .f32⟩
  | 78 => ⟨S1024, .f32⟩
  | 79 => ⟨S_, .f32⟩
  | 80 => ⟨S1024, .f32⟩
  | 81 => ⟨S1024, .f32⟩
  | 82 => ⟨S1024, .f32⟩
  | 83 => ⟨S_, .f32⟩
  | 84 => ⟨S1024, .f32⟩
  | 85 => ⟨S1024, .f32⟩
  | 86 => ⟨S1024, .f32⟩
  | 87 => ⟨S_, .f32⟩
  | 88 => ⟨S1024, .f32⟩
  | 89 => ⟨S1024, .f32⟩
  | 90 => ⟨S1024, .f32⟩
  | 91 => ⟨S1024x1, .f32⟩
  | 92 => ⟨S1024x1, .f32⟩
  | 93 => ⟨S1024x1, .f32⟩
  | 94 => ⟨S1024x1, .f32⟩
  | 95 => ⟨S1024x4, .f32⟩
  | 96 => ⟨S9600x1, .f32⟩
  | 97 => ⟨S9600, .f32⟩
  | 98 => ⟨S9600x1, .f32⟩
  | 99 => ⟨S9600, .f32⟩
  | 100 => ⟨S9600, .f32⟩
  | 101 => ⟨S9600x1, .f32⟩
  | 102 => ⟨S9600, .f32⟩
  | 103 => ⟨S9600x1, .f32⟩
  | 104 => ⟨S9600, .f32⟩
  | 105 => ⟨S9600, .f32⟩
  | 106 => ⟨S9600, .f32⟩
  | 107 => ⟨S1024x1, .f32⟩
  | 108 => ⟨S1024, .f32⟩
  | 109 => ⟨S1024x1, .f32⟩
  | 110 => ⟨S1024, .f32⟩
  | 111 => ⟨S1024, .f32⟩
  | 112 => ⟨S1024x1, .f32⟩
  | 113 => ⟨S1024, .f32⟩
  | 114 => ⟨S1024x1, .f32⟩
  | 115 => ⟨S1024, .f32⟩
  | 116 => ⟨S1024, .f32⟩
  | 117 => ⟨S1024, .f32⟩
  | 118 => ⟨S9600x2, .f32⟩
  | 119 => ⟨S9600x1x2, .f32⟩
  | 120 => ⟨S1024x2, .f32⟩
  | 121 => ⟨S1x1024x2, .f32⟩
  | 122 => ⟨S9600x1024x2, .f32⟩
  | 123 => ⟨S9600x1024x2, .f32⟩
  | 124 => ⟨S9600x1024x2, .f32⟩
  | 125 => ⟨S9600x2, .f32⟩
  | 126 => ⟨S9600x1x2, .f32⟩
  | 127 => ⟨S1024x2, .f32⟩
  | _ => ⟨S16x600x91, .f32⟩

abbrev hbmTy0_1 (i : Nat) : BufTy := match i % 128 with
  | 0 => ⟨S1x1024x2, .f32⟩
  | 1 => ⟨S9600x1024x2, .f32⟩
  | 2 => ⟨S9600x1024x2, .f32⟩
  | 3 => ⟨S9600x1024x2, .f32⟩
  | 4 => ⟨S9600x1024x2, .f32⟩
  | 5 => ⟨S_, .f32⟩
  | 6 => ⟨S_, .f32⟩
  | 7 => ⟨S9600x1024x2, .f32⟩
  | 8 => ⟨S9600x1024x2, .f32⟩
  | 9 => ⟨S9600x1024x1, .f32⟩
  | 10 => ⟨S9600x1024, .f32⟩
  | 11 => ⟨S9600x1024x1, .f32⟩
  | 12 => ⟨S9600x1024, .f32⟩
  | 13 => ⟨S9600x1024, .f32⟩
  | 14 => ⟨S9600x1, .f32⟩
  | 15 => ⟨S1x1024, .f32⟩
  | 16 => ⟨S9600x1024, .f32⟩
  | 17 => ⟨S9600x1024, .f32⟩
  | 18 => ⟨S9600x1024, .f32⟩
  | 19 => ⟨S9600x1024, .f32⟩
  | 20 => ⟨S9600x1024, .f32⟩
  | 21 => ⟨S9600x2, .f32⟩
  | 22 => ⟨S9600x1x2, .f32⟩
  | 23 => ⟨S1024x2, .f32⟩
  | 24 => ⟨S1x1024x2, .f32⟩
  | 25 => ⟨S9600x1024x2, .f32⟩
  | 26 => ⟨S9600x1024x2, .f32⟩
  | 27 => ⟨S9600x1024x2, .f32⟩
  | 28 => ⟨S9600x2, .f32⟩
  | 29 => ⟨S9600x1x2, .f32⟩
  | 30 => ⟨S1024x2, .f32⟩
  | 31 => ⟨S1x1024x2, .f32⟩
  | 32 => ⟨S9600x1024x2, .f32⟩
  | 33 => ⟨S9600x1024x2, .f32⟩
  | 34 => ⟨S9600x1024x2, .f32⟩
  | 35 => ⟨S9600x1024x2, .f32⟩
  | 36 => ⟨S_, .f32⟩
  | 37 => ⟨S_, .f32⟩
  | 38 => ⟨S9600x1024x2, .f32⟩
  | 39 => ⟨S9600x1024x2, .f32⟩
  | 40 => ⟨S9600x1024x1, .f32⟩
  | 41 => ⟨S9600x1024, .f32⟩
  | 42 => ⟨S9600x1024x1, .f32⟩
  | 43 => ⟨S9600x1024, .f32⟩
  | 44 => ⟨S9600x1024, .f32⟩
  | 45 => ⟨S9600x1024, .f32⟩
  | 46 => ⟨S9600x1024, .f32⟩
  | 47 => ⟨S9600x1024, .f32⟩
  | 48 => ⟨S9600x1024, .f32⟩
  | 49 => ⟨S_, .f32⟩
  | 50 => ⟨S9600x1024, .f32⟩
  | 51 => ⟨S9600x1024, .f32⟩
  | 52 => ⟨S_, .f32⟩
  | 53 => ⟨S9600x1024, .f32⟩
  | 54 => ⟨S9600x1024, .f32⟩
  | 55 => ⟨S9600x1024, .f32⟩
  | 56 => ⟨S_, .f32⟩
  | 57 => ⟨S9600x1024, .f32⟩
  | 58 => ⟨S9600x1024, .f32⟩
  | 59 => ⟨S9600x1024, .f32⟩
  | 60 => ⟨S16x600x1024, .f32⟩
  | _ => ⟨S16x600x91, .f32⟩

abbrev hbmTy (i : Nat) : BufTy := match i / 128 with
  | 0 => hbmTy0_0 i
  | 1 => hbmTy0_1 i
  | _ => ⟨S16x600x91, .f32⟩

abbrev bufTy : (tb : Table) → Fin (tcTables nBuf tb) → BufTy
  | .hbm, ⟨i, _⟩ => hbmTy i
  | _, _ => ⟨S16x600x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_11 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_cst_12 : Ref sig .tc := ⟨.hbm, 133, rfl⟩
abbrev main_call0_v0 : Ref sig .tc := ⟨.hbm, 134, rfl⟩
abbrev main_call0_v1 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_cst_13 : Ref sig .tc := ⟨.hbm, 164, rfl⟩
abbrev main_call1_v0 : Ref sig .tc := ⟨.hbm, 165, rfl⟩
abbrev main_call1_v1 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_cst_14 : Ref sig .tc := ⟨.hbm, 177, rfl⟩
abbrev main_v153 : Ref sig .tc := ⟨.hbm, 178, rfl⟩
abbrev main_v154 : Ref sig .tc := ⟨.hbm, 179, rfl⟩
abbrev main_cst_15 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_cst_16 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩

abbrev nD : Nat := 1
abbrev τ : Topo := Topo.v7x

variable {F : FTy → Type} [FloatOps F]

class Facts₀ : Prop where
  shapeCasts_S16x600x91_S9600x91 : S16x600x91.ShapeCasts S9600x91
  reducesTo_S9600x91_S9600_d1 : S9600x91.ReducesTo [1] S9600
  h_S_ : 0 < S_.numel
  bcast_S_S9600 : S_.BroadcastsInDim S9600 (![] : Fin 0 → Fin S9600.rank)
  bcast_S9600_S9600x1_0 : S9600.BroadcastsInDim S9600x1 (![0] : Fin 1 → Fin S9600x1.rank)
  bcast_S9600x1_S9600x91_0_1 : S9600x1.BroadcastsInDim S9600x91 (![0, 1] : Fin 2 → Fin S9600x91.rank)
  shapeCasts_S16x600x4_S9600x4 : S16x600x4.ShapeCasts S9600x4
  bcast_S_S1024 : S_.BroadcastsInDim S1024 (![] : Fin 0 → Fin S1024.rank)
  bcast_S1024_S1024x1_0 : S1024.BroadcastsInDim S1024x1 (![0] : Fin 1 → Fin S1024x1.rank)
  bcast_S9600x4_S9600x1x4_0_2 : S9600x4.BroadcastsInDim S9600x1x4 (![0, 2] : Fin 2 → Fin S9600x1x4.rank)
  bcast_S1024x4_S1x1024x4_1_2 : S1024x4.BroadcastsInDim S1x1024x4 (![1, 2] : Fin 2 → Fin S1x1024x4.rank)
  bcast_S9600x1x4_S9600x1024x4_0_1_2 : S9600x1x4.BroadcastsInDim S9600x1024x4 (![0, 1, 2] : Fin 3 → Fin S9600x1024x4.rank)
  bcast_S1x1024x4_S9600x1024x4_0_1_2 : S1x1024x4.BroadcastsInDim S9600x1024x4 (![0, 1, 2] : Fin 3 → Fin S9600x1024x4.rank)
  reducesTo_S9600x1024x4_S9600x1024_d2 : S9600x1024x4.ReducesTo [2] S9600x1024
  slices_S9600x4_S9600x1_0_0 : S9600x4.Slices ![0, 0] S9600x1
  shapeCasts_S9600x1_S9600 : S9600x1.ShapeCasts S9600
  slices_S9600x4_S9600x1_0_1 : S9600x4.Slices ![0, 1] S9600x1
  slices_S9600x4_S9600x1_0_2 : S9600x4.Slices ![0, 2] S9600x1
  slices_S9600x4_S9600x1_0_3 : S9600x4.Slices ![0, 3] S9600x1
  concatenates_S9600x1_S9600x1_S9600x1_S9600x1_S9600x4_d1 : Shape.Concatenates [S9600x1, S9600x1, S9600x1, S9600x1] S9600x4 1
  slices_S1024x4_S1024x1_0_0 : S1024x4.Slices ![0, 0] S1024x1
  shapeCasts_S1024x1_S1024 : S1024x1.ShapeCasts S1024
  slices_S1024x4_S1024x1_0_1 : S1024x4.Slices ![0, 1] S1024x1
  slices_S1024x4_S1024x1_0_2 : S1024x4.Slices ![0, 2] S1024x1
  slices_S1024x4_S1024x1_0_3 : S1024x4.Slices ![0, 3] S1024x1
  concatenates_S1024x1_S1024x1_S1024x1_S1024x1_S1024x4_d1 : Shape.Concatenates [S1024x1, S1024x1, S1024x1, S1024x1] S1024x4 1
  slices_S9600x4_S9600x2_0_0 : S9600x4.Slices ![0, 0] S9600x2
  bcast_S9600x2_S9600x1x2_0_2 : S9600x2.BroadcastsInDim S9600x1x2 (![0, 2] : Fin 2 → Fin S9600x1x2.rank)
  slices_S1024x4_S1024x2_0_0 : S1024x4.Slices ![0, 0] S1024x2
  bcast_S1024x2_S1x1024x2_1_2 : S1024x2.BroadcastsInDim S1x1024x2 (![1, 2] : Fin 2 → Fin S1x1024x2.rank)
  bcast_S9600x1x2_S9600x1024x2_0_1_2 : S9600x1x2.BroadcastsInDim S9600x1024x2 (![0, 1, 2] : Fin 3 → Fin S9600x1024x2.rank)
  bcast_S1x1024x2_S9600x1024x2_0_1_2 : S1x1024x2.BroadcastsInDim S9600x1024x2 (![0, 1, 2] : Fin 3 → Fin S9600x1024x2.rank)
  slices_S9600x4_S9600x2_0_2 : S9600x4.Slices ![0, 2] S9600x2
  slices_S1024x4_S1024x2_0_2 : S1024x4.Slices ![0, 2] S1024x2
  bcast_S_S9600x1024x2 : S_.BroadcastsInDim S9600x1024x2 (![] : Fin 0 → Fin S9600x1024x2.rank)
  slices_S9600x1024x2_S9600x1024x1_0_0_0 : S9600x1024x2.Slices ![0, 0, 0] S9600x1024x1
  shapeCasts_S9600x1024x1_S9600x1024 : S9600x1024x1.ShapeCasts S9600x1024
  slices_S9600x1024x2_S9600x1024x1_0_0_1 : S9600x1024x2.Slices ![0, 0, 1] S9600x1024x1
  bcast_S1024_S1x1024_1 : S1024.BroadcastsInDim S1x1024 (![1] : Fin 1 → Fin S1x1024.rank)
  bcast_S9600x1_S9600x1024_0_1 : S9600x1.BroadcastsInDim S9600x1024 (![0, 1] : Fin 2 → Fin S9600x1024.rank)
  bcast_S1x1024_S9600x1024_0_1 : S1x1024.BroadcastsInDim S9600x1024 (![0, 1] : Fin 2 → Fin S9600x1024.rank)
  bcast_S_S9600x1024 : S_.BroadcastsInDim S9600x1024 (![] : Fin 0 → Fin S9600x1024.rank)
  shapeCasts_S9600x1024_S16x600x1024 : S9600x1024.ShapeCasts S16x600x1024
  gather_S9600x91_S1024x1_S9600x1024_0_1_n_n_1_1_96001_wf : GatherDims.WF S9600x91 S1024x1 S9600x1024 [0] [1] [] [1] [] 1 ![9600, 1]

variable [Facts₀]

def gather_S9600x91_S1024x1_S9600x1024_0_1_n_n_1_1_96001 : GatherDims S9600x91 S1024x1 S9600x1024 where
  offsetDims := [0]
  collapsedSliceDims := [1]
  operandBatchingDims := []
  startIndicesBatchingDims := []
  startIndexMap := [1]
  indexVectorDim := 1
  sliceSizes := ![9600, 1]
  wf := gather_S9600x91_S1024x1_S9600x1024_0_1_n_n_1_1_96001_wf

class Facts : Prop extends Facts₀ where

variable [Facts]
-- ==== Proof.FrameK.lean ====
import proofs.«414946_j7335804141876_3_alg».proof.Proof.Gen.Kernel.Launch
import proofs.«414946_j7335804141876_3_alg».proof.Proof.Gen.Kernel.Skeleton
import proofs.«414946_j7335804141876_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The frame of `Kernel`

`@main` is four stretches of host operations, one pipelined region over a grid of 25 points, and one
reshape after it. The region stages five windows: row blocks `[384, 91]` of `main_v0` (argument 0
reshaped to `[9600, 91]`) and `[384, 4]` of `main_v1` (argument 1 reshaped to `[9600, 4]`), fetched at
every point; the whole of `main_v4` (`[91, 1024]`, bf16) and the whole of `main_v45` (`[16, 1024]`),
fetched once, at the first point; and row blocks `[384, 1024]` of `main_v46`, written back at every
point. The body reads the four input blocks through literal rectangles, reads its output block once
without using the value, and covers the output block with one store.

This file states what every array holds when the region is entered (`V`), what each window's block is
at a point (`iblk`), what the body leaves in the output block as a function of the four input blocks
(`out0_4`), the proof data of the pipeline (`dats`), and from them the run of `@main` (`run_main`) and
the frame claim: the four argument arrays end as they began (`frame`).
-/

-- membership in a rectangle of these extents is decided structurally, one step per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## `@main` around the region -/

/-- Core `c`'s TensorCore buffers when the region is entered, as a valuation: the launched memory run through the
    four stretches of host operations before the region. -/
abbrev V0 (c : Dev nD) : Valuation τ sig (Elt F) := StableHlo.after (List.flatten [hostOps0, hostOps0_1, hostOps0_2, hostOps0_3]) (fun b => m (c, b))
/-- The same, read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- `@main` is the four host stretches, the region, and the reshape after it: it reduces to the region continued
    by that reshape, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    ⟨hostOps0_sub, hostOps0_1_sub, hostOps0_2_sub, hostOps0_3_sub⟩
    ⟨hostOps0_fresh, hostOps0_1_fresh, hostOps0_2_fresh, hostOps0_3_fresh⟩ main_chain

/-- The reshape after the region touches unscoped TensorCore buffers only: each is an array of the pipeline or a
    buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes its own result buffer, which is none of the five arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

set_option maxHeartbeats 1000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
set_option maxHeartbeats 1000000 in
/-- Nor `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
set_option maxHeartbeats 1000000 in
/-- Nor `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
set_option maxHeartbeats 1000000 in
/-- Nor `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- The reshape after the region does not write `main_arg0`, and `main_arg0` is no array of the pipeline: it ends as
    launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its
    block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run of `@main` to the library's frame post gives
    the frame claim's post: no argument array is an array of the pipeline, so each ends as the reshape after the
    region leaves it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's accesses -/

/-- The whole block of window 0, of window 1 and of window 2, -/
abbrev rL : Rect S384x91 := Rect.unit (s := S384x91) ![0, 0] S384x91.size inb_S384x91_S384x91_0_0
abbrev rB : Rect S384x4 := Rect.unit (s := S384x4) ![0, 0] S384x4.size inb_S384x4_S384x4_0_0
abbrev rH : Rect S91x1024 := Rect.unit (s := S91x1024) ![0, 0] S91x1024.size inb_S91x1024_S91x1024_0_0
/-- rows 0 to 8 of window 3's `[16, 1024]` block, one `[1, 1024]` rectangle each, -/
abbrev rT0 : Rect S16x1024 := Rect.unit (s := S16x1024) ![0, 0] S1x1024.size inb_S16x1024_S1x1024_0_0
abbrev rT1 : Rect S16x1024 := Rect.unit (s := S16x1024) ![1, 0] S1x1024.size inb_S16x1024_S1x1024_1_0
abbrev rT2 : Rect S16x1024 := Rect.unit (s := S16x1024) ![2, 0] S1x1024.size inb_S16x1024_S1x1024_2_0
abbrev rT3 : Rect S16x1024 := Rect.unit (s := S16x1024) ![3, 0] S1x1024.size inb_S16x1024_S1x1024_3_0
abbrev rT4 : Rect S16x1024 := Rect.unit (s := S16x1024) ![4, 0] S1x1024.size inb_S16x1024_S1x1024_4_0
abbrev rT5 : Rect S16x1024 := Rect.unit (s := S16x1024) ![5, 0] S1x1024.size inb_S16x1024_S1x1024_5_0
abbrev rT6 : Rect S16x1024 := Rect.unit (s := S16x1024) ![6, 0] S1x1024.size inb_S16x1024_S1x1024_6_0
abbrev rT7 : Rect S16x1024 := Rect.unit (s := S16x1024) ![7, 0] S1x1024.size inb_S16x1024_S1x1024_7_0
abbrev rT8 : Rect S16x1024 := Rect.unit (s := S16x1024) ![8, 0] S1x1024.size inb_S16x1024_S1x1024_8_0
/-- and the whole block of the output window. -/
abbrev rO : Rect S384x1024 := Rect.unit (s := S384x1024) ![0, 0] S384x1024.size inb_S384x1024_S384x1024_0_0

/-! ## What the body leaves in the output window's buffer -/

/-- The output block after the body, from the four input blocks: its one store, whose value is the body's last
    payload over the values its two earlier parts hand on — the matrix product made from window 0's block and window
    2's block, the column values made from window 1's block, and rows 0 to 8 of window 3's block, each row as it is
    loaded or after its payload. -/
def out0_4 (x0 : Vec F S384x91 .f32) (x1 : Vec F S384x4 .f32) (x2 : Vec F S91x1024 .bf16) (x3 : Vec F S16x1024 .f32) : Vec F S384x1024 .f32 :=
  View.canon [⟨rO, k0_pay1
    (k0_pay2 (View.ld x0 rL) (View.ld x2 rH))
    (k0_pay8 (View.ld x1 rB)) (k0_pay9 (View.ld x1 rB)) (k0_pay10 (View.ld x1 rB)) (k0_pay11 (View.ld x1 rB)) (k0_pay12 (View.ld x1 rB))
    (k0_pay15 (View.ld x3 rT4)) (k0_pay16 (View.ld x3 rT5)) (k0_pay17 (View.ld x3 rT6)) (k0_pay18 (View.ld x3 rT7)) (k0_pay19 (View.ld x3 rT8))
    (k0_pay20 (k0_pay4 (View.ld x1 rB)) (k0_pay5 (View.ld x1 rB)) (k0_pay6 (View.ld x1 rB)) (k0_pay7 (View.ld x1 rB))
      (k0_pay13 (View.ld x3 rT0)) (k0_pay14 (View.ld x3 rT1)) (View.ld x3 rT2) (View.ld x3 rT3))
    (k0_pay21 (k0_pay8 (View.ld x1 rB)) (k0_pay10 (View.ld x1 rB)) (View.ld x3 rT4) (View.ld x3 rT6))
    (k0_pay22 (k0_pay11 (View.ld x1 rB)) (View.ld x3 rT7))
    (k0_pay23 (k0_pay9 (View.ld x1 rB)))
    (k0_pay24 (View.ld x3 rT5))⟩]

/-- The one store is the whole block, so it covers it. -/
theorem cover0_4 (p0 : Vec F S384x1024 .f32) (y : S384x1024.Idx) :
    ∃ pc ∈ ([⟨rO, p0⟩] : List (View.Piece (Elt F) S384x1024 .f32)), y ∈ pc.1.set :=
  View.cover_of_tiled [⟨rO, p0⟩] S384x1024.size (by rfl) y

/-! ## The body's triple -/

set_option maxHeartbeats 1000000 in
/-- The kernel body on whole staging memrefs, the four inputs' at contents `x0 … x3` and the output's at anything, runs
    to the continuation holding the inputs' as they were and the output's at `out0_4` of the inputs'. -/
theorem sound_kernel (c : Dev nD) (E : Set ℕ) (i : grid0.Coords)
    (arg1 : Memref sig .tc .vmem S384x91 .f32) (harg1 : arg1.IsWhole) (arg2 : Memref sig .tc .vmem S384x4 .f32) (harg2 : arg2.IsWhole)
    (arg3 : Memref sig .tc .vmem S91x1024 .bf16) (harg3 : arg3.IsWhole) (arg4 : Memref sig .tc .vmem S16x1024 .f32) (harg4 : arg4.IsWhole)
    (arg5 : Memref sig .tc .vmem S384x1024 .f32) (harg5 : arg5.IsWhole)
    (x0 : Vec F S384x91 .f32) (x1 : Vec F S384x4 .f32) (x2 : Vec F S91x1024 .bf16) (x3 : Vec F S16x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__cost_kernel i arg1 harg1 arg2 harg2 arg3 harg3 arg4 harg4 arg5 harg5) K := by
  simp only [cc0__cost_kernel_eq_skeleton]; unfold cc0__cost_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

/-! ## The pipeline's proof data -/

/-- The proof data of the pipeline on core `c`: the arrays as the region finds them; after the body at point `t` each
    input's buffer at its block and the output's at `out0_4` of the four input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- From any memory with zero counters every weakly fair execution of `@main` on the TensorCores terminates, and every
    final state has each array of the pipeline at what the proof data computes and every other unscoped buffer as
    the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: `@main` runs and its four argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.FrameKI.lean ====
import proofs.«414946_j7335804141876_3_alg».proof.Proof.Gen.KernelIdeal.Launch
import proofs.«414946_j7335804141876_3_alg».proof.Proof.Gen.KernelIdeal.Skeleton
import proofs.«414946_j7335804141876_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The frame of `KernelIdeal`

`@main` is four stretches of host operations, one pipelined region over a grid of 25 points, and one
reshape after it. The region stages five windows: row blocks `[384, 91]` of `main_v0` (argument 0
reshaped to `[9600, 91]`) and `[384, 4]` of `main_v1` (argument 1 reshaped to `[9600, 4]`), fetched at
every point; the whole of `main_v4` (`[91, 1024]`, bf16) and the whole of `main_v45` (`[16, 1024]`),
fetched once, at the first point; and row blocks `[384, 1024]` of `main_v46`, written back at every
point. The body reads the four input blocks through literal rectangles, reads its output block once
without using the value, and covers the output block with one store.

This file states what every array holds when the region is entered (`V`), what each window's block is
at a point (`iblk`), what the body leaves in the output block as a function of the four input blocks
(`out0_4`), the proof data of the pipeline (`dats`), and from them the run of `@main` (`run_main`) and
the frame claim: the four argument arrays end as they began (`frame`).
-/

-- membership in a rectangle of these extents is decided structurally, one step per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## `@main` around the region -/

/-- Core `c`'s TensorCore buffers when the region is entered, as a valuation: the launched memory run through the
    four stretches of host operations before the region. -/
abbrev V0 (c : Dev nD) : Valuation τ sig (Elt F) := StableHlo.after (List.flatten [hostOps0, hostOps0_1, hostOps0_2, hostOps0_3]) (fun b => m (c, b))
/-- The same, read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- `@main` is the four host stretches, the region, and the reshape after it: it reduces to the region continued
    by that reshape, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    ⟨hostOps0_sub, hostOps0_1_sub, hostOps0_2_sub, hostOps0_3_sub⟩
    ⟨hostOps0_fresh, hostOps0_1_fresh, hostOps0_2_fresh, hostOps0_3_fresh⟩ main_chain

/-- The reshape after the region touches unscoped TensorCore buffers only: each is an array of the pipeline or a
    buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes its own result buffer, which is none of the five arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

set_option maxHeartbeats 1000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
set_option maxHeartbeats 1000000 in
/-- Nor `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
set_option maxHeartbeats 1000000 in
/-- Nor `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
set_option maxHeartbeats 1000000 in
/-- Nor `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- The reshape after the region does not write `main_arg0`, and `main_arg0` is no array of the pipeline: it ends as
    launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its
    block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run of `@main` to the library's frame post gives
    the frame claim's post: no argument array is an array of the pipeline, so each ends as the reshape after the
    region leaves it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's accesses -/

/-- The whole block of window 0, of window 1 and of window 2, -/
abbrev rL : Rect S384x91 := Rect.unit (s := S384x91) ![0, 0] S384x91.size inb_S384x91_S384x91_0_0
abbrev rB : Rect S384x4 := Rect.unit (s := S384x4) ![0, 0] S384x4.size inb_S384x4_S384x4_0_0
abbrev rH : Rect S91x1024 := Rect.unit (s := S91x1024) ![0, 0] S91x1024.size inb_S91x1024_S91x1024_0_0
/-- rows 0 to 8 of window 3's `[16, 1024]` block, one `[1, 1024]` rectangle each, -/
abbrev rT0 : Rect S16x1024 := Rect.unit (s := S16x1024) ![0, 0] S1x1024.size inb_S16x1024_S1x1024_0_0
abbrev rT1 : Rect S16x1024 := Rect.unit (s := S16x1024) ![1, 0] S1x1024.size inb_S16x1024_S1x1024_1_0
abbrev rT2 : Rect S16x1024 := Rect.unit (s := S16x1024) ![2, 0] S1x1024.size inb_S16x1024_S1x1024_2_0
abbrev rT3 : Rect S16x1024 := Rect.unit (s := S16x1024) ![3, 0] S1x1024.size inb_S16x1024_S1x1024_3_0
abbrev rT4 : Rect S16x1024 := Rect.unit (s := S16x1024) ![4, 0] S1x1024.size inb_S16x1024_S1x1024_4_0
abbrev rT5 : Rect S16x1024 := Rect.unit (s := S16x1024) ![5, 0] S1x1024.size inb_S16x1024_S1x1024_5_0
abbrev rT6 : Rect S16x1024 := Rect.unit (s := S16x1024) ![6, 0] S1x1024.size inb_S16x1024_S1x1024_6_0
abbrev rT7 : Rect S16x1024 := Rect.unit (s := S16x1024) ![7, 0] S1x1024.size inb_S16x1024_S1x1024_7_0
abbrev rT8 : Rect S16x1024 := Rect.unit (s := S16x1024) ![8, 0] S1x1024.size inb_S16x1024_S1x1024_8_0
/-- and the whole block of the output window. -/
abbrev rO : Rect S384x1024 := Rect.unit (s := S384x1024) ![0, 0] S384x1024.size inb_S384x1024_S384x1024_0_0

/-! ## What the body leaves in the output window's buffer -/

/-- The output block after the body, from the four input blocks: its one store, whose value is the body's last
    payload over the values its two earlier parts hand on — the matrix product made from window 0's block and window
    2's block, the column values made from window 1's block, and rows 0 to 8 of window 3's block, each row as it is
    loaded or after its payload. -/
def out0_4 (x0 : Vec F S384x91 .f32) (x1 : Vec F S384x4 .f32) (x2 : Vec F S91x1024 .bf16) (x3 : Vec F S16x1024 .f32) : Vec F S384x1024 .f32 :=
  View.canon [⟨rO, k0_pay1
    (k0_pay2 (View.ld x0 rL) (View.ld x2 rH))
    (k0_pay8 (View.ld x1 rB)) (k0_pay9 (View.ld x1 rB)) (k0_pay10 (View.ld x1 rB)) (k0_pay11 (View.ld x1 rB)) (k0_pay12 (View.ld x1 rB))
    (k0_pay15 (View.ld x3 rT4)) (k0_pay16 (View.ld x3 rT5)) (k0_pay17 (View.ld x3 rT6)) (k0_pay18 (View.ld x3 rT7)) (k0_pay19 (View.ld x3 rT8))
    (k0_pay20 (k0_pay4 (View.ld x1 rB)) (k0_pay5 (View.ld x1 rB)) (k0_pay6 (View.ld x1 rB)) (k0_pay7 (View.ld x1 rB))
      (k0_pay13 (View.ld x3 rT0)) (k0_pay14 (View.ld x3 rT1)) (View.ld x3 rT2) (View.ld x3 rT3))
    (k0_pay21 (k0_pay8 (View.ld x1 rB)) (k0_pay10 (View.ld x1 rB)) (View.ld x3 rT4) (View.ld x3 rT6))
    (k0_pay22 (k0_pay11 (View.ld x1 rB)) (View.ld x3 rT7))
    (k0_pay23 (k0_pay9 (View.ld x1 rB)))
    (k0_pay24 (View.ld x3 rT5))⟩]

/-- The one store is the whole block, so it covers it. -/
theorem cover0_4 (p0 : Vec F S384x1024 .f32) (y : S384x1024.Idx) :
    ∃ pc ∈ ([⟨rO, p0⟩] : List (View.Piece (Elt F) S384x1024 .f32)), y ∈ pc.1.set :=
  View.cover_of_tiled [⟨rO, p0⟩] S384x1024.size (by rfl) y

/-! ## The body's triple -/

set_option maxHeartbeats 1000000 in
/-- The kernel body on whole staging memrefs, the four inputs' at contents `x0 … x3` and the output's at anything, runs
    to the continuation holding the inputs' as they were and the output's at `out0_4` of the inputs'. -/
theorem sound_kernel (c : Dev nD) (E : Set ℕ) (i : grid0.Coords)
    (arg1 : Memref sig .tc .vmem S384x91 .f32) (harg1 : arg1.IsWhole) (arg2 : Memref sig .tc .vmem S384x4 .f32) (harg2 : arg2.IsWhole)
    (arg3 : Memref sig .tc .vmem S91x1024 .bf16) (harg3 : arg3.IsWhole) (arg4 : Memref sig .tc .vmem S16x1024 .f32) (harg4 : arg4.IsWhole)
    (arg5 : Memref sig .tc .vmem S384x1024 .f32) (harg5 : arg5.IsWhole)
    (x0 : Vec F S384x91 .f32) (x1 : Vec F S384x4 .f32) (x2 : Vec F S91x1024 .bf16) (x3 : Vec F S16x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__cost_kernel i arg1 harg1 arg2 harg2 arg3 harg3 arg4 harg4 arg5 harg5) K := by
  simp only [cc0__cost_kernel_eq_skeleton]; unfold cc0__cost_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

/-! ## The pipeline's proof data -/

/-- The proof data of the pipeline on core `c`: the arrays as the region finds them; after the body at point `t` each
    input's buffer at its block and the output's at `out0_4` of the four input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- From any memory with zero counters every weakly fair execution of `@main` on the TensorCores terminates, and every
    final state has each array of the pipeline at what the proof data computes and every other unscoped buffer as
    the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: `@main` runs and its four argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.CostSpec.lean ====
/-
  The matching cost both programs compute, element by element, on the extended reals.

  For a query row with class scores `x : Fin 91 → EReal` and box `p = (cx, cy, w, h)`, and a target with class
  `l` and box `t = (cx, cy, w, h)`, the cost is
      5 · ‖p − t‖₁  −  1 · softmax(x)(l)  −  2 · giou(p, t)
  where the softmax is taken with the row's maximum subtracted, the boxes are compared corner to corner
  (`lo c w = c − ½·w`, `hi c w = c + ½·w`), the intersection and the enclosing hull have their side lengths
  cut off below at zero, and
      giou = inter / union − (hull − union) / hull,   union = area p + area t − inter.
  Every float literal stays the word the programs print; none is evaluated here.
-/
import Idealize.ShloMosaic.PureOps.Ideal
import Idealize.ShloMosaic.PureOps.Ideal.Laws
import Idealize.ShloMosaic.Lib.ValueIdx

noncomputable section

namespace Cert.CostSpec

open Idealize.ShloMosaic Idealize.ShloMosaic.ValueIdx

/-- The literals, as the words both programs carry. -/
def half : EReal := Ideal.ofBits .f32 0x3F000000#32
def zeroW : EReal := Ideal.ofBits .f32 0x00000000#32
def oneW : EReal := Ideal.ofBits .f32 0x3F800000#32
def twoW : EReal := Ideal.ofBits .f32 0x40000000#32
def fiveW : EReal := Ideal.ofBits .f32 0x40A00000#32
def negInfW : EReal := Ideal.ofBits .f32 0xFF800000#32

/-! ## The class term -/

/-- A row's maximum, folded from the word for −∞. -/
def rowMax (x : Fin 91 → EReal) : EReal := (Finset.univ : Finset (Fin 91)).fold max negInfW x

/-- The shifted exponential of one score. -/
def expShift (x : Fin 91 → EReal) (c : Fin 91) : EReal := Ideal.exp (x c - rowMax x)

/-- The softmax probability of class `c` in a row of scores. -/
def softmax (x : Fin 91 → EReal) (c : Fin 91) : EReal := Ideal.div (expShift x c) (∑ k : Fin 91, expShift x k)

/-! ## The box terms -/

/-- The lower and upper corner coordinate of a box side with centre `c` and extent `w`. -/
def lo (c w : EReal) : EReal := c - half * w
def hi (c w : EReal) : EReal := c + half * w

/-- The area of a centre-size box from its corners. -/
def boxArea (b : Fin 4 → EReal) : EReal := (hi (b 0) (b 2) - lo (b 0) (b 2)) * (hi (b 1) (b 3) - lo (b 1) (b 3))

/-- The absolute value on the extended reals. -/
def absE (a : EReal) : EReal := max a (-a)

/-- The L1 distance of two centre-size boxes, summed left to right. -/
def l1 (p t : Fin 4 → EReal) : EReal :=
  absE (p 0 - t 0) + absE (p 1 - t 1) + absE (p 2 - t 2) + absE (p 3 - t 3)

/-- A side length cut off below at zero. -/
def pos (a : EReal) : EReal := max zeroW a

/-- The area of the intersection of two boxes. -/
def inter (p t : Fin 4 → EReal) : EReal :=
  pos (min (hi (p 0) (p 2)) (hi (t 0) (t 2)) - max (lo (p 0) (p 2)) (lo (t 0) (t 2)))
    * pos (min (hi (p 1) (p 3)) (hi (t 1) (t 3)) - max (lo (p 1) (p 3)) (lo (t 1) (t 3)))

/-- The area of the smallest box enclosing both. -/
def hull (p t : Fin 4 → EReal) : EReal :=
  pos (max (hi (p 0) (p 2)) (hi (t 0) (t 2)) - min (lo (p 0) (p 2)) (lo (t 0) (t 2)))
    * pos (max (hi (p 1) (p 3)) (hi (t 1) (t 3)) - min (lo (p 1) (p 3)) (lo (t 1) (t 3)))

/-- The area of the union of two boxes. -/
def union (p t : Fin 4 → EReal) : EReal := boxArea p + boxArea t - inter p t

/-- The generalized intersection over union. -/
def giou (p t : Fin 4 → EReal) : EReal :=
  Ideal.div (inter p t) (union p t) - Ideal.div (hull p t - union p t) (hull p t)

/-! ## The cost -/

/-- The cost of matching a query (scores `x`, box `p`) to a target (class `l`, box `t`). -/
def cost (x : Fin 91 → EReal) (l : Fin 91) (p t : Fin 4 → EReal) : EReal :=
  fiveW * l1 p t - oneW * softmax x l - twoW * giou p t

/-- The cost matrix over the flattened queries: entry `(r, s)` is the cost of query row `r` against target `s`. -/
def costMatrix (x0 : (⟨2, ![9600, 91]⟩ : Shape).Idx → EReal) (x1 : (⟨2, ![9600, 4]⟩ : Shape).Idx → EReal)
    (lab : Fin 1024 → Fin 91) (x3 : (⟨2, ![1024, 4]⟩ : Shape).Idx → EReal) :
    (⟨2, ![9600, 1024]⟩ : Shape).Idx → EReal :=
  fun j => cost (fun c => x0 (ix2 (j 0) c)) (lab (j 1)) (fun k => x1 (ix2 (j 0) k)) (fun k => x3 (ix2 (j 1) k))

/-- The class a label word names when it lies in the label range (its value modulo 91 otherwise: a total reading). -/
def labelOf (a2 : (⟨1, ![1024]⟩ : Shape).Idx → BitVec 32) (s : Fin 1024) : Fin 91 :=
  ⟨(a2 (ix1 s)).toNat % 91, Nat.mod_lt _ (by decide)⟩

/-! ## The laws that join the two spellings -/

/-- Selecting one term of a row by a 0/1 column: `∑ c, f c · [c = l] = f l`. -/
theorem sum_mul_indicator (f : Fin 91 → EReal) (g : Fin 91 → EReal) (l : Fin 91)
    (hg : ∀ c, g c = if c = l then 1 else 0) : ∑ c : Fin 91, f c * g c = f l := by
  rw [Finset.sum_eq_single l]
  · rw [hg l, if_pos rfl, mul_one]
  · intro c _ hc; rw [hg c, if_neg hc, mul_zero]
  · intro h; exact absurd (Finset.mem_univ l) h

/-- The reference's spelling of the cost: the class and overlap terms negated first and then added. -/
theorem cost_eq_add_neg (a b c : EReal) : a - oneW * b - twoW * c = a + oneW * (-b) + twoW * (-c) := by
  rw [mul_neg, mul_neg, sub_eq_add_neg, sub_eq_add_neg]

/-- The reference's spelling of the L1 distance: a sum over the four coordinates started from the zero word. -/
theorem l1_eq_sum (p t : Fin 4 → EReal) : zeroW + ∑ k : Fin 4, absE (p k - t k) = l1 p t := by
  unfold zeroW l1
  rw [Ideal.ofBits_zero_f32, zero_add, Fin.sum_univ_four]

/-- A maximum folded from a start value dominates it, so taking the maximum with that value again changes nothing. -/
theorem max_rowMax (x : Fin 91 → EReal) : max negInfW (rowMax x) = rowMax x := by
  apply max_eq_right
  unfold rowMax
  exact (Finset.le_fold_max negInfW).mpr (Or.inl le_rfl)

end Cert.CostSpec

end
-- ==== Proof.LibPlainDot.lean ====
/-
  A plain matrix product read at an index, generic in the sizes. For dimension numbers that contract the left
  operand's columns with the right operand's rows, with no batch axis (rows × contraction times contraction ×
  columns), the sum over the contraction shape's indices of the operands' products at the dot's operand indices is the
  sum over k < K of l[p, k] · r[k, q]. A kernel's matrix unit into a zero accumulator and the host's dot both read
  through it at the ideal values. Imports only the library.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

/-- Two spellings of one axis position read the same coordinate. -/
theorem coord_val_congr {s : Shape} (j : s.Idx) (p q : Nat) (hp : p < s.rank) (hq : q < s.rank) (h : p = q) :
    (j ⟨p, hp⟩).val = (j ⟨q, hq⟩).val := by subst h; rfl

/-- The left operand's row is the result's row: axis 0 is the left operand's one free axis, first among the result's. -/
theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

/-- The product at result index (p, q): the contraction re-indexed by its one coordinate. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

/-- The matrix product as a function of the result index: entry (p, q) is ∑_k l[p, k] · r[k, q] on the extended reals. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

/-- The matrix unit's product into the zero accumulator, at the ideal values, is the matrix product. -/
theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

/-- The host's dot, at the ideal values, is the matrix product, whatever its precision and schedule keys. -/
theorem dotGeneral_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision) (sched : HostSchedule)
    (l : FVec Ideal ⟨2, ![M, K]⟩ φ₁) (r : FVec Ideal ⟨2, ![K, N]⟩ φ₂) :
    FloatOps.dotGeneral D prec sched l r = matProd (M := M) (K := K) (N := N) l r := by
  funext y
  obtain ⟨p, q, rfl⟩ : ∃ (p : Fin M) (q : Fin N), y = ix2 p q := ⟨y 0, y 1, eq_ix2 y⟩
  rw [Ideal.dotGeneral_apply, matProd_ix2]
  exact sum_plain D hlc hrc hln hrn hlb hrb l r p q

end Cert.LibPlainDot

end
-- ==== Proof.LibRowOps.lean ====
/-
  Row-wise operations on matrices read at an index, generic in the sizes, as a kernel's vector dialect and the host's
  StableHLO spell them. For an R × C matrix v at the ideal values:
    · the sum along the columns (a vector multi-reduction over axis 1, or the host's reduce with an add body) at row p
      is ∑ k < C, v[p, k] (plus the host's initial value);
    · a length-R vector kept as an R × 1 column (a shape cast, or the host's broadcast_in_dim along axis 0) reads the
      vector at the row;
    · an R × 1 column spread over R × C reads the column at the row; a 1 × C row spread over R × C reads the row at
      the column; a length-C vector as a 1 × C row reads the vector at the column; a scalar spread anywhere reads the scalar.
  Imports only the library.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibRowOps

open Idealize.ShloMosaic Idealize.ShloMosaic.ValueIdx

variable {R C : Nat} {α : Type} {φ : FTy}

/-! ## Sums along the columns -/

/-- The index over row p with column k inserted is (p, k). -/
theorem lift_row (h : (⟨2, ![R, C]⟩ : Shape).Reduces [1] ⟨1, ![R]⟩) (p : Fin R) (k : Fin C) :
    h.lift (ix1 p) k = ix2 p k := by
  funext a
  match a with
  | ⟨0, _⟩ => exact Fin.ext rfl
  | ⟨1, _⟩ => exact Fin.ext rfl

/-- A vector multi-reduction with an add body over axis 1, at row p. -/
theorem multiReduction_row (v : FVec Ideal ⟨2, ![R, C]⟩ φ) (acc : BitVec φ.bits)
    (h : (⟨2, ![R, C]⟩ : Shape).Reduces [1] ⟨1, ![R]⟩) (hφ : FKind.Formats φ) (hacc : acc = FKind.add.neutral φ hφ) (p : Fin R) :
    multiReduction .add [1] ⟨1, ![R]⟩ v acc h hφ hacc (ix1 p) = ∑ k : Fin C, v (ix2 p k) := by
  rw [Ideal.multiReduction_add_single]
  exact Finset.sum_congr rfl fun k _ => congrArg v (lift_row h p k)

/-- The host's reduce with an add body over axis 1, at row b: the initial value plus the row's sum. -/
theorem hostReduceAdd_row {u : Shape} (x : FVec Ideal ⟨2, ![R, C]⟩ φ) (init : u.Idx → Ideal φ)
    (h' : (⟨2, ![R, C]⟩ : Shape).ReducesTo [1] ⟨1, ![R]⟩) (hu : 0 < u.numel)
    (h : (⟨2, ![R, C]⟩ : Shape).Reduces [1] ⟨1, ![R]⟩) (b : Fin R) :
    Host.reduceAdd x init h' hu (ix1 b) = init (Shape.Idx.first hu) + ∑ k : Fin C, x (ix2 b k) := by
  unfold Host.reduceAdd
  rw [Ideal.hostReduceAdd_def, Ideal.hostReduceAdd_single h' h]
  exact congrArg (init (Shape.Idx.first hu) + ·) (Finset.sum_congr rfl fun k _ => congrArg x (lift_row h b k))

/-- … and from the zero word, the row's sum alone. -/
theorem hostReduceAdd_row_zero {u : Shape} (x : FVec Ideal ⟨2, ![R, C]⟩ .f32)
    (h' : (⟨2, ![R, C]⟩ : Shape).ReducesTo [1] ⟨1, ![R]⟩) (hu : 0 < u.numel)
    (h : (⟨2, ![R, C]⟩ : Shape).Reduces [1] ⟨1, ![R]⟩) (b : Fin R) :
    Host.reduceAdd x (constant (F := Ideal) u .f32 0x00000000#32) h' hu (ix1 b) = ∑ k : Fin C, x (ix2 b k) := by
  rw [hostReduceAdd_row x _ h' hu h b]
  show Ideal.ofBits .f32 0x00000000#32 + _ = _
  rw [Ideal.ofBits_zero_f32, zero_add]

/-! ## A vector kept as a column -/

/-- A length-R vector cast to R × 1 reads, at (p, z), the vector at p. -/
theorem shapeCast_col (u : (⟨1, ![R]⟩ : Shape).Idx → α) (h : (⟨1, ![R]⟩ : Shape).ShapeCasts ⟨2, ![R, 1]⟩) (p : Fin R) (z : Fin 1) :
    shapeCast ⟨2, ![R, 1]⟩ u h (ix2 p z) = u (ix1 p) :=
  shapeCast_apply u h _ _ (by
    have hz : z.val = 0 := by omega
    rw [Shape.rowMajor_val_two, Shape.rowMajor_val_one]
    show p.val = p.val * 1 + z.val
    rw [hz, Nat.mul_one, Nat.add_zero])

/-- The host's broadcast of a length-R vector along axis 0 of R × 1 reads, at (b, z), the vector at b. -/
theorem broadcastInDim_col (u : (⟨1, ![R]⟩ : Shape).Idx → α) (h : (⟨1, ![R]⟩ : Shape).BroadcastsInDim ⟨2, ![R, 1]⟩ ![0])
    (b : Fin R) (z : Fin 1) : broadcastInDim ⟨2, ![R, 1]⟩ ![0] h u (ix2 b z) = u (ix1 b) := by
  refine broadcastInDim_apply _ h u (ix2 b z) (ix1 b) fun a => ?_
  match a with
  | ⟨0, _⟩ =>
    show b.val = if R = 1 then 0 else b.val
    split
    · have := b.isLt; omega
    · rfl

/-! ## A column, a row or a scalar spread over the matrix -/

/-- An R × 1 column broadcast to R × C reads, at (p, q), the column at p. -/
theorem broadcastTo_col (w : (⟨2, ![R, 1]⟩ : Shape).Idx → α) (h : (⟨2, ![R, 1]⟩ : Shape).Broadcasts ⟨2, ![R, C]⟩)
    (p : Fin R) (q : Fin C) : broadcastTo ⟨2, ![R, C]⟩ w h (ix2 p q) = w (ix2 p (0 : Fin 1)) := by
  refine broadcastTo_apply w h (ix2 p q) (ix2 p (0 : Fin 1)) fun ax => ?_
  match ax with
  | ⟨0, _⟩ =>
    show p.val = if R = 1 then 0 else p.val
    split
    · have := p.isLt; omega
    · rfl
  | ⟨1, _⟩ => rfl

/-- The host's broadcast of an R × 1 column over R × C reads, at (b, o), the column at b. -/
theorem broadcastInDim_col_mat (w : (⟨2, ![R, 1]⟩ : Shape).Idx → α)
    (h : (⟨2, ![R, 1]⟩ : Shape).BroadcastsInDim ⟨2, ![R, C]⟩ ![0, 1]) (b : Fin R) (o : Fin C) :
    broadcastInDim ⟨2, ![R, C]⟩ ![0, 1] h w (ix2 b o) = w (ix2 b (0 : Fin 1)) := by
  refine broadcastInDim_apply _ h w (ix2 b o) (ix2 b (0 : Fin 1)) fun a => ?_
  match a with
  | ⟨0, _⟩ =>
    show b.val = if R = 1 then 0 else b.val
    split
    · have := b.isLt; omega
    · rfl
  | ⟨1, _⟩ => rfl

/-- The host's broadcast of a 1 × C row over R × C reads, at (b, o), the row at o. -/
theorem broadcastInDim_row_mat (g : (⟨2, ![1, C]⟩ : Shape).Idx → α)
    (h : (⟨2, ![1, C]⟩ : Shape).BroadcastsInDim ⟨2, ![R, C]⟩ ![0, 1]) (b : Fin R) (o : Fin C) :
    broadcastInDim ⟨2, ![R, C]⟩ ![0, 1] h g (ix2 b o) = g (ix2 (0 : Fin 1) o) := by
  refine broadcastInDim_apply _ h g (ix2 b o) (ix2 (0 : Fin 1) o) fun a => ?_
  match a with
  | ⟨0, _⟩ => rfl
  | ⟨1, _⟩ =>
    show o.val = if C = 1 then 0 else o.val
    split
    · have := o.isLt; omega
    · rfl

/-- The host's broadcast of a length-C vector along axis 1 of 1 × C reads, at (z, o), the vector at o. -/
theorem broadcastInDim_vec_row (g : (⟨1, ![C]⟩ : Shape).Idx → α)
    (h : (⟨1, ![C]⟩ : Shape).BroadcastsInDim ⟨2, ![1, C]⟩ ![1]) (z : Fin 1) (o : Fin C) :
    broadcastInDim ⟨2, ![1, C]⟩ ![1] h g (ix2 z o) = g (ix1 o) := by
  refine broadcastInDim_apply _ h g (ix2 z o) (ix1 o) fun a => ?_
  match a with
  | ⟨0, _⟩ =>
    show o.val = if C = 1 then 0 else o.val
    split
    · have := o.isLt; omega
    · rfl

/-- The host's broadcast of a rank-0 array reads its one element everywhere. -/
theorem broadcastInDim_scalar {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 fun a => a.elim0

end Cert.LibRowOps

end
-- ==== Proof.KPayClass.lean ====
/-
  The class term of the kernel's stored value, read at one element: the matrix unit's product of a block's
  softmax probabilities with the class-selection table is, at row p and target q, the sum over the 91 classes of
  the row's softmax at c times the table's entry (c, q); against a 0/1 column that marks class l it is the row's
  softmax at l.
-/
import proofs.«414946_j7335804141876_3_alg».proof.Proof.Gen.KernelIdeal.Skeleton
import proofs.«414946_j7335804141876_3_alg».proof.Proof.CostSpec
import proofs.«414946_j7335804141876_3_alg».proof.Proof.LibPlainDot
import proofs.«414946_j7335804141876_3_alg».proof.Proof.LibRowOps
import Idealize.ShloMosaic.Lib.Pipeline.Value

noncomputable section

namespace Cert.KernelIdeal.KPay

open Cert.KernelIdeal Cert.KernelIdeal.Gen Idealize.ShloMosaic Idealize.ShloMosaic.ValueIdx Cert.CostSpec
open Cert.LibRowOps Cert.LibPlainDot

/-- The index over row p of a [384, 91] block with column k inserted is (p, k). -/
theorem lift_row_384 (p : Fin 384) (k : Fin 91) : reduces_S384x91_S384.lift (ix1 p) k = ix2 p k :=
  lift_row reduces_S384x91_S384 p k

/-- The lane maximum of row p of a block, folded from the −∞ word, is the row's maximum. -/
theorem rowmax_apply (x0 : FVec Ideal S384x91 .f32) (p : Fin 384) :
    multiReduction .maximumf [1] S384 x0 0xFF800000#32 reduces_S384x91_S384 (.inl rfl) rfl (ix1 p)
      = rowMax (fun c => x0 (ix2 p c)) := by
  refine (Ideal.multiReduction_maximumf_single x0 0xFF800000#32 reduces_S384x91_S384 (.inl rfl) rfl (ix1 p)).trans ?_
  unfold rowMax negInfW
  refine Finset.fold_congr ?_
  intro k _
  exact congrArg x0 (lift_row_384 p k)

/-- The block's softmax probabilities as the body computes them: the scores less the row maximum kept as a column and
    spread back, exponentiated, over the row sums kept and spread the same way. -/
def probs (x0 : FVec Ideal S384x91 .f32) : FVec Ideal S384x91 .f32 :=
  divf (exp (subf x0 (broadcastTo S384x91 (shapeCast S384x1
      (multiReduction .maximumf [1] S384 x0 0xFF800000#32 reduces_S384x91_S384 (.inl rfl) rfl) shapeCasts_S384_S384x1) broadcasts_S384x1_S384x91)))
    (broadcastTo S384x91 (shapeCast S384x1
      (multiReduction .add [1] S384 (exp (subf x0 (broadcastTo S384x91 (shapeCast S384x1
        (multiReduction .maximumf [1] S384 x0 0xFF800000#32 reduces_S384x91_S384 (.inl rfl) rfl) shapeCasts_S384_S384x1) broadcasts_S384x1_S384x91)))
        0x00000000#32 reduces_S384x91_S384 (.inl rfl) rfl) shapeCasts_S384_S384x1) broadcasts_S384x1_S384x91)

/-- The shifted exponentials of row p. -/
theorem expShift_apply (x0 : FVec Ideal S384x91 .f32) (p : Fin 384) (c : Fin 91) :
    exp (subf x0 (broadcastTo S384x91 (shapeCast S384x1
      (multiReduction .maximumf [1] S384 x0 0xFF800000#32 reduces_S384x91_S384 (.inl rfl) rfl) shapeCasts_S384_S384x1) broadcasts_S384x1_S384x91)) (ix2 p c)
      = expShift (fun c => x0 (ix2 p c)) c := by
  show Ideal.exp (x0 (ix2 p c) - broadcastTo S384x91 _ broadcasts_S384x1_S384x91 (ix2 p c)) = _
  rw [broadcastTo_col, shapeCast_col, rowmax_apply]
  rfl

/-- The probabilities at (p, c) are the row's softmax at c. -/
theorem probs_apply (x0 : FVec Ideal S384x91 .f32) (p : Fin 384) (c : Fin 91) :
    probs x0 (ix2 p c) = softmax (fun c => x0 (ix2 p c)) c := by
  unfold probs softmax
  rw [divf_apply, broadcastTo_col, shapeCast_col, expShift_apply]
  refine congrArg (Ideal.div _) ?_
  refine (multiReduction_row _ 0x00000000#32 reduces_S384x91_S384 (.inl rfl) rfl p).trans ?_
  exact Finset.sum_congr rfl fun k _ => expShift_apply x0 p k

/-- The stored product is the matrix product of the probabilities with the table. -/
theorem pay2_eq (x0 : Vec Ideal S384x91 .f32) (x2 : Vec Ideal S91x1024 .bf16) :
    k0_pay2 (F := Ideal) x0 x2 = matProd (M := 384) (K := 91) (N := 1024) (probs x0) x2 := by
  unfold k0_pay2
  dsimp only
  rw [shapeCast_self, shapeCast_self]
  exact matmul_zero_eq_matProd dot_S384x91_S91x1024_S384x1024_1_0_0_1_n_n rfl rfl rfl rfl rfl rfl none _ _

/-- The class term at row p and target q against a 0/1 column marking class l: the row's softmax at l. -/
theorem pay2_apply (x0 : Vec Ideal S384x91 .f32) (x2 : Vec Ideal S91x1024 .bf16) (p : Fin 384) (q : Fin 1024) (l : Fin 91)
    (h2 : ∀ c : Fin 91, x2 (ix2 c q) = if c = l then 1 else 0) :
    k0_pay2 (F := Ideal) x0 x2 (ix2 p q) = softmax (fun c => x0 (ix2 p c)) l := by
  rw [pay2_eq, matProd_ix2]
  refine (Finset.sum_congr rfl fun c _ => ?_).trans (sum_mul_indicator (softmax (fun c => x0 (ix2 p c))) (fun c => x2 (ix2 c q)) l h2)
  rw [probs_apply]

end Cert.KernelIdeal.KPay

end
-- ==== Proof.KPayBox.lean ====
/-
  The box terms of the kernel's stored value, read at one element. A block of query boxes [384, 4] gives, per row p,
  the centre-size numbers, their lower and upper corners and the box area as [384, 1] columns; the target table's
  rows [1, 1024] give the same per target q. Spread over [384, 1024], the L1 distance, the cut-off side lengths of the
  intersection and of the enclosing hull, and the final combination are pointwise at (p, q).
-/
import proofs.«414946_j7335804141876_3_alg».proof.Proof.Gen.KernelIdeal.Skeleton
import proofs.«414946_j7335804141876_3_alg».proof.Proof.CostSpec
import proofs.«414946_j7335804141876_3_alg».proof.Proof.LibRowOps
import Idealize.ShloMosaic.Lib.Pipeline.Value
import Idealize.ShloMosaic.Lib.ValueLayout

noncomputable section

namespace Cert.KernelIdeal.KPay

open Cert.KernelIdeal Cert.KernelIdeal.Gen Idealize.ShloMosaic Idealize.ShloMosaic.ValueIdx Cert.CostSpec
open Cert.LibRowOps

/-- The absolute value of a vector at an index. -/
theorem absf_apply' {s : Shape} (a : FVec Ideal s .f32) (i : s.Idx) : absf a i = absE (a i) := rfl

/-! ## The query box's columns at row p -/

theorem pay4_apply (x1 : Vec Ideal S384x4 .f32) (p : Fin 384) :
    k0_pay4 (F := Ideal) x1 (ix2 p (0 : Fin 1)) = x1 (ix2 p (0 : Fin 4)) := by
  unfold k0_pay4 k0_pay3; dsimp only; rw [shapeCast_self]
  exact slice2_axis1_apply 0 x1 slices_S384x4_o0_0_S384x1 p 0 0 rfl

theorem pay5_apply (x1 : Vec Ideal S384x4 .f32) (p : Fin 384) :
    k0_pay5 (F := Ideal) x1 (ix2 p (0 : Fin 1)) = x1 (ix2 p (1 : Fin 4)) := by
  unfold k0_pay5 k0_pay3; dsimp only; rw [shapeCast_self]
  exact slice2_axis1_apply 1 x1 slices_S384x4_o0_1_S384x1 p 0 1 rfl

theorem pay6_apply (x1 : Vec Ideal S384x4 .f32) (p : Fin 384) :
    k0_pay6 (F := Ideal) x1 (ix2 p (0 : Fin 1)) = x1 (ix2 p (2 : Fin 4)) := by
  unfold k0_pay6 k0_pay3; dsimp only; rw [shapeCast_self]
  exact slice2_axis1_apply 2 x1 slices_S384x4_o0_2_S384x1 p 0 2 rfl

theorem pay7_apply (x1 : Vec Ideal S384x4 .f32) (p : Fin 384) :
    k0_pay7 (F := Ideal) x1 (ix2 p (0 : Fin 1)) = x1 (ix2 p (3 : Fin 4)) := by
  unfold k0_pay7 k0_pay3; dsimp only; rw [shapeCast_self]
  exact slice2_axis1_apply 3 x1 slices_S384x4_o0_3_S384x1 p 0 3 rfl

/-- The lower corner in x. -/
theorem pay8_apply (x1 : Vec Ideal S384x4 .f32) (p : Fin 384) :
    k0_pay8 (F := Ideal) x1 (ix2 p (0 : Fin 1)) = lo (x1 (ix2 p (0 : Fin 4))) (x1 (ix2 p (2 : Fin 4))) := by
  unfold k0_pay8
  rw [subf_apply, mulf_apply, broadcast_apply, pay4_apply, pay6_apply]; rfl

/-- The lower corner in y. -/
theorem pay9_apply (x1 : Vec Ideal S384x4 .f32) (p : Fin 384) :
    k0_pay9 (F := Ideal) x1 (ix2 p (0 : Fin 1)) = lo (x1 (ix2 p (1 : Fin 4))) (x1 (ix2 p (3 : Fin 4))) := by
  unfold k0_pay9
  rw [subf_apply, mulf_apply, broadcast_apply, pay5_apply, pay7_apply]; rfl

/-- The upper corner in x. -/
theorem pay10_apply (x1 : Vec Ideal S384x4 .f32) (p : Fin 384) :
    k0_pay10 (F := Ideal) x1 (ix2 p (0 : Fin 1)) = hi (x1 (ix2 p (0 : Fin 4))) (x1 (ix2 p (2 : Fin 4))) := by
  unfold k0_pay10
  rw [addf_apply, mulf_apply, broadcast_apply, pay4_apply, pay6_apply]; rfl

/-- The upper corner in y. -/
theorem pay11_apply (x1 : Vec Ideal S384x4 .f32) (p : Fin 384) :
    k0_pay11 (F := Ideal) x1 (ix2 p (0 : Fin 1)) = hi (x1 (ix2 p (1 : Fin 4))) (x1 (ix2 p (3 : Fin 4))) := by
  unfold k0_pay11
  rw [addf_apply, mulf_apply, broadcast_apply, pay5_apply, pay7_apply]; rfl

/-- The query box's area. -/
theorem pay12_apply (x1 : Vec Ideal S384x4 .f32) (p : Fin 384) :
    k0_pay12 (F := Ideal) x1 (ix2 p (0 : Fin 1)) = boxArea (fun k => x1 (ix2 p k)) := by
  unfold k0_pay12
  rw [mulf_apply, subf_apply, subf_apply, pay8_apply, pay9_apply, pay10_apply, pay11_apply]; rfl

/-! ## The target table's rows at target q: each row is kept as loaded -/

theorem pay13_eq (r : Vec Ideal S1x1024 .f32) : k0_pay13 (F := Ideal) r = r := by unfold k0_pay13; dsimp only; rw [shapeCast_self]
theorem pay14_eq (r : Vec Ideal S1x1024 .f32) : k0_pay14 (F := Ideal) r = r := by unfold k0_pay14; dsimp only; rw [shapeCast_self]
theorem pay15_eq (r : Vec Ideal S1x1024 .f32) : k0_pay15 (F := Ideal) r = r := by unfold k0_pay15; dsimp only; rw [shapeCast_self]
theorem pay16_eq (r : Vec Ideal S1x1024 .f32) : k0_pay16 (F := Ideal) r = r := by unfold k0_pay16; dsimp only; rw [shapeCast_self]
theorem pay17_eq (r : Vec Ideal S1x1024 .f32) : k0_pay17 (F := Ideal) r = r := by unfold k0_pay17; dsimp only; rw [shapeCast_self]
theorem pay18_eq (r : Vec Ideal S1x1024 .f32) : k0_pay18 (F := Ideal) r = r := by unfold k0_pay18; dsimp only; rw [shapeCast_self]
theorem pay19_eq (r : Vec Ideal S1x1024 .f32) : k0_pay19 (F := Ideal) r = r := by unfold k0_pay19; dsimp only; rw [shapeCast_self]

/-! ## The terms spread over the block, at (p, q) -/

/-- The L1 distance of query p's and target q's centre-size numbers. -/
theorem pay20_apply (v17 v18 v19 v20 : FVec Ideal S384x1 .f32) (v37 v39 : FVec Ideal S1x1024 .f32) (v40 v42 : Vec Ideal S1x1024 .f32)
    (p : Fin 384) (q : Fin 1024) :
    k0_pay20 (F := Ideal) v17 v18 v19 v20 v37 v39 v40 v42 (ix2 p q)
      = absE (v17 (ix2 p (0 : Fin 1)) - v37 (ix2 (0 : Fin 1) q)) + absE (v18 (ix2 p (0 : Fin 1)) - v39 (ix2 (0 : Fin 1) q))
        + absE (v19 (ix2 p (0 : Fin 1)) - v40 (ix2 (0 : Fin 1) q)) + absE (v20 (ix2 p (0 : Fin 1)) - v42 (ix2 (0 : Fin 1) q)) := by
  unfold k0_pay20
  simp only [addf_apply, absf_apply', subf_apply, broadcastTo_col, broadcastTo_1b_ab_apply, shapeCast_self]

/-- The intersection's cut-off extent in x. -/
theorem pay21_apply (v23 v29 : FVec Ideal S384x1 .f32) (v44 v48 : Vec Ideal S1x1024 .f32) (p : Fin 384) (q : Fin 1024) :
    k0_pay21 (F := Ideal) v23 v29 v44 v48 (ix2 p q)
      = pos (min (v29 (ix2 p (0 : Fin 1))) (v48 (ix2 (0 : Fin 1) q)) - max (v23 (ix2 p (0 : Fin 1))) (v44 (ix2 (0 : Fin 1) q))) := by
  unfold k0_pay21
  simp only [maximumf_apply, minimumf_apply, subf_apply, broadcast_apply, broadcastTo_col, broadcastTo_1b_ab_apply, pay15_eq, pay17_eq]
  rfl

/-- The smaller of the two upper corners in y. -/
theorem pay22_apply (v32 : FVec Ideal S384x1 .f32) (v50 : Vec Ideal S1x1024 .f32) (p : Fin 384) (q : Fin 1024) :
    k0_pay22 (F := Ideal) v32 v50 (ix2 p q) = min (v32 (ix2 p (0 : Fin 1))) (v50 (ix2 (0 : Fin 1) q)) := by
  unfold k0_pay22
  simp only [minimumf_apply, broadcastTo_col, broadcastTo_1b_ab_apply, pay18_eq]

theorem pay23_apply (v26 : FVec Ideal S384x1 .f32) (p : Fin 384) (q : Fin 1024) :
    k0_pay23 (F := Ideal) v26 (ix2 p q) = v26 (ix2 p (0 : Fin 1)) := by
  unfold k0_pay23
  simp only [broadcastTo_col]

theorem pay24_apply (v46 : Vec Ideal S1x1024 .f32) (p : Fin 384) (q : Fin 1024) :
    k0_pay24 (F := Ideal) v46 (ix2 p q) = v46 (ix2 (0 : Fin 1) q) := by
  unfold k0_pay24
  simp only [broadcastTo_1b_ab_apply, pay16_eq]

/-- The stored value at (p, q) from its sixteen pieces: five times the L1 term, less the class term, less twice the
    overlap term built from the cut-off extents, the two areas and the hull. -/
theorem pay1_apply (v14 : FVec Ideal S384x1024 .f32) (v23 v26 v29 v32 v35 : FVec Ideal S384x1 .f32)
    (v45 v47 v49 v51 v53 : FVec Ideal S1x1024 .f32) (v72 v81 v84 v85 v86 : FVec Ideal S384x1024 .f32) (p : Fin 384) (q : Fin 1024) :
    k0_pay1 (F := Ideal) v14 v23 v26 v29 v32 v35 v45 v47 v49 v51 v53 v72 v81 v84 v85 v86 (ix2 p q)
      = fiveW * v72 (ix2 p q) - oneW * v14 (ix2 p q)
        - twoW * (Ideal.div (v81 (ix2 p q) * pos (v84 (ix2 p q) - max (v85 (ix2 p q)) (v86 (ix2 p q))))
              (v35 (ix2 p (0 : Fin 1)) + v53 (ix2 (0 : Fin 1) q) - v81 (ix2 p q) * pos (v84 (ix2 p q) - max (v85 (ix2 p q)) (v86 (ix2 p q))))
            - Ideal.div
              (pos (max (v29 (ix2 p (0 : Fin 1))) (v49 (ix2 (0 : Fin 1) q)) - min (v23 (ix2 p (0 : Fin 1))) (v45 (ix2 (0 : Fin 1) q)))
                  * pos (max (v32 (ix2 p (0 : Fin 1))) (v51 (ix2 (0 : Fin 1) q)) - min (v26 (ix2 p (0 : Fin 1))) (v47 (ix2 (0 : Fin 1) q)))
                - (v35 (ix2 p (0 : Fin 1)) + v53 (ix2 (0 : Fin 1) q) - v81 (ix2 p q) * pos (v84 (ix2 p q) - max (v85 (ix2 p q)) (v86 (ix2 p q)))))
              (pos (max (v29 (ix2 p (0 : Fin 1))) (v49 (ix2 (0 : Fin 1) q)) - min (v23 (ix2 p (0 : Fin 1))) (v45 (ix2 (0 : Fin 1) q)))
                  * pos (max (v32 (ix2 p (0 : Fin 1))) (v51 (ix2 (0 : Fin 1) q)) - min (v26 (ix2 p (0 : Fin 1))) (v47 (ix2 (0 : Fin 1) q))))) := by
  unfold k0_pay1
  simp only [maximumf_apply, minimumf_apply, subf_apply, mulf_apply, addf_apply, divf_apply, broadcast_apply, broadcastTo_col, broadcastTo_1b_ab_apply]
  rfl

end Cert.KernelIdeal.KPay

end
-- ==== Proof.KPayAll.lean ====
/-
  The kernel's stored value at one element is the matching cost. For a block of scores x0 [384, 91], a block of query
  boxes b [384, 4], the class-selection table x2 [91, 1024] and nine rows t0 … t8 of the target table, if at target q
  the table's column marks class l by a single one, rows 0–3 hold the target's centre-size numbers, rows 4–7 its
  corners and row 8 its area, then the value stored at (p, q) is the cost of query row p against that target.
-/
import proofs.«414946_j7335804141876_3_alg».proof.Proof.KPayClass
import proofs.«414946_j7335804141876_3_alg».proof.Proof.KPayBox

noncomputable section

namespace Cert.KernelIdeal.KPay

open Cert.KernelIdeal Cert.KernelIdeal.Gen Idealize.ShloMosaic Idealize.ShloMosaic.ValueIdx Cert.CostSpec

theorem stored_apply (x0 : Vec Ideal S384x91 .f32) (b : Vec Ideal S384x4 .f32) (x2 : Vec Ideal S91x1024 .bf16)
    (t0 t1 t2 t3 t4 t5 t6 t7 t8 : Vec Ideal S1x1024 .f32) (p : Fin 384) (q : Fin 1024) (l : Fin 91) (tb : Fin 4 → EReal)
    (hx2 : ∀ c : Fin 91, x2 (ix2 c q) = if c = l then 1 else 0)
    (h0 : t0 (ix2 (0 : Fin 1) q) = tb 0) (h1 : t1 (ix2 (0 : Fin 1) q) = tb 1)
    (h2 : t2 (ix2 (0 : Fin 1) q) = tb 2) (h3 : t3 (ix2 (0 : Fin 1) q) = tb 3)
    (h4 : t4 (ix2 (0 : Fin 1) q) = lo (tb 0) (tb 2)) (h5 : t5 (ix2 (0 : Fin 1) q) = lo (tb 1) (tb 3))
    (h6 : t6 (ix2 (0 : Fin 1) q) = hi (tb 0) (tb 2)) (h7 : t7 (ix2 (0 : Fin 1) q) = hi (tb 1) (tb 3))
    (h8 : t8 (ix2 (0 : Fin 1) q) = boxArea tb) :
    k0_pay1 (F := Ideal) (k0_pay2 x0 x2) (k0_pay8 b) (k0_pay9 b) (k0_pay10 b) (k0_pay11 b) (k0_pay12 b)
        (k0_pay15 t4) (k0_pay16 t5) (k0_pay17 t6) (k0_pay18 t7) (k0_pay19 t8)
        (k0_pay20 (k0_pay4 b) (k0_pay5 b) (k0_pay6 b) (k0_pay7 b) (k0_pay13 t0) (k0_pay14 t1) t2 t3)
        (k0_pay21 (k0_pay8 b) (k0_pay10 b) t4 t6) (k0_pay22 (k0_pay11 b) t7) (k0_pay23 (k0_pay9 b)) (k0_pay24 t5) (ix2 p q)
      = cost (fun c => x0 (ix2 p c)) l (fun k => b (ix2 p k)) tb := by
  rw [pay1_apply, pay2_apply x0 x2 p q l hx2, pay20_apply, pay21_apply, pay22_apply, pay23_apply, pay24_apply,
    pay4_apply, pay5_apply, pay6_apply, pay7_apply, pay8_apply, pay9_apply, pay10_apply, pay11_apply, pay12_apply,
    pay13_eq, pay14_eq, pay15_eq, pay16_eq, pay17_eq, pay18_eq, pay19_eq, h0, h1, h2, h3, h4, h5, h6, h7, h8]
  rfl

end Cert.KernelIdeal.KPay

end
-- ==== Proof.KValue.lean ====
/-
  From the blocks the body stores to the whole result array. At grid point t the body stores, into rows
  384·t … 384·t + 383 of the [9600, 1024] result, the cost of each of those query rows against each of the 1024
  targets; the 25 points' row blocks tile the array, so after the run the array is the cost matrix of the flattened
  scores and boxes, and the reshape after the region lays it out as [16, 600, 1024].
-/
import proofs.«414946_j7335804141876_3_alg».proof.Proof.FrameKI
import proofs.«414946_j7335804141876_3_alg».proof.Proof.KPayAll
import Idealize.ShloMosaic.Lib.Pipeline.Value
import Idealize.ShloMosaic.Lib.StableHlo.Run

set_option maxRecDepth 16384

noncomputable section

namespace Cert.KernelIdeal.KVal

open Cert.KernelIdeal Cert.KernelIdeal.Gen Cert.KernelIdeal.Fr Cert.KernelIdeal.KPay
open Idealize.ShloMosaic Idealize.ShloMosaic.TcCoe Idealize.ShloMosaic.ValueIdx Idealize.SL.Sem Cert.CostSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## A row of the target table, as the body loads it -/

/-- The one-row rectangle at row k of a [16, 1024] block read at column q is the block at (k, q). -/
theorem ld_row (x3 : Vec Ideal S16x1024 .f32) (k : Fin 16) (inb : ∀ a, (![k.val, 0] : Fin 2 → Nat) a + S1x1024.size a ≤ S16x1024.size a)
    (q : Fin 1024) :
    View.ld x3 (Rect.unit (s := S16x1024) ![k.val, 0] S1x1024.size inb) (ix2 (0 : Fin 1) q) = x3 (ix2 k q) := by
  show x3 ((Rect.unit (s := S16x1024) ![k.val, 0] S1x1024.size inb).emb (ix2 (0 : Fin 1) q)) = _
  refine congrArg x3 (funext fun a => Fin.ext ?_)
  match a with
  | ⟨0, _⟩ => simp only [Rect.emb_apply, Rect.off_unit, Rect.stride_unit, Nat.one_mul]; show k.val + 0 = k.val; omega
  | ⟨1, _⟩ => simp only [Rect.emb_apply, Rect.off_unit, Rect.stride_unit, Nat.one_mul]; show 0 + q.val = q.val; omega

/-! ## The printed index maps, decided over the grid -/

/-- Windows 0, 1 and 4 move down their arrays one row block per point; windows 2 and 3 stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A point is one of 25. -/
theorem t_lt (t : Fin cfg0.N) : t.val < 25 := Nat.lt_of_lt_of_eq t.isLt (N_0 : cfg0.N = 25)

/-- Row p of point t's block is row 384·t + p of the array. -/
def rowOf (t : Fin cfg0.N) (p : Fin 384) : Fin 9600 := ⟨t.val * 384 + p.val, by have := t_lt t; have := p.isLt; omega⟩

/-! ## Which array element a block element is -/

theorem iblk0_apply (c : Dev nD) (t : Fin cfg0.N) (p : Fin 384) (k : Fin 91) :
    iblk m c 0 t (ix2 p k) = V m c main_v0 (ix2 (rowOf t p) k) := by
  obtain ⟨e0, e1, -⟩ := idx_facts t
  show V m c main_v0 (((cfg0.win 0).blk t).view.emb (ix2 p k)) = V m c main_v0 (ix2 (rowOf t p) k)
  refine congrArg (V m c main_v0) (funext fun a => Fin.ext ?_)
  match a with
  | ⟨0, _⟩ => show win0_0.index t (0 : Fin 2) * 384 + 1 * p.val = t.val * 384 + p.val; omega
  | ⟨1, _⟩ => show win0_0.index t (1 : Fin 2) * 91 + 1 * k.val = k.val; omega

theorem iblk1_apply (c : Dev nD) (t : Fin cfg0.N) (p : Fin 384) (k : Fin 4) :
    iblk m c 1 t (ix2 p k) = V m c main_v1 (ix2 (rowOf t p) k) := by
  obtain ⟨-, -, e0, e1, -⟩ := idx_facts t
  show V m c main_v1 (((cfg0.win 1).blk t).view.emb (ix2 p k)) = V m c main_v1 (ix2 (rowOf t p) k)
  refine congrArg (V m c main_v1) (funext fun a => Fin.ext ?_)
  match a with
  | ⟨0, _⟩ => show win0_1.index t (0 : Fin 2) * 384 + 1 * p.val = t.val * 384 + p.val; omega
  | ⟨1, _⟩ => show win0_1.index t (1 : Fin 2) * 4 + 1 * k.val = k.val; omega

theorem iblk2_apply (c : Dev nD) (t : Fin cfg0.N) (k : Fin 91) (q : Fin 1024) :
    iblk m c 2 t (ix2 k q) = V m c main_v4 (ix2 k q) := by
  obtain ⟨-, -, -, -, e0, e1, -⟩ := idx_facts t
  show V m c main_v4 (((cfg0.win 2).blk t).view.emb (ix2 k q)) = V m c main_v4 (ix2 k q)
  refine congrArg (V m c main_v4) (funext fun a => Fin.ext ?_)
  match a with
  | ⟨0, _⟩ => show win0_2.index t (0 : Fin 2) * 91 + 1 * k.val = k.val; omega
  | ⟨1, _⟩ => show win0_2.index t (1 : Fin 2) * 1024 + 1 * q.val = q.val; omega

theorem iblk3_apply (c : Dev nD) (t : Fin cfg0.N) (k : Fin 16) (q : Fin 1024) :
    iblk m c 3 t (ix2 k q) = V m c main_v45 (ix2 k q) := by
  obtain ⟨-, -, -, -, -, -, e0, e1, -⟩ := idx_facts t
  show V m c main_v45 (((cfg0.win 3).blk t).view.emb (ix2 k q)) = V m c main_v45 (ix2 k q)
  refine congrArg (V m c main_v45) (funext fun a => Fin.ext ?_)
  match a with
  | ⟨0, _⟩ => show win0_3.index t (0 : Fin 2) * 16 + 1 * k.val = k.val; omega
  | ⟨1, _⟩ => show win0_3.index t (1 : Fin 2) * 1024 + 1 * q.val = q.val; omega

theorem emb4 (t : Fin cfg0.N) (p : Fin 384) (q : Fin 1024) :
    ((cfg0.win 4).blk t).view.emb (ix2 p q) = ix2 (rowOf t p) q := by
  obtain ⟨-, -, -, -, -, -, -, -, e0, e1⟩ := idx_facts t
  refine funext fun a => Fin.ext ?_
  match a with
  | ⟨0, _⟩ => show win0_4.index t (0 : Fin 2) * 384 + 1 * p.val = t.val * 384 + p.val; omega
  | ⟨1, _⟩ => show win0_4.index t (1 : Fin 2) * 1024 + 1 * q.val = q.val; omega

/-! ## The stored block at an element -/

/-- What the body leaves in the output block at (p, q), when at target q the class table's column marks class l and
    the target table's rows hold the target's numbers, corners and area: the cost of query row p against that target. -/
theorem out_apply (x0 : Vec Ideal S384x91 .f32) (x1 : Vec Ideal S384x4 .f32) (x2 : Vec Ideal S91x1024 .bf16) (x3 : Vec Ideal S16x1024 .f32)
    (p : Fin 384) (q : Fin 1024) (l : Fin 91) (tb : Fin 4 → EReal)
    (hx2 : ∀ k : Fin 91, x2 (ix2 k q) = if k = l then 1 else 0)
    (h0 : x3 (ix2 (0 : Fin 16) q) = tb 0) (h1 : x3 (ix2 (1 : Fin 16) q) = tb 1)
    (h2 : x3 (ix2 (2 : Fin 16) q) = tb 2) (h3 : x3 (ix2 (3 : Fin 16) q) = tb 3)
    (h4 : x3 (ix2 (4 : Fin 16) q) = lo (tb 0) (tb 2)) (h5 : x3 (ix2 (5 : Fin 16) q) = lo (tb 1) (tb 3))
    (h6 : x3 (ix2 (6 : Fin 16) q) = hi (tb 0) (tb 2)) (h7 : x3 (ix2 (7 : Fin 16) q) = hi (tb 1) (tb 3))
    (h8 : x3 (ix2 (8 : Fin 16) q) = boxArea tb) :
    out0_4 x0 x1 x2 x3 (ix2 p q) = cost (fun k => x0 (ix2 p k)) l (fun k => x1 (ix2 p k)) tb := by
  unfold out0_4
  rw [View.canon_unit_zero hz]
  simp only [View.ld_unit_zero (S := S384x91) hz, View.ld_unit_zero (S := S384x4) hz, View.ld_unit_zero (S := S91x1024) hz]
  exact stored_apply x0 x1 x2 (View.ld x3 rT0) (View.ld x3 rT1) (View.ld x3 rT2) (View.ld x3 rT3) (View.ld x3 rT4)
    (View.ld x3 rT5) (View.ld x3 rT6) (View.ld x3 rT7) (View.ld x3 rT8) p q l tb hx2
    ((ld_row x3 0 _ q).trans h0) ((ld_row x3 1 _ q).trans h1) ((ld_row x3 2 _ q).trans h2) ((ld_row x3 3 _ q).trans h3)
    ((ld_row x3 4 _ q).trans h4) ((ld_row x3 5 _ q).trans h5) ((ld_row x3 6 _ q).trans h6) ((ld_row x3 7 _ q).trans h7)
    ((ld_row x3 8 _ q).trans h8)

/-! ## What the region finds in its two resident tables -/

/-- The class-selection table marks, in column q, the class of target q by a single one; the target table holds, in
    column q, target q's centre-size numbers (rows 0–3), corners (rows 4–7) and area (row 8). -/
structure Tables (c : Dev nD) (lab : Fin 1024 → Fin 91) (a3 : S1024x4.Idx → EReal) : Prop where
  v4 : ∀ (k : Fin 91) (q : Fin 1024), (V m c main_v4 : S91x1024.Idx → EReal) (ix2 k q) = (if k = lab q then 1 else 0 : EReal)
  r0 : ∀ q : Fin 1024, (V m c main_v45 : S16x1024.Idx → EReal) (ix2 (0 : Fin 16) q) = a3 (ix2 q (0 : Fin 4))
  r1 : ∀ q : Fin 1024, (V m c main_v45 : S16x1024.Idx → EReal) (ix2 (1 : Fin 16) q) = a3 (ix2 q (1 : Fin 4))
  r2 : ∀ q : Fin 1024, (V m c main_v45 : S16x1024.Idx → EReal) (ix2 (2 : Fin 16) q) = a3 (ix2 q (2 : Fin 4))
  r3 : ∀ q : Fin 1024, (V m c main_v45 : S16x1024.Idx → EReal) (ix2 (3 : Fin 16) q) = a3 (ix2 q (3 : Fin 4))
  r4 : ∀ q : Fin 1024, (V m c main_v45 : S16x1024.Idx → EReal) (ix2 (4 : Fin 16) q) = lo (a3 (ix2 q (0 : Fin 4))) (a3 (ix2 q (2 : Fin 4)))
  r5 : ∀ q : Fin 1024, (V m c main_v45 : S16x1024.Idx → EReal) (ix2 (5 : Fin 16) q) = lo (a3 (ix2 q (1 : Fin 4))) (a3 (ix2 q (3 : Fin 4)))
  r6 : ∀ q : Fin 1024, (V m c main_v45 : S16x1024.Idx → EReal) (ix2 (6 : Fin 16) q) = hi (a3 (ix2 q (0 : Fin 4))) (a3 (ix2 q (2 : Fin 4)))
  r7 : ∀ q : Fin 1024, (V m c main_v45 : S16x1024.Idx → EReal) (ix2 (7 : Fin 16) q) = hi (a3 (ix2 q (1 : Fin 4))) (a3 (ix2 q (3 : Fin 4)))
  r8 : ∀ q : Fin 1024, (V m c main_v45 : S16x1024.Idx → EReal) (ix2 (8 : Fin 16) q) = boxArea (fun k => a3 (ix2 q k))

/-! ## What point t writes back -/

/-- Point t writes back block t of the cost matrix of the scores and boxes as the region finds them. -/
theorem flushed_eq (c : Dev nD) (lab : Fin 1024 → Fin 91) (a3 : S1024x4.Idx → EReal) (T : Tables m c lab a3) (t : Fin cfg0.N) :
    (dats m 0 c).flushed 4 t
      = ((cfg0.win 4).blk t).view.read (Elt Ideal) (costMatrix (V m c main_v0) (V m c main_v1) lab a3) := by
  show (cfg0.win 4).cut (grid0.coords t) ((dats m 0 c).after 4 t) = _
  rw [after0_4]
  funext j
  obtain ⟨p, q, rfl⟩ : ∃ (p : Fin 384) (q : Fin 1024), j = ix2 p q := ⟨j 0, j 1, eq_ix2 j⟩
  show out0_4 (iblk m c 0 t) (iblk m c 1 t) (iblk m c 2 t) (iblk m c 3 t) (ix2 p q)
      = costMatrix (V m c main_v0) (V m c main_v1) lab a3 (((cfg0.win 4).blk t).view.emb (ix2 p q))
  rw [emb4 t p q]
  refine (out_apply (iblk m c 0 t) (iblk m c 1 t) (iblk m c 2 t) (iblk m c 3 t) p q (lab q) (fun k => a3 (ix2 q k))
    (fun k => (iblk2_apply m c t k q).trans (T.v4 k q))
    ((iblk3_apply m c t 0 q).trans (T.r0 q)) ((iblk3_apply m c t 1 q).trans (T.r1 q))
    ((iblk3_apply m c t 2 q).trans (T.r2 q)) ((iblk3_apply m c t 3 q).trans (T.r3 q))
    ((iblk3_apply m c t 4 q).trans (T.r4 q)) ((iblk3_apply m c t 5 q).trans (T.r5 q))
    ((iblk3_apply m c t 6 q).trans (T.r6 q)) ((iblk3_apply m c t 7 q).trans (T.r7 q))
    ((iblk3_apply m c t 8 q).trans (T.r8 q))).trans ?_
  rw [show (fun k => iblk m c 0 t (ix2 p k)) = fun k => V m c main_v0 (ix2 (rowOf t p) k) from funext (iblk0_apply m c t p),
    show (fun k => iblk m c 1 t (ix2 p k)) = fun k => V m c main_v1 (ix2 (rowOf t p) k) from funext (iblk1_apply m c t p)]
  rfl

/-! ## The blocks tile the array -/

/-- An index of the array is in point t's block iff each coordinate is in the block's range on its axis. -/
theorem mem_blk (t : Fin cfg0.N) (i : S9600x1024.Idx) :
    i ∈ ((cfg0.win 4).blk t).view.set ↔ ∀ a : Fin 2, win0_4.index t a * S384x1024.size a ≤ (i a).val
      ∧ (i a).val < win0_4.index t a * S384x1024.size a + S384x1024.size a := by
  show i ∈ ((View.whole main_v46).slice (win0_4.rect t)).set ↔ _
  rw [View.set_slice_whole, Rect.mem_set_unit]
  exact Iff.rfl

/-- Row r lies in the block of point r / 384. -/
theorem cover (i : S9600x1024.Idx) : ∃ t : Fin cfg0.N, (cfg0.win 4).flush t = true ∧ i ∈ ((cfg0.win 4).blk t).view.set := by
  have hi0 : (i 0).val < 9600 := (i 0).isLt
  have hi1 : (i 1).val < 1024 := (i 1).isLt
  let t : Fin cfg0.N := Fin.cast (N_0 : cfg0.N = 25).symm ⟨(i 0).val / 384, by omega⟩
  have htv : t.val = (i 0).val / 384 := rfl
  obtain ⟨-, -, -, -, -, -, -, -, e0, e1⟩ := idx_facts t
  refine ⟨t, flush0_4 t, ?_⟩
  rw [mem_blk]
  intro a
  match a with
  | ⟨0, _⟩ => show win0_4.index t (0 : Fin 2) * 384 ≤ (i 0).val ∧ (i 0).val < win0_4.index t (0 : Fin 2) * 384 + 384; omega
  | ⟨1, _⟩ => show win0_4.index t (1 : Fin 2) * 1024 ≤ (i 1).val ∧ (i 1).val < win0_4.index t (1 : Fin 2) * 1024 + 1024; omega

/-- After the run the result array is the cost matrix. -/
theorem final (c : Dev nD) (lab : Fin 1024 → Fin 91) (a3 : S1024x4.Idx → EReal) (T : Tables m c lab a3) :
    (dats m 0 c).arrAt 4 cfg0.N = costMatrix (V m c main_v0) (V m c main_v1) lab a3 :=
  (dats m 0 c).arrAt_eq_of_cover 4 (costMatrix (V m c main_v0) (V m c main_v1) lab a3) (fun t _ => flushed_eq m c lab a3 T t) cover

/-! ## The reshape after the region, and the run -/

/-- The program's result: the cost matrix laid out as [16, 600, 1024]. -/
theorem tail_eq (c : Dev nD) (lab : Fin 1024 → Fin 91) (a3 : S1024x4.Idx → EReal) (T : Tables m c lab a3) :
    Pipeline.afterTail₀ cfgs (dats m) 0 (V0 m) [hostOps1] c main_v47
      = shapeCast S16x600x1024 (costMatrix (V m c main_v0) (V m c main_v1) lab a3) shapeCasts_S9600x1024_S16x600x1024 := by
  unfold Pipeline.afterTail₀
  show StableHlo.after hostOps1 _ (Proc.devRef .tc main_v47) = _
  after_results
  funext i
  show shapeCast S16x600x1024 (Pipeline.withArrays spec0 c (V0 m c) (fun w => (dats m 0 c).arrAt w cfg0.N)
      (Proc.devRef .tc (Pipeline.arrRef spec0 4))) shapeCasts_S9600x1024_S16x600x1024 i = _
  rw [Pipeline.withArrays_arr spec0 launch0.win.arr_inj c, final m c lab a3 T]

/-- The run of the program, read: from any memory every weakly fair execution terminates with the result buffer at
    the cost matrix of the arrays the region finds, laid out as [16, 600, 1024], and the four arguments unchanged. -/
theorem run (lab : Dev nD → Fin 1024 → Fin 91) (a3 : (c : Dev nD) → S1024x4.Idx → EReal) (T : ∀ c, Tables m c (lab c) (a3 c)) :
    θ_run defs (onTc (τ := τ) (main (F := Ideal))) ⟨m, fun _ => 0, ρ⟩ (fun r => ∀ c : Dev nD,
      r.2.mem ((c.tc : Thread nD τ).loc main_v47)
        = shapeCast S16x600x1024 (costMatrix (V m c main_v0) (V m c main_v1) (lab c) (a3 c)) shapeCasts_S9600x1024_S16x600x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v47 (Pipeline.mem_restRefs_of main_v47 (by decide) (by decide))).trans (tail_eq m c (lab c) (a3 c) (T c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.KVal

end
-- ==== Proof.KTables.lean ====
import proofs.«414946_j7335804141876_3_alg».proof.Proof.FrameKI
import proofs.«414946_j7335804141876_3_alg».proof.Proof.CostSpec
import Idealize.ShloMosaic.Lib.StableHlo.Run
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.IdealHost

/-!
# What the region finds in its four input arrays

The host operations before the region build the region's four input arrays from the four arguments:
`main_v0` and `main_v1` are arguments 0 and 1 reshaped to two axes; `main_v4` is the table whose entry
`(k, q)` says whether label `q`, clamped to `[0, 90]`, is class `k`; `main_v45` stacks sixteen rows made from
argument 3, a `[1024, 4]` array of centre-size boxes: rows 0 to 3 its four columns, rows 4 to 7 the lower and
upper corners along each axis, row 8 the box areas, rows 9 to 15 zero. Each theorem reads one of these
arrays, as the region finds it, at an element, on the extended reals.
-/

noncomputable section

namespace Cert.KernelIdeal.KTab

open Cert.KernelIdeal Cert.KernelIdeal.Gen Cert.KernelIdeal.Fr
open Idealize.ShloMosaic Idealize.ShloMosaic.ValueIdx Cert.CostSpec

variable (m : (ℓ : Loc nD τ sig) → Buf (Elt Ideal) ℓ)

/-! ## The stages of the host prefix, as functions of the arguments -/

/-- Column `j` of a `[1024, 4]` array, as a vector of length 1024. -/
def col0 (x : FVec Ideal S1024x4 .f32) : FVec Ideal S1024 .f32 :=
  shapeCast S1024 (extractStridedSlice S1024x1 ![0, 0] x slices_S1024x4_S1024x1_0_0) shapeCasts_S1024x1_S1024
def col1 (x : FVec Ideal S1024x4 .f32) : FVec Ideal S1024 .f32 :=
  shapeCast S1024 (extractStridedSlice S1024x1 ![0, 1] x slices_S1024x4_S1024x1_0_1) shapeCasts_S1024x1_S1024
def col2 (x : FVec Ideal S1024x4 .f32) : FVec Ideal S1024 .f32 :=
  shapeCast S1024 (extractStridedSlice S1024x1 ![0, 2] x slices_S1024x4_S1024x1_0_2) shapeCasts_S1024x1_S1024
def col3 (x : FVec Ideal S1024x4 .f32) : FVec Ideal S1024 .f32 :=
  shapeCast S1024 (extractStridedSlice S1024x1 ![0, 3] x slices_S1024x4_S1024x1_0_3) shapeCasts_S1024x1_S1024

/-- The word for one half, and the zero word, at every position of a vector of length 1024. -/
def halfV : FVec Ideal S1024 .f32 := broadcastInDim S1024 ![] bcast_S_S1024 (constant (F := Ideal) S_ .f32 0x3F000000#32)
def zeroV : FVec Ideal S1024 .f32 := broadcastInDim S1024 ![] bcast_S_S1024 (constant (F := Ideal) S_ .f32 0x00000000#32)

/-- The lower and upper corners along the first axis (columns 0 and 2) and along the second (columns 1 and 3), -/
def lo02 (x : FVec Ideal S1024x4 .f32) : FVec Ideal S1024 .f32 := subf (col0 x) (mulf halfV (col2 x))
def lo13 (x : FVec Ideal S1024x4 .f32) : FVec Ideal S1024 .f32 := subf (col1 x) (mulf halfV (col3 x))
def hi02 (x : FVec Ideal S1024x4 .f32) : FVec Ideal S1024 .f32 := addf (col0 x) (mulf halfV (col2 x))
def hi13 (x : FVec Ideal S1024x4 .f32) : FVec Ideal S1024 .f32 := addf (col1 x) (mulf halfV (col3 x))
/-- and the product of the two side lengths. -/
def area (x : FVec Ideal S1024x4 .f32) : FVec Ideal S1024 .f32 := mulf (subf (hi02 x) (lo02 x)) (subf (hi13 x) (lo13 x))

/-- A vector of length 1024 as a `[1, 1024]` row. -/
def row (v : FVec Ideal S1024 .f32) : FVec Ideal S1x1024 .f32 := broadcastInDim S1x1024 ![1] bcast_S1024_S1x1024_1 v

/-- The labels clamped to `[0, 90]`: the larger of zero and the label, then the smaller of 90 and that. -/
def clampLab (l : IVec S1024 32) : IVec S1024 32 :=
  minsi (broadcastInDim S1024 ![] bcast_S_S1024 (constantI S_ 32 90#32))
    (maxsi (broadcastInDim S1024 ![] bcast_S_S1024 (constantI S_ 32 0#32)) l)

/-- The `[1024, 91]` table of the comparison of each clamped label with each class number, the bit widened to a float, -/
def onehot (l : IVec S1024 32) : FVec Ideal S1024x91 .bf16 :=
  uitofp .bf16 (cmpi .eq
    (broadcastInDim S1024x91 ![0, 1] bcast_S1024x1_S1024x91_0_1 (broadcastInDim S1024x1 ![0] bcast_S1024_S1024x1_0 (clampLab l)))
    (broadcastInDim S1024x91 ![0, 1] bcast_S1x91_S1024x91_0_1 (iotaInDim S1x91 32 1)))
/-- and its transpose. -/
def onehotT (l : IVec S1024 32) : FVec Ideal S91x1024 .bf16 :=
  transpose S91x1024 [1, 0] (onehot l) transposes_S1024x91_S91x1024_1_0

/-! ## The arrays as the region finds them, whole -/

set_option maxHeartbeats 1000000 in
/-- `main_v4` is the transposed comparison table of argument 2. -/
theorem V4_eq (c : Dev nD) : (V m c main_v4 : S91x1024.Idx → EReal)
    = onehotT (m ((c.tc : Thread nD τ).loc main_arg2) : S1024.Idx → BitVec 32) := by
  dsimp only [V, V0]
  simp only [hostOps0, hostOps0_1, hostOps0_2, hostOps0_3, List.flatten_cons, List.flatten_nil, List.append_nil, List.cons_append, List.nil_append]
  simp (disch := decide) only [StableHlo.after_cons, StableHlo.after_nil, StableHlo.nullary_result', StableHlo.unary_result', StableHlo.binary_result', StableHlo.reshape_result', StableHlo.nary_result', StableHlo.nullary_result_ne', StableHlo.unary_result_ne', StableHlo.binary_result_ne', StableHlo.reshape_result_ne', StableHlo.nary_result_ne', Matrix.cons_val]
  rfl

set_option maxHeartbeats 1000000 in
/-- `main_v45` stacks sixteen rows: the four columns of argument 3, the four corner vectors, the areas, and seven
    rows of zeros. -/
theorem V45_eq (c : Dev nD) : (V m c main_v45 : S16x1024.Idx → EReal)
    = concatenate S16x1024 0
        [⟨S1x1024, row (col0 (m ((c.tc : Thread nD τ).loc main_arg3) : S1024x4.Idx → EReal))⟩,
         ⟨S1x1024, row (col1 (m ((c.tc : Thread nD τ).loc main_arg3) : S1024x4.Idx → EReal))⟩,
         ⟨S1x1024, row (col2 (m ((c.tc : Thread nD τ).loc main_arg3) : S1024x4.Idx → EReal))⟩,
         ⟨S1x1024, row (col3 (m ((c.tc : Thread nD τ).loc main_arg3) : S1024x4.Idx → EReal))⟩,
         ⟨S1x1024, row (lo02 (m ((c.tc : Thread nD τ).loc main_arg3) : S1024x4.Idx → EReal))⟩,
         ⟨S1x1024, row (lo13 (m ((c.tc : Thread nD τ).loc main_arg3) : S1024x4.Idx → EReal))⟩,
         ⟨S1x1024, row (hi02 (m ((c.tc : Thread nD τ).loc main_arg3) : S1024x4.Idx → EReal))⟩,
         ⟨S1x1024, row (hi13 (m ((c.tc : Thread nD τ).loc main_arg3) : S1024x4.Idx → EReal))⟩,
         ⟨S1x1024, row (area (m ((c.tc : Thread nD τ).loc main_arg3) : S1024x4.Idx → EReal))⟩,
         ⟨S1x1024, row zeroV⟩, ⟨S1x1024, row zeroV⟩, ⟨S1x1024, row zeroV⟩, ⟨S1x1024, row zeroV⟩,
         ⟨S1x1024, row zeroV⟩, ⟨S1x1024, row zeroV⟩, ⟨S1x1024, row zeroV⟩]
        concatenates_S1x1024_S1x1024_S1x1024_S1x1024_S1x1024_S1x1024_S1x1024_S1x1024_S1x1024_S1x1024_S1x1024_S1x1024_S1x1024_S1x1024_S1x1024_S1x1024_S16x1024_d0 := by
  dsimp only [V, V0]
  simp only [hostOps0, hostOps0_1, hostOps0_2, hostOps0_3, List.flatten_cons, List.flatten_nil, List.append_nil, List.cons_append, List.nil_append]
  simp (disch := decide) only [StableHlo.after_cons, StableHlo.after_nil, StableHlo.nullary_result', StableHlo.unary_result', StableHlo.binary_result', StableHlo.reshape_result', StableHlo.nary_result', StableHlo.nullary_result_ne', StableHlo.unary_result_ne', StableHlo.binary_result_ne', StableHlo.reshape_result_ne', StableHlo.nary_result_ne', Matrix.cons_val]
  rfl

/-! ## The stages read at an element -/

/-- A vector laid as a `[1, 1024]` row reads, at `(0, q)`, the vector at `q`. -/
theorem row_apply (v : FVec Ideal S1024 .f32) (u : Fin 1) (q : Fin 1024) : row v (ix2 u q) = v (ix1 q) := by
  unfold row
  refine broadcastInDim_apply _ _ v _ _ fun a => ?_
  obtain rfl : a = 0 := Subsingleton.elim _ _
  split
  · next h1 => exact absurd h1 (by decide)
  · rfl

/-- Column `j` at `q` is the array at `(q, j)`. -/
theorem col0_apply (x : FVec Ideal S1024x4 .f32) (q : Fin 1024) : col0 x (ix1 q) = x (ix2 q (0 : Fin 4)) := by
  unfold col0
  have hk : (S1024x1.rowMajor (ix2 q (0 : Fin 1))).val = (S1024.rowMajor (ix1 q)).val := by
    rw [Shape.rowMajor_val_two, Shape.rowMajor_val_one]; show q.val * 1 + 0 = q.val; omega
  exact (shapeCast_apply _ _ (ix1 q) (ix2 q (0 : Fin 1)) hk).trans (slice2_axis1_apply 0 x _ q (0 : Fin 1) (0 : Fin 4) rfl)
theorem col1_apply (x : FVec Ideal S1024x4 .f32) (q : Fin 1024) : col1 x (ix1 q) = x (ix2 q (1 : Fin 4)) := by
  unfold col1
  have hk : (S1024x1.rowMajor (ix2 q (0 : Fin 1))).val = (S1024.rowMajor (ix1 q)).val := by
    rw [Shape.rowMajor_val_two, Shape.rowMajor_val_one]; show q.val * 1 + 0 = q.val; omega
  exact (shapeCast_apply _ _ (ix1 q) (ix2 q (0 : Fin 1)) hk).trans (slice2_axis1_apply 1 x _ q (0 : Fin 1) (1 : Fin 4) rfl)
theorem col2_apply (x : FVec Ideal S1024x4 .f32) (q : Fin 1024) : col2 x (ix1 q) = x (ix2 q (2 : Fin 4)) := by
  unfold col2
  have hk : (S1024x1.rowMajor (ix2 q (0 : Fin 1))).val = (S1024.rowMajor (ix1 q)).val := by
    rw [Shape.rowMajor_val_two, Shape.rowMajor_val_one]; show q.val * 1 + 0 = q.val; omega
  exact (shapeCast_apply _ _ (ix1 q) (ix2 q (0 : Fin 1)) hk).trans (slice2_axis1_apply 2 x _ q (0 : Fin 1) (2 : Fin 4) rfl)
theorem col3_apply (x : FVec Ideal S1024x4 .f32) (q : Fin 1024) : col3 x (ix1 q) = x (ix2 q (3 : Fin 4)) := by
  unfold col3
  have hk : (S1024x1.rowMajor (ix2 q (0 : Fin 1))).val = (S1024.rowMajor (ix1 q)).val := by
    rw [Shape.rowMajor_val_two, Shape.rowMajor_val_one]; show q.val * 1 + 0 = q.val; omega
  exact (shapeCast_apply _ _ (ix1 q) (ix2 q (0 : Fin 1)) hk).trans (slice2_axis1_apply 3 x _ q (0 : Fin 1) (3 : Fin 4) rfl)

/-- The half word everywhere. -/
theorem halfV_apply (i : S1024.Idx) : halfV i = half := by
  unfold halfV half
  rw [broadcastInDim_scalar_apply]
  rfl

/-- The corner vectors at `q` are the corners of box `q`. -/
theorem lo02_apply (x : FVec Ideal S1024x4 .f32) (q : Fin 1024) :
    lo02 x (ix1 q) = lo (x (ix2 q (0 : Fin 4))) (x (ix2 q (2 : Fin 4))) := by
  unfold lo02 lo
  rw [subf_apply, mulf_apply, halfV_apply, col0_apply, col2_apply]
theorem lo13_apply (x : FVec Ideal S1024x4 .f32) (q : Fin 1024) :
    lo13 x (ix1 q) = lo (x (ix2 q (1 : Fin 4))) (x (ix2 q (3 : Fin 4))) := by
  unfold lo13 lo
  rw [subf_apply, mulf_apply, halfV_apply, col1_apply, col3_apply]
theorem hi02_apply (x : FVec Ideal S1024x4 .f32) (q : Fin 1024) :
    hi02 x (ix1 q) = hi (x (ix2 q (0 : Fin 4))) (x (ix2 q (2 : Fin 4))) := by
  unfold hi02 hi
  rw [addf_apply, mulf_apply, halfV_apply, col0_apply, col2_apply]
theorem hi13_apply (x : FVec Ideal S1024x4 .f32) (q : Fin 1024) :
    hi13 x (ix1 q) = hi (x (ix2 q (1 : Fin 4))) (x (ix2 q (3 : Fin 4))) := by
  unfold hi13 hi
  rw [addf_apply, mulf_apply, halfV_apply, col1_apply, col3_apply]

/-- The area vector at `q` is the area of box `q`. -/
theorem area_apply (x : FVec Ideal S1024x4 .f32) (q : Fin 1024) : area x (ix1 q) = boxArea (fun k => x (ix2 q k)) := by
  unfold area boxArea
  rw [mulf_apply, subf_apply, subf_apply, hi02_apply, lo02_apply, hi13_apply, lo13_apply]

/-- A natural below 91, as a 32-bit word, is left alone by the clamp to `[0, 90]`. -/
theorem clamp_small (n : ℕ) (hn : n < 91) : IntOp.minsi 90#32 (IntOp.maxsi 0#32 (BitVec.ofNat 32 n)) = BitVec.ofNat 32 n := by
  have hw : (BitVec.ofNat 32 n).toInt = n := StableHlo.Predicate.toInt_ofNat_small n (by omega)
  have h0 : (0#32 : BitVec 32).toInt = 0 := by decide
  have h90 : (90#32 : BitVec 32).toInt = 90 := by decide
  have hmax : IntOp.maxsi 0#32 (BitVec.ofNat 32 n) = BitVec.ofNat 32 n := by
    unfold IntOp.maxsi
    rw [if_neg]
    simp only [BitVec.slt, hw, h0, decide_eq_true_eq]; omega
  rw [hmax]
  unfold IntOp.minsi
  rw [if_neg]
  simp only [BitVec.slt, hw, h90, decide_eq_true_eq]; omega

/-- The clamped labels at `q`, for a label that is a natural below 91. -/
theorem clampLab_apply (l : IVec S1024 32) (q : Fin 1024) (n : ℕ) (hn : n < 91) (hl : l (ix1 q) = BitVec.ofNat 32 n) :
    clampLab l (ix1 q) = BitVec.ofNat 32 n := by
  unfold clampLab
  show IntOp.minsi (broadcastInDim S1024 ![] bcast_S_S1024 (constantI S_ 32 90#32) (ix1 q))
    (IntOp.maxsi (broadcastInDim S1024 ![] bcast_S_S1024 (constantI S_ 32 0#32) (ix1 q)) (l (ix1 q))) = _
  rw [broadcastInDim_scalar_apply, broadcastInDim_scalar_apply, hl]
  exact clamp_small n hn

/-- The comparison table at `(q, k)`: one when label `q` is class `k`, zero otherwise. -/
theorem onehot_apply (l : IVec S1024 32) (lab : Fin 1024 → Fin 91) (hl : ∀ s : Fin 1024, l (ix1 s) = BitVec.ofNat 32 (lab s).val)
    (q : Fin 1024) (k : Fin 91) : onehot l (ix2 q k) = (if k = lab q then 1 else 0 : EReal) := by
  have hA : broadcastInDim S1024x91 ![0, 1] bcast_S1024x1_S1024x91_0_1
      (broadcastInDim S1024x1 ![0] bcast_S1024_S1024x1_0 (clampLab l)) (ix2 q k) = BitVec.ofNat 32 (lab q).val := by
    rw [broadcastInDim_apply _ _ _ (ix2 q k) (ix2 q (0 : Fin 1)) (fun a => by
        match a with
        | ⟨0, _⟩ =>
          split
          · next h1 => change (1024 : ℕ) = 1 at h1; omega
          · rfl
        | ⟨1, _⟩ =>
          split
          · rfl
          · next h1 => exact absurd rfl h1),
      broadcastInDim_apply _ _ _ (ix2 q (0 : Fin 1)) (ix1 q) (fun a => by
        obtain rfl : a = 0 := Subsingleton.elim _ _
        split
        · next h1 => exact absurd h1 (by decide)
        · rfl)]
    exact clampLab_apply l q _ (lab q).isLt (hl q)
  have hB : broadcastInDim S1024x91 ![0, 1] bcast_S1x91_S1024x91_0_1 (iotaInDim S1x91 32 1) (ix2 q k) = BitVec.ofNat 32 k.val := by
    rw [broadcastInDim_apply _ _ _ (ix2 q k) (ix2 (0 : Fin 1) k) (fun a => by
        match a with
        | ⟨0, _⟩ =>
          split
          · rfl
          · next h1 => exact absurd rfl h1
        | ⟨1, _⟩ =>
          split
          · next h1 => change (91 : ℕ) = 1 at h1; omega
          · rfl)]
    rfl
  unfold onehot
  show FloatOps.uitofp (F := Ideal) FTy.bf16 (IntOp.cmpi CmpIPredicate.eq _ _) = _
  rw [hA, hB]
  by_cases hk : k = lab q
  · rw [if_pos hk, hk, StableHlo.Predicate.cmpi_eq_iff.mpr rfl]
    show (((1 : ℕ) : ℝ) : EReal) = 1
    rw [Nat.cast_one, EReal.coe_one]
  · have hne : IntOp.cmpi CmpIPredicate.eq (BitVec.ofNat 32 (lab q).val) (BitVec.ofNat 32 k.val) = 0#1 :=
      eq_zero_of_ne_one (fun h => hk (by
        have e := congrArg BitVec.toNat (StableHlo.Predicate.cmpi_eq_iff.mp h)
        simp only [BitVec.toNat_ofNat] at e
        have h1 := (lab q).isLt
        have h2 := k.isLt
        exact Fin.ext (by omega)))
    rw [if_neg hk, hne]
    show (((0 : ℕ) : ℝ) : EReal) = 0
    rw [Nat.cast_zero, EReal.coe_zero]

/-- `main_v0` is argument 0 read row-major at `[9600, 91]`. -/
theorem V_v0 (c : Dev nD) : (V m c main_v0 : S9600x91.Idx → EReal)
    = shapeCast S9600x91 (m ((c.tc : Thread nD τ).loc main_arg0) : S16x600x91.Idx → EReal) shapeCasts_S16x600x91_S9600x91 := by
  dsimp only [V, V0]
  simp only [hostOps0, hostOps0_1, hostOps0_2, hostOps0_3, List.flatten_cons, List.flatten_nil, List.append_nil, List.cons_append, List.nil_append]
  after_results_simp
  rfl

/-- `main_v1` is argument 1 read row-major at `[9600, 4]`. -/
theorem V_v1 (c : Dev nD) : (V m c main_v1 : S9600x4.Idx → EReal)
    = shapeCast S9600x4 (m ((c.tc : Thread nD τ).loc main_arg1) : S16x600x4.Idx → EReal) shapeCasts_S16x600x4_S9600x4 := by
  dsimp only [V, V0]
  simp only [hostOps0, hostOps0_1, hostOps0_2, hostOps0_3, List.flatten_cons, List.flatten_nil, List.append_nil, List.cons_append, List.nil_append]
  after_results_simp
  rfl

/-- The class-selection table: entry `(k, q)` is one when label `q` is class `k` and zero otherwise, for labels that
    are naturals below 91 (on which the clamp to `[0, 90]` does nothing). -/
theorem V_v4_apply (c : Dev nD) (lab : Fin 1024 → Fin 91)
    (hlab : ∀ s : Fin 1024, (m ((c.tc : Thread nD τ).loc main_arg2) : S1024.Idx → BitVec 32) (ix1 s) = BitVec.ofNat 32 (lab s).val)
    (k : Fin 91) (q : Fin 1024) : (V m c main_v4 : S91x1024.Idx → EReal) (ix2 k q) = (if k = lab q then 1 else 0 : EReal) := by
  rw [V4_eq]
  unfold onehotT
  rw [transpose_ix2_apply]
  exact onehot_apply _ lab hlab q k

/-- Rows 0 to 3 of `main_v45` are the four columns of argument 3. -/
theorem V_v45_row0 (c : Dev nD) (q : Fin 1024) : (V m c main_v45 : S16x1024.Idx → EReal) (ix2 (0 : Fin 16) q) = (m ((c.tc : Thread nD τ).loc main_arg3) : S1024x4.Idx → EReal) (ix2 q (0 : Fin 4)) := by
  rw [V45_eq]
  refine (concatenate_apply_piece (0 : Fin S16x1024.rank) _ _ (ix2 (0 : Fin 16) q) 0 (by show (0 : ℕ) < 16; omega) S1x1024 _ rfl rfl 0 rfl
    (ix2 (0 : Fin 1) q) (fun b hb => ?_) rfl).trans ?_
  · match b with
    | ⟨0, _⟩ => exact absurd rfl hb
    | ⟨1, _⟩ => rfl
  · rw [row_apply, col0_apply]

theorem V_v45_row1 (c : Dev nD) (q : Fin 1024) : (V m c main_v45 : S16x1024.Idx → EReal) (ix2 (1 : Fin 16) q) = (m ((c.tc : Thread nD τ).loc main_arg3) : S1024x4.Idx → EReal) (ix2 q (1 : Fin 4)) := by
  rw [V45_eq]
  refine (concatenate_apply_piece (0 : Fin S16x1024.rank) _ _ (ix2 (1 : Fin 16) q) 1 (by show (1 : ℕ) < 16; omega) S1x1024 _ rfl rfl 1 rfl
    (ix2 (0 : Fin 1) q) (fun b hb => ?_) rfl).trans ?_
  · match b with
    | ⟨0, _⟩ => exact absurd rfl hb
    | ⟨1, _⟩ => rfl
  · rw [row_apply, col1_apply]

theorem V_v45_row2 (c : Dev nD) (q : Fin 1024) : (V m c main_v45 : S16x1024.Idx → EReal) (ix2 (2 : Fin 16) q) = (m ((c.tc : Thread nD τ).loc main_arg3) : S1024x4.Idx → EReal) (ix2 q (2 : Fin 4)) := by
  rw [V45_eq]
  refine (concatenate_apply_piece (0 : Fin S16x1024.rank) _ _ (ix2 (2 : Fin 16) q) 2 (by show (2 : ℕ) < 16; omega) S1x1024 _ rfl rfl 2 rfl
    (ix2 (0 : Fin 1) q) (fun b hb => ?_) rfl).trans ?_
  · match b with
    | ⟨0, _⟩ => exact absurd rfl hb
    | ⟨1, _⟩ => rfl
  · rw [row_apply, col2_apply]

theorem V_v45_row3 (c : Dev nD) (q : Fin 1024) : (V m c main_v45 : S16x1024.Idx → EReal) (ix2 (3 : Fin 16) q) = (m ((c.tc : Thread nD τ).loc main_arg3) : S1024x4.Idx → EReal) (ix2 q (3 : Fin 4)) := by
  rw [V45_eq]
  refine (concatenate_apply_piece (0 : Fin S16x1024.rank) _ _ (ix2 (3 : Fin 16) q) 3 (by show (3 : ℕ) < 16; omega) S1x1024 _ rfl rfl 3 rfl
    (ix2 (0 : Fin 1) q) (fun b hb => ?_) rfl).trans ?_
  · match b with
    | ⟨0, _⟩ => exact absurd rfl hb
    | ⟨1, _⟩ => rfl
  · rw [row_apply, col3_apply]

/-- Rows 4 and 5 are the lower corners along the two axes, rows 6 and 7 the upper corners. -/
theorem V_v45_row4 (c : Dev nD) (q : Fin 1024) : (V m c main_v45 : S16x1024.Idx → EReal) (ix2 (4 : Fin 16) q)
    = lo ((m ((c.tc : Thread nD τ).loc main_arg3) : S1024x4.Idx → EReal) (ix2 q (0 : Fin 4))) ((m ((c.tc : Thread nD τ).loc main_arg3) : S1024x4.Idx → EReal) (ix2 q (2 : Fin 4))) := by
  rw [V45_eq]
  refine (concatenate_apply_piece (0 : Fin S16x1024.rank) _ _ (ix2 (4 : Fin 16) q) 4 (by show (4 : ℕ) < 16; omega) S1x1024 _ rfl rfl 4 rfl
    (ix2 (0 : Fin 1) q) (fun b hb => ?_) rfl).trans ?_
  · match b with
    | ⟨0, _⟩ => exact absurd rfl hb
    | ⟨1, _⟩ => rfl
  · rw [row_apply, lo02_apply]

theorem V_v45_row5 (c : Dev nD) (q : Fin 1024) : (V m c main_v45 : S16x1024.Idx → EReal) (ix2 (5 : Fin 16) q)
    = lo ((m ((c.tc : Thread nD τ).loc main_arg3) : S1024x4.Idx → EReal) (ix2 q (1 : Fin 4))) ((m ((c.tc : Thread nD τ).loc main_arg3) : S1024x4.Idx → EReal) (ix2 q (3 : Fin 4))) := by
  rw [V45_eq]
  refine (concatenate_apply_piece (0 : Fin S16x1024.rank) _ _ (ix2 (5 : Fin 16) q) 5 (by show (5 : ℕ) < 16; omega) S1x1024 _ rfl rfl 5 rfl
    (ix2 (0 : Fin 1) q) (fun b hb => ?_) rfl).trans ?_
  · match b with
    | ⟨0, _⟩ => exact absurd rfl hb
    | ⟨1, _⟩ => rfl
  · rw [row_apply, lo13_apply]

theorem V_v45_row6 (c : Dev nD) (q : Fin 1024) : (V m c main_v45 : S16x1024.Idx → EReal) (ix2 (6 : Fin 16) q)
    = hi ((m ((c.tc : Thread nD τ).loc main_arg3) : S1024x4.Idx → EReal) (ix2 q (0 : Fin 4))) ((m ((c.tc : Thread nD τ).loc main_arg3) : S1024x4.Idx → EReal) (ix2 q (2 : Fin 4))) := by
  rw [V45_eq]
  refine (concatenate_apply_piece (0 : Fin S16x1024.rank) _ _ (ix2 (6 : Fin 16) q) 6 (by show (6 : ℕ) < 16; omega) S1x1024 _ rfl rfl 6 rfl
    (ix2 (0 : Fin 1) q) (fun b hb => ?_) rfl).trans ?_
  · match b with
    | ⟨0, _⟩ => exact absurd rfl hb
    | ⟨1, _⟩ => rfl
  · rw [row_apply, hi02_apply]

theorem V_v45_row7 (c : Dev nD) (q : Fin 1024) : (V m c main_v45 : S16x1024.Idx → EReal) (ix2 (7 : Fin 16) q)
    = hi ((m ((c.tc : Thread nD τ).loc main_arg3) : S1024x4.Idx → EReal) (ix2 q (1 : Fin 4))) ((m ((c.tc : Thread nD τ).loc main_arg3) : S1024x4.Idx → EReal) (ix2 q (3 : Fin 4))) := by
  rw [V45_eq]
  refine (concatenate_apply_piece (0 : Fin S16x1024.rank) _ _ (ix2 (7 : Fin 16) q) 7 (by show (7 : ℕ) < 16; omega) S1x1024 _ rfl rfl 7 rfl
    (ix2 (0 : Fin 1) q) (fun b hb => ?_) rfl).trans ?_
  · match b with
    | ⟨0, _⟩ => exact absurd rfl hb
    | ⟨1, _⟩ => rfl
  · rw [row_apply, hi13_apply]

/-- Row 8 is the box areas. -/
theorem V_v45_row8 (c : Dev nD) (q : Fin 1024) : (V m c main_v45 : S16x1024.Idx → EReal) (ix2 (8 : Fin 16) q)
    = boxArea (fun k => (m ((c.tc : Thread nD τ).loc main_arg3) : S1024x4.Idx → EReal) (ix2 q k)) := by
  rw [V45_eq]
  refine (concatenate_apply_piece (0 : Fin S16x1024.rank) _ _ (ix2 (8 : Fin 16) q) 8 (by show (8 : ℕ) < 16; omega) S1x1024 _ rfl rfl 8 rfl
    (ix2 (0 : Fin 1) q) (fun b hb => ?_) rfl).trans ?_
  · match b with
    | ⟨0, _⟩ => exact absurd rfl hb
    | ⟨1, _⟩ => rfl
  · rw [row_apply, area_apply]

end Cert.KernelIdeal.KTab

end
-- ==== Proof.RefSoftmax.lean ====
/-
  The reference's softmax stage, read at (r, c). Row r of the flattened scores has its maximum taken by a
  max-reduce started from the word for −∞ (and the maximum with that word taken once more), every score has that
  maximum subtracted and is exponentiated, the exponentials of the row are summed from the zero word, and each is
  divided by the sum: the specification's softmax of row r at class c.
-/
import proofs.«414946_j7335804141876_3_alg».proof.Proof.Gen.ReferenceIdeal.Read
import proofs.«414946_j7335804141876_3_alg».proof.Proof.CostSpec

noncomputable section

namespace Cert.ReferenceIdeal.RefValue

open Cert.ReferenceIdeal Cert.ReferenceIdeal.Gen Cert.ReferenceIdeal.Read Idealize.ShloMosaic Idealize.ShloMosaic.ValueIdx Cert.CostSpec

variable (x0 : (⟨S16x600x91, .f32⟩ : BufTy).Contents (Elt Ideal))

/-- Row r of the flattened scores, by its 91 classes. -/
def scoreRow (r : Fin 9600) : Fin 91 → EReal := fun c => val_main_v0 (F := Ideal) x0 (ix2 r c)

/-- The maximum the reference subtracts in row r is the row's maximum. The reduce over the class axis is a fold of
    max over the 91 classes of the row, started from the −∞ word; the extra maximum with that word changes nothing. -/
theorem rowMax_at (r : Fin 9600) : val_main_v3 (F := Ideal) x0 (ix1 r) = rowMax (scoreRow x0 r) := by
  have h : S9600x91.Reduces [1] S9600 := by decide
  rw [val_main_v3_apply, val_main_v2_apply, val_main_cst_0_apply]
  unfold val_main_v1 scoreRow
  generalize val_main_v0 (F := Ideal) x0 = y
  rw [Host.reduce_eq_fold_single (FloatOps.maximumf (F := Ideal) (φ := .f32)) y (val_main_cst (F := Ideal))
      reducesTo_S9600x91_S9600_d1 h h_S_ (ix1 r), val_main_cst_apply,
    show (y ∘ h.lift (ix1 r)) = fun c : Fin 91 => y (ix2 r c) from
      funext fun k => congrArg y (funext fun a => Fin.ext (by match a with | ⟨0, _⟩ => rfl | ⟨1, _⟩ => rfl))]
  exact max_rowMax _

/-- The exponential stage at (r, c): the exponential of the score less the row's maximum. -/
theorem exp_at (r : Fin 9600) (c : Fin 91) : val_main_v7 (F := Ideal) x0 (ix2 r c) = expShift (scoreRow x0 r) c := by
  rw [val_main_v7_apply, val_main_v6_apply, val_main_v5_apply, val_main_v4_apply,
    show idx_main_v4 (idx_main_v5 (ix2 r c)) = ix1 r from funext fun a => Fin.ext (by match a with | ⟨0, _⟩ => rfl),
    rowMax_at, Ideal.hostUnary_exp_def, Ideal.subf_def]
  rfl

/-- The row sum of the exponentials: the zero word adds nothing. -/
theorem expSum_at (r : Fin 9600) : val_main_v8 (F := Ideal) x0 (ix1 r) = ∑ k : Fin 91, expShift (scoreRow x0 r) k := by
  rw [val_main_v8_apply, val_main_cst_1_apply, Ideal.ofBits_def, Ideal.ofBits_zero_f32, zero_add]
  refine Finset.sum_congr rfl fun k _ => ?_
  rw [show idx_main_v8 (ix1 r) k = ix2 r k from
    funext fun a => Fin.ext (by match a with | ⟨0, _⟩ => rfl | ⟨1, _⟩ => rfl), exp_at]

/-- The softmax stage at (r, c) is the softmax of row r at class c. -/
theorem softmax_at (r : Fin 9600) (c : Fin 91) : val_main_v11 (F := Ideal) x0 (ix2 r c) = softmax (scoreRow x0 r) c := by
  rw [val_main_v11_apply, val_main_v10_apply, val_main_v9_apply,
    show idx_main_v9 (idx_main_v10 (ix2 r c)) = ix1 r from funext fun a => Fin.ext (by match a with | ⟨0, _⟩ => rfl),
    exp_at, expSum_at, Ideal.hostDivf_def]
  rfl

end Cert.ReferenceIdeal.RefValue

end
-- ==== Proof.RefGather.lean ====
/-
  The reference's gather stage, read at (r, s). The start index of column s is the label word of target s, made
  non-negative by "add 91 if negative" and laid out as a [1024, 1] column. For a label word that is a natural
  below 91 the select keeps the word, the signed reading of the word is that natural, and the clamp into
  [0, 90] does nothing: element (r, s) of the gather is the softmax stage at (r, class of target s).
-/
import proofs.«414946_j7335804141876_3_alg».proof.Proof.Gen.ReferenceIdeal.Read
import proofs.«414946_j7335804141876_3_alg».proof.Proof.CostSpec

noncomputable section

namespace Cert.ReferenceIdeal.RefValue

open Cert.ReferenceIdeal Cert.ReferenceIdeal.Gen Cert.ReferenceIdeal.Read Idealize.ShloMosaic Idealize.ShloMosaic.ValueIdx Cert.CostSpec

/-! ## A label word below 91 -/

/-- Read signed, the 32-bit word of a natural below 91 is that natural. -/
theorem label_toInt (n : Nat) (hn : n < 91) : (BitVec.ofNat 32 n).toInt = (n : Int) := by
  rw [BitVec.toInt_eq_toNat_cond, BitVec.toNat_ofNat, Nat.mod_eq_of_lt (by omega), if_pos (by omega)]

/-- So it is not below zero in the signed order … -/
theorem label_nonneg (n : Nat) (hn : n < 91) : IntOp.cmpi .slt (BitVec.ofNat 32 n) 0#32 = 0#1 := by
  have h : (BitVec.ofNat 32 n).slt 0#32 = false := by
    rw [BitVec.slt, label_toInt n hn]
    exact decide_eq_false (by simp)
  show BitVec.ofBool ((BitVec.ofNat 32 n).slt 0#32) = 0#1
  rw [h]; rfl

/-- … and as a start index it is that natural. -/
theorem label_toNat (n : Nat) (hn : n < 91) : (BitVec.ofNat 32 n).toInt.toNat = n := by
  rw [label_toInt n hn]; rfl

/-! ## The gather -/

variable (x0 : (⟨S16x600x91, .f32⟩ : BufTy).Contents (Elt Ideal)) (x2 : (⟨S1024, .i32⟩ : BufTy).Contents (Elt Ideal))
  (lab : Fin 1024 → Fin 91) (hlab : ∀ s : Fin 1024, x2 (ix1 s) = BitVec.ofNat 32 (lab s).val)

include hlab

/-- The start-index column at row s: the select on "label below zero" takes its else-branch, the label word. -/
theorem start_at (s : Fin 1024) : val_main_v18 (F := Ideal) x2 (ix2 s (0 : Fin 1)) = BitVec.ofNat 32 (lab s).val := by
  rw [val_main_v18_apply,
    show idx_main_v18 (ix2 s (0 : Fin 1)) = ix1 s from funext fun a => Fin.ext (by match a with | ⟨0, _⟩ => rfl),
    val_main_v17_apply, val_main_v14_apply, val_main_v13_apply, val_main_c_apply, hlab,
    label_nonneg _ (lab s).isLt, select_zero]

/-- The gather at (r, s) reads the softmax stage at (r, class of target s). On the row axis the operand index is the
    result's offset coordinate r (no start index, no batching); on the class axis it is the clamped start index of
    column s (no offset: the axis is collapsed). -/
theorem gather_at (r : Fin 9600) (s : Fin 1024) :
    val_main_v19 (F := Ideal) x0 x2 (ix2 r s) = val_main_v11 (F := Ideal) x0 (ix2 r (lab s)) := by
  unfold val_main_v19 Host.gather
  refine congrArg (val_main_v11 (F := Ideal) x0) (funext fun a => Fin.ext ?_)
  generalize hidx : val_main_v18 (F := Ideal) x2 = idx
  have hs : idx (ix2 s (0 : Fin 1)) = BitVec.ofNat 32 (lab s).val := by rw [← hidx]; exact start_at x2 lab hlab s
  match a with
  | ⟨0, _⟩ =>
    show gather_S9600x91_S1024x1_S9600x1024_0_1_n_n_1_1_96001.start (ix2 r s) idx 0
      + gather_S9600x91_S1024x1_S9600x1024_0_1_n_n_1_1_96001.batchCoord (ix2 r s) 0
      + gather_S9600x91_S1024x1_S9600x1024_0_1_n_n_1_1_96001.offCoord (ix2 r s) 0 = r.val
    rw [GatherDims.batchCoord_eq_zero _ _ _ List.not_mem_nil]
    unfold GatherDims.start GatherDims.offCoord
    rw [dif_neg (by decide), dif_pos (by decide)]
    simp only [Nat.zero_add]
    rfl
  | ⟨1, _⟩ =>
    show gather_S9600x91_S1024x1_S9600x1024_0_1_n_n_1_1_96001.start (ix2 r s) idx 1
      + gather_S9600x91_S1024x1_S9600x1024_0_1_n_n_1_1_96001.batchCoord (ix2 r s) 1
      + gather_S9600x91_S1024x1_S9600x1024_0_1_n_n_1_1_96001.offCoord (ix2 r s) 1 = (lab s).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S9600x91_S1024x1_S9600x1024_0_1_n_n_1_1_96001.startIndexMap from
      List.mem_singleton.mpr rfl)]
    have hsi : gather_S9600x91_S1024x1_S9600x1024_0_1_n_n_1_1_96001.siIdx (ix2 r s)
        ⟨List.idxOf (1 : Fin 2) gather_S9600x91_S1024x1_S9600x1024_0_1_n_n_1_1_96001.startIndexMap,
          List.idxOf_lt_length_iff.2 (List.mem_singleton.mpr rfl)⟩ = ix2 s (0 : Fin 1) := by
      funext b; refine Fin.ext ?_
      match b with
      | ⟨0, _⟩ => rfl
      | ⟨1, _⟩ => rfl
    rw [hsi, hs, label_toNat _ (lab s).isLt]
    exact Nat.min_eq_left (by have := (lab s).isLt; show (lab s).val ≤ 91 - 1; omega)

end Cert.ReferenceIdeal.RefValue

end
-- ==== Proof.RefL1.lean ====
/-
  The reference's L1 stage, read at (r, s): the zero word plus the sum over the four box coordinates of
  |p k − t k|, where p is row r of the flattened query boxes and t is target box s. By the specification's law
  on that spelling this is the L1 distance of the two boxes.
-/
import proofs.«414946_j7335804141876_3_alg».proof.Proof.Gen.ReferenceIdeal.Read
import proofs.«414946_j7335804141876_3_alg».proof.Proof.CostSpec

noncomputable section

namespace Cert.ReferenceIdeal.RefValue

open Cert.ReferenceIdeal Cert.ReferenceIdeal.Gen Cert.ReferenceIdeal.Read Idealize.ShloMosaic Idealize.ShloMosaic.ValueIdx Cert.CostSpec

variable (x1 : (⟨S16x600x4, .f32⟩ : BufTy).Contents (Elt Ideal)) (x3 : (⟨S1024x4, .f32⟩ : BufTy).Contents (Elt Ideal))

/-- The broadcast difference at (r, s, k): coordinate k of query box r less coordinate k of target box s. Both
    operands are laid over the [9600, 1024, 4] cube by two broadcasts each, which forget s on one side and r on the
    other. -/
theorem diff_at (r : Fin 9600) (s : Fin 1024) (k : Fin 4) :
    val_main_v25 (F := Ideal) x1 x3 (ix3 r s k) = val_main_v12 (F := Ideal) x1 (ix2 r k) - x3 (ix2 s k) := by
  rw [val_main_v25_apply, val_main_v23_apply, val_main_v21_apply, val_main_v24_apply, val_main_v22_apply, Ideal.subf_def,
    show idx_main_v21 (idx_main_v23 (ix3 r s k)) = ix2 r k from
      funext fun a => Fin.ext (by match a with | ⟨0, _⟩ => rfl | ⟨1, _⟩ => rfl),
    show idx_main_v22 (idx_main_v24 (ix3 r s k)) = ix2 s k from
      funext fun a => Fin.ext (by match a with | ⟨0, _⟩ => rfl | ⟨1, _⟩ => rfl)]

/-- The L1 stage at (r, s) is the L1 distance of query box r and target box s. -/
theorem l1_at (r : Fin 9600) (s : Fin 1024) :
    val_main_v27 (F := Ideal) x1 x3 (ix2 r s)
      = l1 (fun k => val_main_v12 (F := Ideal) x1 (ix2 r k)) (fun k => x3 (ix2 s k)) := by
  rw [val_main_v27_apply, val_main_cst_3_apply, ← l1_eq_sum]
  refine congrArg (_ + ·) (Finset.sum_congr rfl fun k _ => ?_)
  rw [val_main_v26_apply, Ideal.hostAbsf_def, Ideal.absf_def,
    show idx_main_v27 (ix2 r s) k = ix3 r s k from
      funext fun a => Fin.ext (by match a with | ⟨0, _⟩ => rfl | ⟨1, _⟩ => rfl | ⟨2, _⟩ => rfl),
    diff_at]
  rfl

end Cert.ReferenceIdeal.RefValue

end
-- ==== Proof.RefCorners.lean ====
/-
  The two corner tables of the reference. A centre-size box (cx, cy, w, h) is turned into its corners
  (cx − ½w, cy − ½h, cx + ½w, cy + ½h): each coordinate is sliced out as a column and reshaped to a vector, the two
  extents are multiplied by the half word, subtracted from or added to the two centres, and the four results are
  laid side by side as the columns of a table. Read at (row, column) the table is lo, lo, hi, hi of the row's box.
-/
import proofs.«414946_j7335804141876_3_alg».proof.Proof.Gen.ReferenceIdeal.Read
import proofs.«414946_j7335804141876_3_alg».proof.Proof.CostSpec

noncomputable section

namespace Cert.ReferenceIdeal.RefValue

open Cert.ReferenceIdeal Cert.ReferenceIdeal.Gen Cert.ReferenceIdeal.Read Idealize.ShloMosaic Idealize.ShloMosaic.ValueIdx Cert.CostSpec

variable (x1 : (⟨S16x600x4, .f32⟩ : BufTy).Contents (Elt Ideal)) (x3 : (⟨S1024x4, .f32⟩ : BufTy).Contents (Elt Ideal))

/-- Query box r of the flattened boxes, by its four coordinates. -/
def qbox (r : Fin 9600) : Fin 4 → EReal := fun k => val_main_v12 (F := Ideal) x1 (ix2 r k)
/-- Target box s, by its four coordinates. -/
def tbox (s : Fin 1024) : Fin 4 → EReal := fun k => x3 (ix2 s k)

/-! ## The query boxes -/

/-- Coordinate 0 of query box r: column 0 sliced out and read as a vector. -/
theorem qbox_c0 (r : Fin 9600) : val_main_v29 (F := Ideal) x1 (ix1 r) = qbox x1 r 0 := by
  rw [val_main_v29_apply, val_main_v28_apply]
  exact congrArg _ (funext fun a => Fin.ext (by match a with | ⟨0, _⟩ => exact Nat.div_one _ | ⟨1, _⟩ => rfl))

/-- Coordinate 1 of query box r. -/
theorem qbox_c1 (r : Fin 9600) : val_main_v31 (F := Ideal) x1 (ix1 r) = qbox x1 r 1 := by
  rw [val_main_v31_apply, val_main_v30_apply]
  exact congrArg _ (funext fun a => Fin.ext (by match a with | ⟨0, _⟩ => exact Nat.div_one _ | ⟨1, _⟩ => rfl))

/-- Coordinate 2 of query box r. -/
theorem qbox_c2 (r : Fin 9600) : val_main_v33 (F := Ideal) x1 (ix1 r) = qbox x1 r 2 := by
  rw [val_main_v33_apply, val_main_v32_apply]
  exact congrArg _ (funext fun a => Fin.ext (by match a with | ⟨0, _⟩ => exact Nat.div_one _ | ⟨1, _⟩ => rfl))

/-- Coordinate 3 of query box r. -/
theorem qbox_c3 (r : Fin 9600) : val_main_v35 (F := Ideal) x1 (ix1 r) = qbox x1 r 3 := by
  rw [val_main_v35_apply, val_main_v34_apply]
  exact congrArg _ (funext fun a => Fin.ext (by match a with | ⟨0, _⟩ => exact Nat.div_one _ | ⟨1, _⟩ => rfl))

/-- The lower corner of query box r along the first side: cx − ½·w. -/
theorem qbox_lo0 (r : Fin 9600) : val_main_v38 (F := Ideal) x1 (ix1 r) = lo (qbox x1 r 0) (qbox x1 r 2) := by
  rw [val_main_v38_apply, val_main_v37_apply, val_main_v36_apply, val_main_cst_4_apply,
    qbox_c0, qbox_c2, Ideal.subf_def, Ideal.mulf_def, Ideal.ofBits_def]
  rfl

/-- The lower corner along the second side: cy − ½·h. -/
theorem qbox_lo1 (r : Fin 9600) : val_main_v41 (F := Ideal) x1 (ix1 r) = lo (qbox x1 r 1) (qbox x1 r 3) := by
  rw [val_main_v41_apply, val_main_v40_apply, val_main_v39_apply, val_main_cst_5_apply,
    qbox_c1, qbox_c3, Ideal.subf_def, Ideal.mulf_def, Ideal.ofBits_def]
  rfl

/-- The upper corner along the first side: cx + ½·w. -/
theorem qbox_hi0 (r : Fin 9600) : val_main_v44 (F := Ideal) x1 (ix1 r) = hi (qbox x1 r 0) (qbox x1 r 2) := by
  rw [val_main_v44_apply, val_main_v43_apply, val_main_v42_apply, val_main_cst_6_apply,
    qbox_c0, qbox_c2, Ideal.addf_def, Ideal.mulf_def, Ideal.ofBits_def]
  rfl

/-- The upper corner along the second side: cy + ½·h. -/
theorem qbox_hi1 (r : Fin 9600) : val_main_v47 (F := Ideal) x1 (ix1 r) = hi (qbox x1 r 1) (qbox x1 r 3) := by
  rw [val_main_v47_apply, val_main_v46_apply, val_main_v45_apply, val_main_cst_7_apply,
    qbox_c1, qbox_c3, Ideal.addf_def, Ideal.mulf_def, Ideal.ofBits_def]
  rfl

/-- Column 0 of the query corner table: the first of the four joined columns, none before it. -/
theorem qbox_corner0 (r : Fin 9600) : val_main_v52 (F := Ideal) x1 (ix2 r 0) = lo (qbox x1 r 0) (qbox x1 r 2) := by
  unfold val_main_v52
  rw [concatenate_apply_piece (1 : Fin 2) _ _ (ix2 r (0 : Fin 4)) 0 (by simp) S9600x1 (val_main_v48 (F := Ideal) x1) rfl rfl 0 rfl
      (ix2 r (0 : Fin 1)) (fun b hb => by match b with | ⟨0, _⟩ => rfl | ⟨1, _⟩ => exact absurd rfl hb) rfl,
    val_main_v48_apply,
    show idx_main_v48 (ix2 r (0 : Fin 1)) = ix1 r from funext fun a => Fin.ext (by match a with | ⟨0, _⟩ => rfl),
    qbox_lo0]

/-- Column 1: one unit column before it. -/
theorem qbox_corner1 (r : Fin 9600) : val_main_v52 (F := Ideal) x1 (ix2 r 1) = lo (qbox x1 r 1) (qbox x1 r 3) := by
  unfold val_main_v52
  rw [concatenate_apply_piece (1 : Fin 2) _ _ (ix2 r (1 : Fin 4)) 1 (by simp) S9600x1 (val_main_v49 (F := Ideal) x1) rfl rfl 1 rfl
      (ix2 r (0 : Fin 1)) (fun b hb => by match b with | ⟨0, _⟩ => rfl | ⟨1, _⟩ => exact absurd rfl hb) rfl,
    val_main_v49_apply,
    show idx_main_v49 (ix2 r (0 : Fin 1)) = ix1 r from funext fun a => Fin.ext (by match a with | ⟨0, _⟩ => rfl),
    qbox_lo1]

/-- Column 2: two unit columns before it. -/
theorem qbox_corner2 (r : Fin 9600) : val_main_v52 (F := Ideal) x1 (ix2 r 2) = hi (qbox x1 r 0) (qbox x1 r 2) := by
  unfold val_main_v52
  rw [concatenate_apply_piece (1 : Fin 2) _ _ (ix2 r (2 : Fin 4)) 2 (by simp) S9600x1 (val_main_v50 (F := Ideal) x1) rfl rfl 2 rfl
      (ix2 r (0 : Fin 1)) (fun b hb => by match b with | ⟨0, _⟩ => rfl | ⟨1, _⟩ => exact absurd rfl hb) rfl,
    val_main_v50_apply,
    show idx_main_v50 (ix2 r (0 : Fin 1)) = ix1 r from funext fun a => Fin.ext (by match a with | ⟨0, _⟩ => rfl),
    qbox_hi0]

/-- Column 3: three unit columns before it. -/
theorem qbox_corner3 (r : Fin 9600) : val_main_v52 (F := Ideal) x1 (ix2 r 3) = hi (qbox x1 r 1) (qbox x1 r 3) := by
  unfold val_main_v52
  rw [concatenate_apply_piece (1 : Fin 2) _ _ (ix2 r (3 : Fin 4)) 3 (by simp) S9600x1 (val_main_v51 (F := Ideal) x1) rfl rfl 3 rfl
      (ix2 r (0 : Fin 1)) (fun b hb => by match b with | ⟨0, _⟩ => rfl | ⟨1, _⟩ => exact absurd rfl hb) rfl,
    val_main_v51_apply,
    show idx_main_v51 (ix2 r (0 : Fin 1)) = ix1 r from funext fun a => Fin.ext (by match a with | ⟨0, _⟩ => rfl),
    qbox_hi1]

/-! ## The target boxes: the same construction on the [1024, 4] argument itself -/

/-- Coordinate 0 of target box s. -/
theorem tbox_c0 (s : Fin 1024) : val_main_v54 (F := Ideal) x3 (ix1 s) = tbox x3 s 0 := by
  rw [val_main_v54_apply, val_main_v53_apply]
  exact congrArg _ (funext fun a => Fin.ext (by match a with | ⟨0, _⟩ => exact Nat.div_one _ | ⟨1, _⟩ => rfl))

/-- Coordinate 1 of target box s. -/
theorem tbox_c1 (s : Fin 1024) : val_main_v56 (F := Ideal) x3 (ix1 s) = tbox x3 s 1 := by
  rw [val_main_v56_apply, val_main_v55_apply]
  exact congrArg _ (funext fun a => Fin.ext (by match a with | ⟨0, _⟩ => exact Nat.div_one _ | ⟨1, _⟩ => rfl))

/-- Coordinate 2 of target box s. -/
theorem tbox_c2 (s : Fin 1024) : val_main_v58 (F := Ideal) x3 (ix1 s) = tbox x3 s 2 := by
  rw [val_main_v58_apply, val_main_v57_apply]
  exact congrArg _ (funext fun a => Fin.ext (by match a with | ⟨0, _⟩ => exact Nat.div_one _ | ⟨1, _⟩ => rfl))

/-- Coordinate 3 of target box s. -/
theorem tbox_c3 (s : Fin 1024) : val_main_v60 (F := Ideal) x3 (ix1 s) = tbox x3 s 3 := by
  rw [val_main_v60_apply, val_main_v59_apply]
  exact congrArg _ (funext fun a => Fin.ext (by match a with | ⟨0, _⟩ => exact Nat.div_one _ | ⟨1, _⟩ => rfl))

/-- The lower corner of target box s along the first side. -/
theorem tbox_lo0 (s : Fin 1024) : val_main_v63 (F := Ideal) x3 (ix1 s) = lo (tbox x3 s 0) (tbox x3 s 2) := by
  rw [val_main_v63_apply, val_main_v62_apply, val_main_v61_apply, val_main_cst_8_apply,
    tbox_c0, tbox_c2, Ideal.subf_def, Ideal.mulf_def, Ideal.ofBits_def]
  rfl

/-- The lower corner along the second side. -/
theorem tbox_lo1 (s : Fin 1024) : val_main_v66 (F := Ideal) x3 (ix1 s) = lo (tbox x3 s 1) (tbox x3 s 3) := by
  rw [val_main_v66_apply, val_main_v65_apply, val_main_v64_apply, val_main_cst_9_apply,
    tbox_c1, tbox_c3, Ideal.subf_def, Ideal.mulf_def, Ideal.ofBits_def]
  rfl

/-- The upper corner along the first side. -/
theorem tbox_hi0 (s : Fin 1024) : val_main_v69 (F := Ideal) x3 (ix1 s) = hi (tbox x3 s 0) (tbox x3 s 2) := by
  rw [val_main_v69_apply, val_main_v68_apply, val_main_v67_apply, val_main_cst_10_apply,
    tbox_c0, tbox_c2, Ideal.addf_def, Ideal.mulf_def, Ideal.ofBits_def]
  rfl

/-- The upper corner along the second side. -/
theorem tbox_hi1 (s : Fin 1024) : val_main_v72 (F := Ideal) x3 (ix1 s) = hi (tbox x3 s 1) (tbox x3 s 3) := by
  rw [val_main_v72_apply, val_main_v71_apply, val_main_v70_apply, val_main_cst_11_apply,
    tbox_c1, tbox_c3, Ideal.addf_def, Ideal.mulf_def, Ideal.ofBits_def]
  rfl

/-- Column 0 of the target corner table. -/
theorem tbox_corner0 (s : Fin 1024) : val_main_v77 (F := Ideal) x3 (ix2 s 0) = lo (tbox x3 s 0) (tbox x3 s 2) := by
  unfold val_main_v77
  rw [concatenate_apply_piece (1 : Fin 2) _ _ (ix2 s (0 : Fin 4)) 0 (by simp) S1024x1 (val_main_v73 (F := Ideal) x3) rfl rfl 0 rfl
      (ix2 s (0 : Fin 1)) (fun b hb => by match b with | ⟨0, _⟩ => rfl | ⟨1, _⟩ => exact absurd rfl hb) rfl,
    val_main_v73_apply,
    show idx_main_v73 (ix2 s (0 : Fin 1)) = ix1 s from funext fun a => Fin.ext (by match a with | ⟨0, _⟩ => rfl),
    tbox_lo0]

/-- Column 1. -/
theorem tbox_corner1 (s : Fin 1024) : val_main_v77 (F := Ideal) x3 (ix2 s 1) = lo (tbox x3 s 1) (tbox x3 s 3) := by
  unfold val_main_v77
  rw [concatenate_apply_piece (1 : Fin 2) _ _ (ix2 s (1 : Fin 4)) 1 (by simp) S1024x1 (val_main_v74 (F := Ideal) x3) rfl rfl 1 rfl
      (ix2 s (0 : Fin 1)) (fun b hb => by match b with | ⟨0, _⟩ => rfl | ⟨1, _⟩ => exact absurd rfl hb) rfl,
    val_main_v74_apply,
    show idx_main_v74 (ix2 s (0 : Fin 1)) = ix1 s from funext fun a => Fin.ext (by match a with | ⟨0, _⟩ => rfl),
    tbox_lo1]

/-- Column 2. -/
theorem tbox_corner2 (s : Fin 1024) : val_main_v77 (F := Ideal) x3 (ix2 s 2) = hi (tbox x3 s 0) (tbox x3 s 2) := by
  unfold val_main_v77
  rw [concatenate_apply_piece (1 : Fin 2) _ _ (ix2 s (2 : Fin 4)) 2 (by simp) S1024x1 (val_main_v75 (F := Ideal) x3) rfl rfl 2 rfl
      (ix2 s (0 : Fin 1)) (fun b hb => by match b with | ⟨0, _⟩ => rfl | ⟨1, _⟩ => exact absurd rfl hb) rfl,
    val_main_v75_apply,
    show idx_main_v75 (ix2 s (0 : Fin 1)) = ix1 s from funext fun a => Fin.ext (by match a with | ⟨0, _⟩ => rfl),
    tbox_hi0]

/-- Column 3. -/
theorem tbox_corner3 (s : Fin 1024) : val_main_v77 (F := Ideal) x3 (ix2 s 3) = hi (tbox x3 s 1) (tbox x3 s 3) := by
  unfold val_main_v77
  rw [concatenate_apply_piece (1 : Fin 2) _ _ (ix2 s (3 : Fin 4)) 3 (by simp) S1024x1 (val_main_v76 (F := Ideal) x3) rfl rfl 3 rfl
      (ix2 s (0 : Fin 1)) (fun b hb => by match b with | ⟨0, _⟩ => rfl | ⟨1, _⟩ => exact absurd rfl hb) rfl,
    val_main_v76_apply,
    show idx_main_v76 (ix2 s (0 : Fin 1)) = ix1 s from funext fun a => Fin.ext (by match a with | ⟨0, _⟩ => rfl),
    tbox_hi1]

end Cert.ReferenceIdeal.RefValue

end
-- ==== Proof.RefGiou.lean ====
/-
  The reference's generalized intersection over union, read at (r, s). From the two corner tables: the two box
  areas (upper corner less lower corner along each side, multiplied); along each side the larger lower corner and
  the smaller upper corner, whose difference cut off below at zero is a side of the intersection, and the smaller
  lower corner and the larger upper corner, whose difference cut off below at zero is a side of the enclosing
  hull; the union is the two areas less the intersection; and
      giou = inter / union − (hull − union) / hull.
-/
import proofs.«414946_j7335804141876_3_alg».proof.Proof.Gen.ReferenceIdeal.Read
import proofs.«414946_j7335804141876_3_alg».proof.Proof.CostSpec
import proofs.«414946_j7335804141876_3_alg».proof.Proof.RefCorners

noncomputable section

namespace Cert.ReferenceIdeal.RefValue

open Cert.ReferenceIdeal Cert.ReferenceIdeal.Gen Cert.ReferenceIdeal.Read Idealize.ShloMosaic Idealize.ShloMosaic.ValueIdx Cert.CostSpec

variable (x1 : (⟨S16x600x4, .f32⟩ : BufTy).Contents (Elt Ideal)) (x3 : (⟨S1024x4, .f32⟩ : BufTy).Contents (Elt Ideal))

/-! ## The two areas -/

/-- The area of query box r: (hi − lo along the first side) · (hi − lo along the second), the corners read back out
    of columns 2, 0, 3, 1 of the corner table. -/
theorem qarea_at (r : Fin 9600) : val_main_v88 (F := Ideal) x1 (ix1 r) = boxArea (qbox x1 r) := by
  rw [val_main_v88_apply, val_main_v82_apply, val_main_v87_apply,
    val_main_v79_apply, val_main_v78_apply, val_main_v81_apply, val_main_v80_apply,
    val_main_v84_apply, val_main_v83_apply, val_main_v86_apply, val_main_v85_apply,
    show idx_main_v78 (idx_main_v79 (ix1 r)) = ix2 r (2 : Fin 4) from
      funext fun a => Fin.ext (by match a with | ⟨0, _⟩ => exact Nat.div_one _ | ⟨1, _⟩ => rfl),
    show idx_main_v80 (idx_main_v81 (ix1 r)) = ix2 r (0 : Fin 4) from
      funext fun a => Fin.ext (by match a with | ⟨0, _⟩ => exact Nat.div_one _ | ⟨1, _⟩ => rfl),
    show idx_main_v83 (idx_main_v84 (ix1 r)) = ix2 r (3 : Fin 4) from
      funext fun a => Fin.ext (by match a with | ⟨0, _⟩ => exact Nat.div_one _ | ⟨1, _⟩ => rfl),
    show idx_main_v85 (idx_main_v86 (ix1 r)) = ix2 r (1 : Fin 4) from
      funext fun a => Fin.ext (by match a with | ⟨0, _⟩ => exact Nat.div_one _ | ⟨1, _⟩ => rfl),
    qbox_corner2, qbox_corner0, qbox_corner3, qbox_corner1]
  simp only [Ideal.mulf_def, Ideal.subf_def]
  rfl

/-- The area of target box s. -/
theorem tarea_at (s : Fin 1024) : val_main_v99 (F := Ideal) x3 (ix1 s) = boxArea (tbox x3 s) := by
  rw [val_main_v99_apply, val_main_v93_apply, val_main_v98_apply,
    val_main_v90_apply, val_main_v89_apply, val_main_v92_apply, val_main_v91_apply,
    val_main_v95_apply, val_main_v94_apply, val_main_v97_apply, val_main_v96_apply,
    show idx_main_v89 (idx_main_v90 (ix1 s)) = ix2 s (2 : Fin 4) from
      funext fun a => Fin.ext (by match a with | ⟨0, _⟩ => exact Nat.div_one _ | ⟨1, _⟩ => rfl),
    show idx_main_v91 (idx_main_v92 (ix1 s)) = ix2 s (0 : Fin 4) from
      funext fun a => Fin.ext (by match a with | ⟨0, _⟩ => exact Nat.div_one _ | ⟨1, _⟩ => rfl),
    show idx_main_v94 (idx_main_v95 (ix1 s)) = ix2 s (3 : Fin 4) from
      funext fun a => Fin.ext (by match a with | ⟨0, _⟩ => exact Nat.div_one _ | ⟨1, _⟩ => rfl),
    show idx_main_v96 (idx_main_v97 (ix1 s)) = ix2 s (1 : Fin 4) from
      funext fun a => Fin.ext (by match a with | ⟨0, _⟩ => exact Nat.div_one _ | ⟨1, _⟩ => rfl),
    tbox_corner2, tbox_corner0, tbox_corner3, tbox_corner1]
  simp only [Ideal.mulf_def, Ideal.subf_def]
  rfl

/-! ## The sides of the intersection -/

/-- The larger of the two lower corners along the first side. The query's corners are laid over the
    [9600, 1024, 2] cube forgetting s, the target's forgetting r. -/
theorem lowMax0_at (r : Fin 9600) (s : Fin 1024) :
    val_main_v106 (F := Ideal) x1 x3 (ix3 r s (0 : Fin 2))
      = max (lo (qbox x1 r 0) (qbox x1 r 2)) (lo (tbox x3 s 0) (tbox x3 s 2)) := by
  rw [val_main_v106_apply, val_main_v104_apply, val_main_v101_apply, val_main_v100_apply,
    val_main_v105_apply, val_main_v103_apply, val_main_v102_apply,
    show idx_main_v100 (idx_main_v101 (idx_main_v104 (ix3 r s (0 : Fin 2)))) = ix2 r (0 : Fin 4) from
      funext fun a => Fin.ext (by match a with | ⟨0, _⟩ => rfl | ⟨1, _⟩ => rfl),
    show idx_main_v102 (idx_main_v103 (idx_main_v105 (ix3 r s (0 : Fin 2)))) = ix2 s (0 : Fin 4) from
      funext fun a => Fin.ext (by match a with | ⟨0, _⟩ => rfl | ⟨1, _⟩ => rfl),
    qbox_corner0, tbox_corner0, Ideal.maximumf_def]

/-- The larger of the two lower corners along the second side. -/
theorem lowMax1_at (r : Fin 9600) (s : Fin 1024) :
    val_main_v106 (F := Ideal) x1 x3 (ix3 r s (1 : Fin 2))
      = max (lo (qbox x1 r 1) (qbox x1 r 3)) (lo (tbox x3 s 1) (tbox x3 s 3)) := by
  rw [val_main_v106_apply, val_main_v104_apply, val_main_v101_apply, val_main_v100_apply,
    val_main_v105_apply, val_main_v103_apply, val_main_v102_apply,
    show idx_main_v100 (idx_main_v101 (idx_main_v104 (ix3 r s (1 : Fin 2)))) = ix2 r (1 : Fin 4) from
      funext fun a => Fin.ext (by match a with | ⟨0, _⟩ => rfl | ⟨1, _⟩ => rfl),
    show idx_main_v102 (idx_main_v103 (idx_main_v105 (ix3 r s (1 : Fin 2)))) = ix2 s (1 : Fin 4) from
      funext fun a => Fin.ext (by match a with | ⟨0, _⟩ => rfl | ⟨1, _⟩ => rfl),
    qbox_corner1, tbox_corner1, Ideal.maximumf_def]

/-- The smaller of the two upper corners along the first side. -/
theorem highMin0_at (r : Fin 9600) (s : Fin 1024) :
    val_main_v113 (F := Ideal) x1 x3 (ix3 r s (0 : Fin 2))
      = min (hi (qbox x1 r 0) (qbox x1 r 2)) (hi (tbox x3 s 0) (tbox x3 s 2)) := by
  rw [val_main_v113_apply, val_main_v111_apply, val_main_v108_apply, val_main_v107_apply,
    val_main_v112_apply, val_main_v110_apply, val_main_v109_apply,
    show idx_main_v107 (idx_main_v108 (idx_main_v111 (ix3 r s (0 : Fin 2)))) = ix2 r (2 : Fin 4) from
      funext fun a => Fin.ext (by match a with | ⟨0, _⟩ => rfl | ⟨1, _⟩ => rfl),
    show idx_main_v109 (idx_main_v110 (idx_main_v112 (ix3 r s (0 : Fin 2)))) = ix2 s (2 : Fin 4) from
      funext fun a => Fin.ext (by match a with | ⟨0, _⟩ => rfl | ⟨1, _⟩ => rfl),
    qbox_corner2, tbox_corner2, Ideal.minimumf_def]

/-- The smaller of the two upper corners along the second side. -/
theorem highMin1_at (r : Fin 9600) (s : Fin 1024) :
    val_main_v113 (F := Ideal) x1 x3 (ix3 r s (1 : Fin 2))
      = min (hi (qbox x1 r 1) (qbox x1 r 3)) (hi (tbox x3 s 1) (tbox x3 s 3)) := by
  rw [val_main_v113_apply, val_main_v111_apply, val_main_v108_apply, val_main_v107_apply,
    val_main_v112_apply, val_main_v110_apply, val_main_v109_apply,
    show idx_main_v107 (idx_main_v108 (idx_main_v111 (ix3 r s (1 : Fin 2)))) = ix2 r (3 : Fin 4) from
      funext fun a => Fin.ext (by match a with | ⟨0, _⟩ => rfl | ⟨1, _⟩ => rfl),
    show idx_main_v109 (idx_main_v110 (idx_main_v112 (ix3 r s (1 : Fin 2)))) = ix2 s (3 : Fin 4) from
      funext fun a => Fin.ext (by match a with | ⟨0, _⟩ => rfl | ⟨1, _⟩ => rfl),
    qbox_corner3, tbox_corner3, Ideal.minimumf_def]

/-- The first side of the intersection: the difference cut off below at the zero word. -/
theorem overlap0_at (r : Fin 9600) (s : Fin 1024) :
    val_main_v115 (F := Ideal) x1 x3 (ix3 r s (0 : Fin 2))
      = pos (min (hi (qbox x1 r 0) (qbox x1 r 2)) (hi (tbox x3 s 0) (tbox x3 s 2))
          - max (lo (qbox x1 r 0) (qbox x1 r 2)) (lo (tbox x3 s 0) (tbox x3 s 2))) := by
  rw [val_main_v115_apply, val_main_call0_v1_apply, val_main_call0_v0_apply, val_main_cst_12_apply, val_main_v114_apply,
    highMin0_at, lowMax0_at, Ideal.maximumf_def, Ideal.subf_def, Ideal.ofBits_def]
  rfl

/-- The second side of the intersection. -/
theorem overlap1_at (r : Fin 9600) (s : Fin 1024) :
    val_main_v115 (F := Ideal) x1 x3 (ix3 r s (1 : Fin 2))
      = pos (min (hi (qbox x1 r 1) (qbox x1 r 3)) (hi (tbox x3 s 1) (tbox x3 s 3))
          - max (lo (qbox x1 r 1) (qbox x1 r 3)) (lo (tbox x3 s 1) (tbox x3 s 3))) := by
  rw [val_main_v115_apply, val_main_call0_v1_apply, val_main_call0_v0_apply, val_main_cst_12_apply, val_main_v114_apply,
    highMin1_at, lowMax1_at, Ideal.maximumf_def, Ideal.subf_def, Ideal.ofBits_def]
  rfl

/-- A [9600, 1024, 1] array reshaped to [9600, 1024] is read at (r, s) where it held (r, s, 0): the row-major
    position r·1024 + s splits back into r and s. -/
theorem idx_cube (r : Fin 9600) (s : Fin 1024) : idx_main_v117 (ix2 r s) = ix3 r s (0 : Fin 1) :=
  funext fun a => Fin.ext (by
    match a with
    | ⟨0, _⟩ => show (r.val * 1024 + s.val) / 1024 = r.val; have := s.isLt; omega
    | ⟨1, _⟩ => show (r.val * 1024 + s.val) / 1 % 1024 = s.val; have := s.isLt; omega
    | ⟨2, _⟩ => rfl)

/-- The intersection stage at (r, s): the product of its two sides. -/
theorem inter_at (r : Fin 9600) (s : Fin 1024) :
    val_main_v120 (F := Ideal) x1 x3 (ix2 r s) = inter (qbox x1 r) (tbox x3 s) := by
  rw [val_main_v120_apply, val_main_v117_apply, val_main_v116_apply, val_main_v119_apply, val_main_v118_apply,
    idx_cube r s, show idx_main_v119 (ix2 r s) = ix3 r s (0 : Fin 1) from idx_cube r s,
    show idx_main_v116 (ix3 r s (0 : Fin 1)) = ix3 r s (0 : Fin 2) from
      funext fun a => Fin.ext (by match a with | ⟨0, _⟩ => rfl | ⟨1, _⟩ => rfl | ⟨2, _⟩ => rfl),
    show idx_main_v118 (ix3 r s (0 : Fin 1)) = ix3 r s (1 : Fin 2) from
      funext fun a => Fin.ext (by match a with | ⟨0, _⟩ => rfl | ⟨1, _⟩ => rfl | ⟨2, _⟩ => rfl),
    overlap0_at, overlap1_at, Ideal.mulf_def]
  rfl

/-! ## The union -/

/-- The union stage at (r, s): the two areas, broadcast along the other axis, added, less the intersection. -/
theorem union_at (r : Fin 9600) (s : Fin 1024) :
    val_main_v126 (F := Ideal) x1 x3 (ix2 r s) = union (qbox x1 r) (tbox x3 s) := by
  rw [val_main_v126_apply, val_main_v125_apply, val_main_v123_apply, val_main_v121_apply,
    val_main_v124_apply, val_main_v122_apply,
    show idx_main_v121 (idx_main_v123 (ix2 r s)) = ix1 r from funext fun a => Fin.ext (by match a with | ⟨0, _⟩ => rfl),
    show idx_main_v122 (idx_main_v124 (ix2 r s)) = ix1 s from funext fun a => Fin.ext (by match a with | ⟨0, _⟩ => rfl),
    qarea_at, tarea_at, inter_at, Ideal.subf_def, Ideal.addf_def]
  rfl

/-! ## The sides of the enclosing hull -/

/-- The smaller of the two lower corners along the first side. -/
theorem lowMin0_at (r : Fin 9600) (s : Fin 1024) :
    val_main_v134 (F := Ideal) x1 x3 (ix3 r s (0 : Fin 2))
      = min (lo (qbox x1 r 0) (qbox x1 r 2)) (lo (tbox x3 s 0) (tbox x3 s 2)) := by
  rw [val_main_v134_apply, val_main_v132_apply, val_main_v129_apply, val_main_v128_apply,
    val_main_v133_apply, val_main_v131_apply, val_main_v130_apply,
    show idx_main_v128 (idx_main_v129 (idx_main_v132 (ix3 r s (0 : Fin 2)))) = ix2 r (0 : Fin 4) from
      funext fun a => Fin.ext (by match a with | ⟨0, _⟩ => rfl | ⟨1, _⟩ => rfl),
    show idx_main_v130 (idx_main_v131 (idx_main_v133 (ix3 r s (0 : Fin 2)))) = ix2 s (0 : Fin 4) from
      funext fun a => Fin.ext (by match a with | ⟨0, _⟩ => rfl | ⟨1, _⟩ => rfl),
    qbox_corner0, tbox_corner0, Ideal.minimumf_def]

/-- The smaller of the two lower corners along the second side. -/
theorem lowMin1_at (r : Fin 9600) (s : Fin 1024) :
    val_main_v134 (F := Ideal) x1 x3 (ix3 r s (1 : Fin 2))
      = min (lo (qbox x1 r 1) (qbox x1 r 3)) (lo (tbox x3 s 1) (tbox x3 s 3)) := by
  rw [val_main_v134_apply, val_main_v132_apply, val_main_v129_apply, val_main_v128_apply,
    val_main_v133_apply, val_main_v131_apply, val_main_v130_apply,
    show idx_main_v128 (idx_main_v129 (idx_main_v132 (ix3 r s (1 : Fin 2)))) = ix2 r (1 : Fin 4) from
      funext fun a => Fin.ext (by match a with | ⟨0, _⟩ => rfl | ⟨1, _⟩ => rfl),
    show idx_main_v130 (idx_main_v131 (idx_main_v133 (ix3 r s (1 : Fin 2)))) = ix2 s (1 : Fin 4) from
      funext fun a => Fin.ext (by match a with | ⟨0, _⟩ => rfl | ⟨1, _⟩ => rfl),
    qbox_corner1, tbox_corner1, Ideal.minimumf_def]

/-- The larger of the two upper corners along the first side. -/
theorem highMax0_at (r : Fin 9600) (s : Fin 1024) :
    val_main_v141 (F := Ideal) x1 x3 (ix3 r s (0 : Fin 2))
      = max (hi (qbox x1 r 0) (qbox x1 r 2)) (hi (tbox x3 s 0) (tbox x3 s 2)) := by
  rw [val_main_v141_apply, val_main_v139_apply, val_main_v136_apply, val_main_v135_apply,
    val_main_v140_apply, val_main_v138_apply, val_main_v137_apply,
    show idx_main_v135 (idx_main_v136 (idx_main_v139 (ix3 r s (0 : Fin 2)))) = ix2 r (2 : Fin 4) from
      funext fun a => Fin.ext (by match a with | ⟨0, _⟩ => rfl | ⟨1, _⟩ => rfl),
    show idx_main_v137 (idx_main_v138 (idx_main_v140 (ix3 r s (0 : Fin 2)))) = ix2 s (2 : Fin 4) from
      funext fun a => Fin.ext (by match a with | ⟨0, _⟩ => rfl | ⟨1, _⟩ => rfl),
    qbox_corner2, tbox_corner2, Ideal.maximumf_def]

/-- The larger of the two upper corners along the second side. -/
theorem highMax1_at (r : Fin 9600) (s : Fin 1024) :
    val_main_v141 (F := Ideal) x1 x3 (ix3 r s (1 : Fin 2))
      = max (hi (qbox x1 r 1) (qbox x1 r 3)) (hi (tbox x3 s 1) (tbox x3 s 3)) := by
  rw [val_main_v141_apply, val_main_v139_apply, val_main_v136_apply, val_main_v135_apply,
    val_main_v140_apply, val_main_v138_apply, val_main_v137_apply,
    show idx_main_v135 (idx_main_v136 (idx_main_v139 (ix3 r s (1 : Fin 2)))) = ix2 r (3 : Fin 4) from
      funext fun a => Fin.ext (by match a with | ⟨0, _⟩ => rfl | ⟨1, _⟩ => rfl),
    show idx_main_v137 (idx_main_v138 (idx_main_v140 (ix3 r s (1 : Fin 2)))) = ix2 s (3 : Fin 4) from
      funext fun a => Fin.ext (by match a with | ⟨0, _⟩ => rfl | ⟨1, _⟩ => rfl),
    qbox_corner3, tbox_corner3, Ideal.maximumf_def]

/-- The first side of the hull. -/
theorem span0_at (r : Fin 9600) (s : Fin 1024) :
    val_main_v143 (F := Ideal) x1 x3 (ix3 r s (0 : Fin 2))
      = pos (max (hi (qbox x1 r 0) (qbox x1 r 2)) (hi (tbox x3 s 0) (tbox x3 s 2))
          - min (lo (qbox x1 r 0) (qbox x1 r 2)) (lo (tbox x3 s 0) (tbox x3 s 2))) := by
  rw [val_main_v143_apply, val_main_call1_v1_apply, val_main_call1_v0_apply, val_main_cst_13_apply, val_main_v142_apply,
    highMax0_at, lowMin0_at, Ideal.maximumf_def, Ideal.subf_def, Ideal.ofBits_def]
  rfl

/-- The second side of the hull. -/
theorem span1_at (r : Fin 9600) (s : Fin 1024) :
    val_main_v143 (F := Ideal) x1 x3 (ix3 r s (1 : Fin 2))
      = pos (max (hi (qbox x1 r 1) (qbox x1 r 3)) (hi (tbox x3 s 1) (tbox x3 s 3))
          - min (lo (qbox x1 r 1) (qbox x1 r 3)) (lo (tbox x3 s 1) (tbox x3 s 3))) := by
  rw [val_main_v143_apply, val_main_call1_v1_apply, val_main_call1_v0_apply, val_main_cst_13_apply, val_main_v142_apply,
    highMax1_at, lowMin1_at, Ideal.maximumf_def, Ideal.subf_def, Ideal.ofBits_def]
  rfl

/-- The hull stage at (r, s): the product of its two sides. -/
theorem hull_at (r : Fin 9600) (s : Fin 1024) :
    val_main_v148 (F := Ideal) x1 x3 (ix2 r s) = hull (qbox x1 r) (tbox x3 s) := by
  rw [val_main_v148_apply, val_main_v145_apply, val_main_v144_apply, val_main_v147_apply, val_main_v146_apply,
    show idx_main_v145 (ix2 r s) = ix3 r s (0 : Fin 1) from idx_cube r s,
    show idx_main_v147 (ix2 r s) = ix3 r s (0 : Fin 1) from idx_cube r s,
    show idx_main_v144 (ix3 r s (0 : Fin 1)) = ix3 r s (0 : Fin 2) from
      funext fun a => Fin.ext (by match a with | ⟨0, _⟩ => rfl | ⟨1, _⟩ => rfl | ⟨2, _⟩ => rfl),
    show idx_main_v146 (ix3 r s (0 : Fin 1)) = ix3 r s (1 : Fin 2) from
      funext fun a => Fin.ext (by match a with | ⟨0, _⟩ => rfl | ⟨1, _⟩ => rfl | ⟨2, _⟩ => rfl),
    span0_at, span1_at, Ideal.mulf_def]
  rfl

/-! ## The generalized intersection over union -/

/-- The overlap stage at (r, s): inter / union − (hull − union) / hull. -/
theorem giou_at (r : Fin 9600) (s : Fin 1024) :
    val_main_v151 (F := Ideal) x1 x3 (ix2 r s) = giou (qbox x1 r) (tbox x3 s) := by
  rw [val_main_v151_apply, val_main_v127_apply, val_main_v150_apply, val_main_v149_apply,
    inter_at, union_at, hull_at]
  simp only [Ideal.hostDivf_def, Ideal.subf_def]
  rfl

end Cert.ReferenceIdeal.RefValue

end
-- ==== Proof.RefValue.lean ====
/-
  The reference program's flat result, read index by index on the extended reals, is the matching cost:
  entry (r, s) is the cost of query row r against target s.

  At (r, s) the last operations add three products: the five word times the L1 stage, the one word times the
  negated gather of the softmax, the two word times the negated overlap stage. The stages are the specification's
  L1 distance, softmax at the target's class and generalized intersection over union (the stage modules), and
  adding negated terms is subtracting them (the specification's law on that spelling).
-/
import proofs.«414946_j7335804141876_3_alg».proof.Proof.Gen.ReferenceIdeal.Read
import proofs.«414946_j7335804141876_3_alg».proof.Proof.CostSpec
import proofs.«414946_j7335804141876_3_alg».proof.Proof.RefSoftmax
import proofs.«414946_j7335804141876_3_alg».proof.Proof.RefGather
import proofs.«414946_j7335804141876_3_alg».proof.Proof.RefL1
import proofs.«414946_j7335804141876_3_alg».proof.Proof.RefGiou

noncomputable section

namespace Cert.ReferenceIdeal.RefValue

open Cert.ReferenceIdeal Cert.ReferenceIdeal.Gen Cert.ReferenceIdeal.Read Idealize.ShloMosaic Idealize.ShloMosaic.ValueIdx Cert.CostSpec

theorem flat_eq (x0 : (⟨S16x600x91, .f32⟩ : BufTy).Contents (Elt Ideal)) (x1 : (⟨S16x600x4, .f32⟩ : BufTy).Contents (Elt Ideal)) (x2 : (⟨S1024, .i32⟩ : BufTy).Contents (Elt Ideal)) (x3 : (⟨S1024x4, .f32⟩ : BufTy).Contents (Elt Ideal)) (lab : Fin 1024 → Fin 91) (hlab : ∀ s : Fin 1024, x2 (ix1 s) = BitVec.ofNat 32 (lab s).val) :
    val_main_v160 (F := Ideal) x0 x1 x2 x3 = costMatrix (val_main_v0 (F := Ideal) x0) (val_main_v12 (F := Ideal) x1) lab x3 := by
  funext j
  obtain ⟨r, s, rfl⟩ : ∃ (r : Fin 9600) (s : Fin 1024), j = ix2 r s := ⟨j 0, j 1, eq_ix2 j⟩
  rw [val_main_v160_apply, val_main_v157_apply,
    val_main_v154_apply, val_main_v153_apply, val_main_cst_14_apply,
    val_main_v156_apply, val_main_v155_apply, val_main_cst_15_apply, val_main_v20_apply,
    val_main_v159_apply, val_main_v158_apply, val_main_cst_16_apply, val_main_v152_apply,
    l1_at, gather_at x0 x2 lab hlab, softmax_at, giou_at]
  simp only [Ideal.addf_def, Ideal.mulf_def, Ideal.hostNegf_def, Ideal.negf_def, Ideal.ofBits_def]
  exact (cost_eq_add_neg _ _ _).symm

end Cert.ReferenceIdeal.RefValue

end
-- ==== Proof.LabelRange.lean ====
/-
  The label range read out of the precondition. The precondition's last conjunct says that every target label, as a
  signed 32-bit word, is at least 0 and less than 91; such a word is the natural number below 91 it spells, so the
  class it names is that number.
-/
import proofs.«414946_j7335804141876_3_alg».proof.Pre_finite_inputs
import proofs.«414946_j7335804141876_3_alg».proof.Proof.CostSpec
import Idealize.ShloMosaic.Lib.ReduceAll
import Idealize.ShloMosaic.Lib.Affine
import Idealize.ShloMosaic.Lib.StableHlo.Predicate

noncomputable section

namespace Cert.LabelRange

open Idealize.ShloMosaic Idealize.ShloMosaic.ValueIdx Cert.CostSpec

/-- A word that is signed-nonnegative and signed-less than 91 is a natural below 91. -/
theorem toNat_lt_of_cmp (a : BitVec 32) (h0 : IntOp.cmpi .sge a 0#32 = 1#1) (h1 : IntOp.cmpi .slt a 91#32 = 1#1) :
    a.toNat < 91 := by
  have hnn : (0 : Int) ≤ a.toInt := by
    unfold IntOp.cmpi at h0
    simp only [StableHlo.Predicate.ofBool_eq_one_iff, BitVec.sle, decide_eq_true_eq] at h0
    simpa using h0
  have hlt : a.toInt < 91 := by
    unfold IntOp.cmpi at h1
    simp only [StableHlo.Predicate.ofBool_eq_one_iff, BitVec.slt, decide_eq_true_eq] at h1
    simpa using h1
  rw [BitVec.toInt_eq_toNat_cond] at hnn hlt
  have := a.isLt
  split at hnn <;> omega

instance : Subsingleton Cert.Pre_finite_inputs.S_.Idx := ⟨fun _ _ => funext fun d => d.elim0⟩

/-- Under the precondition every label word spells the class the specification reads from it. -/
theorem label_eq {F : FTy → Type} [FloatOps F] [Cert.Pre_finite_inputs.Facts]
    (a0 : FVec F Cert.Pre_finite_inputs.S16x600x91 .f32) (a1 : FVec F Cert.Pre_finite_inputs.S16x600x4 .f32)
    (a2 : IVec Cert.Pre_finite_inputs.S1024 32) (a3 : FVec F Cert.Pre_finite_inputs.S1024x4 .f32)
    (h : Cert.Pre_finite_inputs.fn (F := F) a0 a1 a2 a3 = fun _ => 1#1) (s : Fin 1024) :
    a2 (ix1 s) = BitVec.ofNat 32 (labelOf a2 s).val := by
  have h' := congrFun h ix0
  obtain ⟨-, hred⟩ := IntOp.andi_eq_one.1 h'
  have hall := Host.reduce_andi_all _ _ _ _ ix0 hred (ix1 s)
  obtain ⟨h0, h1⟩ := IntOp.andi_eq_one.1 hall
  have hlt : (a2 (ix1 s)).toNat < 91 := toNat_lt_of_cmp _ h0 h1
  unfold labelOf
  show a2 (ix1 s) = BitVec.ofNat 32 ((a2 (ix1 s)).toNat % 91)
  rw [Nat.mod_eq_of_lt hlt, BitVec.ofNat_toNat, BitVec.setWidth_eq]

end Cert.LabelRange

end
-- ==== Proof.Algebraic.lean ====
/-
  The two idealized programs compute one function. Under the precondition every target label is a natural below 91, so
  the kernel's clamped one-hot column and the reference's gather both select the softmax probability at that class;
  with that, the kernel's result array (the cost matrix its 25 row blocks tile, reshaped) and the reference's result
  (its chain of whole-array operations, reshaped) are the same cost matrix of the same flattened arguments.
-/
import proofs.«414946_j7335804141876_3_alg».proof.Defs
import proofs.«414946_j7335804141876_3_alg».proof.Proof.Gen.Pre_finite_inputs
import proofs.«414946_j7335804141876_3_alg».proof.Proof.KValue
import proofs.«414946_j7335804141876_3_alg».proof.Proof.KTables
import proofs.«414946_j7335804141876_3_alg».proof.Proof.RefValue
import proofs.«414946_j7335804141876_3_alg».proof.Proof.LabelRange

noncomputable section

namespace Cert.Proof.Alg

open Idealize.ShloMosaic Idealize.ShloMosaic.TcCoe Idealize.ShloMosaic.ValueIdx Idealize.SL.Sem Cert.CostSpec

/-- The tables the region finds, from the label range. -/
theorem tables (m : (ℓ : Loc Cert.KernelIdeal.nD Cert.KernelIdeal.τ Cert.KernelIdeal.sig) → Buf (Elt Ideal) ℓ)
    (c : Dev Cert.KernelIdeal.nD) (lab : Fin 1024 → Fin 91)
    (hlab : ∀ s : Fin 1024, (m ((c.tc : Thread Cert.KernelIdeal.nD Cert.KernelIdeal.τ).loc Cert.KernelIdeal.main_arg2) :
      Cert.KernelIdeal.S1024.Idx → BitVec 32) (ix1 s) = BitVec.ofNat 32 (lab s).val) :
    Cert.KernelIdeal.KVal.Tables m c lab (m ((c.tc : Thread Cert.KernelIdeal.nD Cert.KernelIdeal.τ).loc Cert.KernelIdeal.main_arg3)) :=
  ⟨Cert.KernelIdeal.KTab.V_v4_apply m c lab hlab,
   Cert.KernelIdeal.KTab.V_v45_row0 m c, Cert.KernelIdeal.KTab.V_v45_row1 m c, Cert.KernelIdeal.KTab.V_v45_row2 m c,
   Cert.KernelIdeal.KTab.V_v45_row3 m c, Cert.KernelIdeal.KTab.V_v45_row4 m c, Cert.KernelIdeal.KTab.V_v45_row5 m c,
   Cert.KernelIdeal.KTab.V_v45_row6 m c, Cert.KernelIdeal.KTab.V_v45_row7 m c, Cert.KernelIdeal.KTab.V_v45_row8 m c⟩

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hlab : ∀ (c : Dev Cert.KernelIdeal.nD) (s : Fin 1024),
      (m ((c.tc : Thread Cert.KernelIdeal.nD Cert.KernelIdeal.τ).loc Cert.KernelIdeal.main_arg2) : Cert.KernelIdeal.S1024.Idx → BitVec 32) (ix1 s)
        = BitVec.ofNat 32 (labelOf (m ((c.tc : Thread Cert.KernelIdeal.nD Cert.KernelIdeal.τ).loc Cert.KernelIdeal.main_arg2)) s).val :=
    fun c s => Cert.LabelRange.label_eq _ _ _ _ (hpre c) s
  refine ⟨fun c => shapeCast Cert.KernelIdeal.S16x600x1024
      (costMatrix
        (shapeCast Cert.KernelIdeal.S9600x91 (m ((c.tc : Thread Cert.KernelIdeal.nD Cert.KernelIdeal.τ).loc Cert.KernelIdeal.main_arg0)) Cert.KernelIdeal.Gen.shapeCasts_S16x600x91_S9600x91)
        (shapeCast Cert.KernelIdeal.S9600x4 (m ((c.tc : Thread Cert.KernelIdeal.nD Cert.KernelIdeal.τ).loc Cert.KernelIdeal.main_arg1)) Cert.KernelIdeal.Gen.shapeCasts_S16x600x4_S9600x4)
        (labelOf (m ((c.tc : Thread Cert.KernelIdeal.nD Cert.KernelIdeal.τ).loc Cert.KernelIdeal.main_arg2)))
        (m ((c.tc : Thread Cert.KernelIdeal.nD Cert.KernelIdeal.τ).loc Cert.KernelIdeal.main_arg3)))
      Cert.KernelIdeal.Gen.shapeCasts_S9600x1024_S16x600x1024, ?_, ?_⟩
  · refine (θ_run Cert.KernelIdeal.defs _ _).mono (fun _ h c => ⟨(h c).1.trans ?_, (h c).2⟩)
      (Cert.KernelIdeal.KVal.run m ρ (fun c => labelOf (m ((c.tc : Thread Cert.KernelIdeal.nD Cert.KernelIdeal.τ).loc Cert.KernelIdeal.main_arg2)))
        (fun c => m ((c.tc : Thread Cert.KernelIdeal.nD Cert.KernelIdeal.τ).loc Cert.KernelIdeal.main_arg3))
        (fun c => tables m c _ (hlab c)))
    rw [Cert.KernelIdeal.KTab.V_v0 m c, Cert.KernelIdeal.KTab.V_v1 m c]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v161_eq]
    unfold Cert.ReferenceIdeal.Read.val_main_v161
    rw [Cert.ReferenceIdeal.RefValue.flat_eq _ _ _ _
      (labelOf (m ((c.tc : Thread Cert.KernelIdeal.nD Cert.KernelIdeal.τ).loc Cert.KernelIdeal.main_arg2)))
      (fun s => by rw [(hagree c).2.2.1]; exact hlab c s)]
    rw [(hagree c).1, (hagree c).2.1, (hagree c).2.2.2]
    rfl

end Cert.Proof.Alg

end
-- ==== Proof.lean ====
/-
  The certificate of the matching-cost kernel against its jnp reference.

  Both programs take class scores [16, 600, 91], query boxes [16, 600, 4], target labels [1024] and target boxes
  [1024, 4], flatten the 9600 queries, and produce for every query r and target s the cost
      5 · ‖box r − box s‖₁  −  1 · softmax(scores r)(label s)  −  2 · giou(box r, box s),
  reshaped to [16, 600, 1024]. The kernel selects the class probability by a matrix product of the softmax block with a
  0/1 table built from the labels clamped to [0, 90], and reads the targets' corners and areas from a table the host
  packs; the reference gathers the probability at the label (a negative label counted from the end) and computes the
  corners on whole arrays. Where every label lies in [0, 91) — the precondition's last conjunct — the clamp and the
  wrap-around do nothing, the product against the 0/1 column is the selected probability, and the remaining arithmetic
  is the same on both sides up to a − b = a + (−b) and the order of a four-term sum, which hold on the extended reals.

  The frames of the two kernel programs are proved over the launch of the one pipelined region between the host
  operations before and after it; the reference's frame is its run with the result dropped; the idealization rewrote
  nothing, so the kernel program is its own idealization.
-/
import proofs.«414946_j7335804141876_3_alg».proof.Defs
import proofs.«414946_j7335804141876_3_alg».proof.Proof.Gen.Kernel
import proofs.«414946_j7335804141876_3_alg».proof.Proof.Gen.KernelIdeal
import proofs.«414946_j7335804141876_3_alg».proof.Proof.Gen.ReferenceIdeal
import proofs.«414946_j7335804141876_3_alg».proof.Proof.Gen.Pre_finite_inputs
import proofs.«414946_j7335804141876_3_alg».proof.Proof.Gen.ReferenceIdeal.Run
import proofs.«414946_j7335804141876_3_alg».proof.Proof.Gen.ReferenceIdeal.Read
import proofs.«414946_j7335804141876_3_alg».proof.Proof.FrameK
import proofs.«414946_j7335804141876_3_alg».proof.Proof.FrameKI
import proofs.«414946_j7335804141876_3_alg».proof.Proof.Algebraic
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Fr.frame m ρ

/-- So does the same program read on the extended reals. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Alg.algebraic⟩

end Cert.Proof

end
